-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000x2 : Shape := ⟨2, ![1000000, 2]⟩
abbrev S100000 : Shape := ⟨1, ![100000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1000000x2 : S_.BroadcastsInDim S1000000x2 (![] : Fin 0 → Fin S1000000x2.rank)
  reducesTo_S1000000x2_S_d0_1 : S1000000x2.ReducesTo [0, 1] S_

variable [Facts]

def fn_part2 {F : FTy → Type} [FloatOps F] (main_arg1 : IVec S1000000x2 32) (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 4294867296#32
  let main_v44 : IVec S1000000x2 32 := broadcastInDim S1000000x2 ![] bcast_S_S1000000x2 main_c_16
  let main_v45 : IVec S1000000x2 1 := cmpi .sge main_arg1 main_v44
  let main_c_17 : IVec S_ 32 := constantI S_ 32 100000#32
  let main_v46 : IVec S1000000x2 32 := broadcastInDim S1000000x2 ![] bcast_S_S1000000x2 main_c_17
  let main_v47 : IVec S1000000x2 1 := cmpi .slt main_arg1 main_v46
  let main_v48 : IVec S1000000x2 1 := andi main_v45 main_v47
  let main_c_18 : IVec S_ 1 := constantI S_ 1 1#1
  let main_v49 : IVec S_ 1 := (fun x v => Host.reduce IntOp.andi x v reducesTo_S1000000x2_S_d0_1 h_S_) main_v48 main_c_18
  let main_v50 : IVec S_ 1 := andi main_v43 main_v49
  main_v50

def fn_part1 {F : FTy → Type} [FloatOps F] (main_arg1 : IVec S1000000x2 32) (main_arg6 : FVec F S1 .f32) (main_arg7 : FVec F S256x128 .f32) (main_arg8 : FVec F S128 .f32) (main_arg9 : FVec F S128x64 .f32) (main_arg10 : FVec F S64 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_v33

def fn {F : FTy → Type} [FloatOps F] (main_arg0 : FVec F S100000x128 .f32) (main_arg1 : IVec S1000000x2 32) (main_arg2 : IVec S100000 32) (main_arg3 : FVec F S256x128 .f32) (main_arg4 : FVec F S128 .f32) (main_arg5 : FVec F S128x1 .f32) (main_arg6 : FVec F S1 .f32) (main_arg7 : FVec F S256x128 .f32) (main_arg8 : FVec F S128 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg1 main_arg6 main_arg7 main_arg8 main_arg9 main_arg10 main_v13 main_v16
-- ==== Kernel.lean ====
abbrev S100000x128 : Shape := ⟨2, ![100000, 128]⟩
abbrev S1000000x2 : Shape := ⟨2, ![1000000, 2]⟩
abbrev S100000 : Shape := ⟨1, ![100000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x64 : Shape := ⟨2, ![128, 64]⟩
abbrev S64 : Shape := ⟨1, ![64]⟩
abbrev S1000000x1 : Shape := ⟨2, ![1000000, 1]⟩
abbrev S1000000 : Shape := ⟨1, ![1000000]⟩
abbrev S_ : Shape := ⟨0, ![]⟩
abbrev S1x1 : Shape := ⟨2, ![1, 1]⟩
abbrev S1000000x128 : Shape := ⟨2, ![1000000, 128]⟩
abbrev S1000000x4 : Shape := ⟨2, ![1000000, 4]⟩
abbrev S128x128 : Shape := ⟨2, ![128, 128]⟩
abbrev S1x128 : Shape := ⟨2, ![1, 128]⟩
abbrev S1x64 : Shape := ⟨2, ![1, 64]⟩
abbrev S1000000x64 : Shape := ⟨2, ![1000000, 64]⟩
abbrev S4000x128 : Shape := ⟨2, ![4000, 128]⟩
abbrev S4000x4 : Shape := ⟨2, ![4000, 4]⟩
abbrev S4000x1 : Shape := ⟨2, ![4000, 1]⟩
abbrev S4000x64 : Shape := ⟨2, ![4000, 64]⟩

abbrev nBuf : Space → Nat
  | .hbm => 121
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1000000x2, .i32⟩
  | .hbm, ⟨2, _⟩ => ⟨S100000, .i32⟩
  | .hbm, ⟨3, _⟩ => ⟨S256x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1000000x1, .i32⟩
  | .hbm, ⟨12, _⟩ => ⟨S1000000, .i32⟩
  | .hbm, ⟨13, _⟩ => ⟨S1000000x1, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1, .i32⟩
  | .hbm, ⟨24, _⟩ => ⟨S_, .i32⟩
  | .hbm, ⟨25, _⟩ => ⟨S1000000x1, .i32⟩
  | .hbm, ⟨26, _⟩ => ⟨S1000000x1, .i1⟩
  | .hbm, ⟨27, _⟩ => ⟨S1x1, .i32⟩
  | .hbm, ⟨28, _⟩ => ⟨S1000000x1, .i32⟩
  | .hbm, ⟨29, _⟩ => ⟨S1000000x1, .i1⟩
  | .hbm, ⟨30, _⟩ => ⟨S1000000x1, .i1⟩
  | .hbm, ⟨31, _⟩ => ⟨S_, .i1⟩
  | .hbm, ⟨32, _⟩ => ⟨S1000000, .i1⟩
  | .hbm, ⟨33, _⟩ => ⟨S1000000x128, .f32⟩
  | .hbm, ⟨34, _⟩ => ⟨S1000000x128, .i1⟩
  | .hbm, ⟨35, _⟩ => ⟨S_, .f32⟩
  | .hbm, ⟨36, _⟩ => ⟨S1000000x128, .f32⟩
  | .hbm, ⟨37, _⟩ => ⟨S1000000x128, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1, .i32⟩
  | .hbm, ⟨47, _⟩ => ⟨S_, .i32⟩
  | .hbm, ⟨48, _⟩ => ⟨S1000000x1, .i32⟩
  | .hbm, ⟨49, _⟩ => ⟨S1000000x1, .i1⟩
  | .hbm, ⟨50, _⟩ => ⟨S1x1, .i32⟩
  | .hbm, ⟨51, _⟩ => ⟨S1000000x1, .i32⟩
  | .hbm, ⟨52, _⟩ => ⟨S1000000x1, .i1⟩
  | .hbm, ⟨53, _⟩ => ⟨S1000000x1, .i1⟩
  | .hbm, ⟨54, _⟩ => ⟨S_, .i1⟩
  | .hbm, ⟨55, _⟩ => ⟨S1000000, .i1⟩
  | .hbm, ⟨56, _⟩ => ⟨S1000000x128, .f32⟩
  | .hbm, ⟨57, _⟩ => ⟨S1000000x128, .i1⟩
  | .hbm, ⟨58, _⟩ => ⟨S_, .f32⟩
  | .hbm, ⟨59, _⟩ => ⟨S1000000x128, .f32⟩
  | .hbm, ⟨60, _⟩ => ⟨S1000000x128, .f32⟩
  | .hbm, ⟨61, _⟩ => ⟨S_, .i32⟩
  | .hbm, ⟨62, _⟩ => ⟨S1000000, .i32⟩
  | .hbm, ⟨63, _⟩ => ⟨S1000000, .i1⟩
  | .hbm, ⟨64, _⟩ => ⟨S_, .i32⟩
  | .hbm, ⟨65, _⟩ => ⟨S1000000, .i32⟩
  | .hbm, ⟨66, _⟩ => ⟨S1000000, .i32⟩
  | .hbm, ⟨67, _⟩ => ⟨S1000000, .i32⟩
  | .hbm, ⟨68, _⟩ => ⟨S1000000x1, .i32⟩
  | .hbm, ⟨69, _⟩ => ⟨S1, .i32⟩
  | .hbm, ⟨70, _⟩ => ⟨S_, .i32⟩
  | .hbm, ⟨71, _⟩ => ⟨S1000000x1, .i32⟩
  | .hbm, ⟨72, _⟩ => ⟨S1000000x1, .i1⟩
  | .hbm, ⟨73, _⟩ => ⟨S1x1, .i32⟩
  | .hbm, ⟨74, _⟩ => ⟨S1000000x1, .i32⟩
  | .hbm, ⟨75, _⟩ => ⟨S1000000x1, .i1⟩
  | .hbm, ⟨76, _⟩ => ⟨S1000000x1, .i1⟩
  | .hbm, ⟨77, _⟩ => ⟨S_, .i1⟩
  | .hbm, ⟨78, _⟩ => ⟨S1000000, .i1⟩
  | .hbm, ⟨79, _⟩ => ⟨S1000000, .i32⟩
  | .hbm, ⟨80, _⟩ => ⟨S_, .i32⟩
  | .hbm, ⟨81, _⟩ => ⟨S1000000, .i32⟩
  | .hbm, ⟨82, _⟩ => ⟨S1000000, .i32⟩
  | .hbm, ⟨83, _⟩ => ⟨S_, .i32⟩
  | .hbm, ⟨84, _⟩ => ⟨S1000000, .i32⟩
  | .hbm, ⟨85, _⟩ => ⟨S1000000, .i1⟩
  | .hbm, ⟨86, _⟩ => ⟨S_, .i32⟩
  | .hbm, ⟨87, _⟩ => ⟨S1000000, .i32⟩
  | .hbm, ⟨88, _⟩ => ⟨S1000000, .i32⟩
  | .hbm, ⟨89, _⟩ => ⟨S1000000, .i32⟩
  | .hbm, ⟨90, _⟩ => ⟨S1000000x1, .i32⟩
  | .hbm, ⟨91, _⟩ => ⟨S1, .i32⟩
  | .hbm, ⟨92, _⟩ => ⟨S_, .i32⟩
  | .hbm, ⟨93, _⟩ => ⟨S1000000x1, .i32⟩
  | .hbm, ⟨94, _⟩ => ⟨S1000000x1, .i1⟩
  | .hbm, ⟨95, _⟩ => ⟨S1x1, .i32⟩
  | .hbm, ⟨96, _⟩ => ⟨S1000000x1, .i32⟩
  | .hbm, ⟨97, _⟩ => ⟨S1000000x1, .i1⟩
  | .hbm, ⟨98, _⟩ => ⟨S1000000x1, .i1⟩
  | .hbm, ⟨99, _⟩ => ⟨S_, .i1⟩
  | .hbm, ⟨100, _⟩ => ⟨S1000000, .i1⟩
  | .hbm, ⟨101, _⟩ => ⟨S1000000, .i32⟩
  | .hbm, ⟨102, _⟩ => ⟨S_, .i32⟩
  | .hbm, ⟨103, _⟩ => ⟨S1000000, .i32⟩
  | .hbm, ⟨104, _⟩ => ⟨S1000000, .i32⟩
  | .hbm, ⟨105, _⟩ => ⟨S1000000x1, .i32⟩
  | .hbm, ⟨106, _⟩ => ⟨S1000000x1, .i32⟩
  | .hbm, ⟨107, _⟩ => ⟨S1000000x1, .i32⟩
  | .hbm, ⟨108, _⟩ => ⟨S1000000x1, .i32⟩
  | .hbm, ⟨109, _⟩ => ⟨S1000000x4, .i32⟩
  | .hbm, ⟨110, _⟩ => ⟨S128x128, .f32⟩
  | .hbm, ⟨111, _⟩ => ⟨S128x128, .f32⟩
  | .hbm, ⟨112, _⟩ => ⟨S128x128, .f32⟩
  | .hbm, ⟨113, _⟩ => ⟨S128x128, .f32⟩
  | .hbm, ⟨114, _⟩ => ⟨S1x128, .f32⟩
  | .hbm, ⟨115, _⟩ => ⟨S1x1, .f32⟩
  | .hbm, ⟨116, _⟩ => ⟨S1x128, .f32⟩
  | .hbm, ⟨117, _⟩ => ⟨S1x64, .f32⟩
  | .hbm, ⟨118, _⟩ => ⟨S1000000x1, .f32⟩
  | .hbm, ⟨119, _⟩ => ⟨S1000000x64, .f32⟩
  | .hbm, ⟨120, _⟩ => ⟨S1000000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x4, .i32⟩
  | .local _ .vmem, ⟨5, _⟩ => ⟨S4000x4, .i32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x1, .f32⟩
  | .local _ .vmem, ⟨10, _⟩ => ⟨S1x1, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S4000x1, .f32⟩
  | .local _ .vmem, ⟨17, _⟩ => ⟨S4000x1, .f32⟩
  | .local _ .vmem, ⟨18, _⟩ => ⟨S4000x64, .f32⟩
  | .local _ .vmem, ⟨19, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_c_4 : Ref sig .tc := ⟨.hbm, 80, rfl⟩
abbrev main_call2_v14 : Ref sig .tc := ⟨.hbm, 81, rfl⟩
abbrev main_v6 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_c_4 : Ref sig .tc := ⟨.hbm, 102, rfl⟩
abbrev main_call3_v14 : Ref sig .tc := ⟨.hbm, 103, rfl⟩
abbrev main_v7 : Ref sig .tc := ⟨.hbm, 104, rfl⟩
abbrev main_v8 : Ref sig .tc := ⟨.hbm, 105, rfl⟩
abbrev main_v9 : Ref sig .tc := ⟨.hbm, 106, rfl⟩
abbrev main_v10 : Ref sig .tc := ⟨.hbm, 107, rfl⟩
abbrev main_v11 : Ref sig .tc := ⟨.hbm, 108, rfl⟩
abbrev main_v12 : Ref sig .tc := ⟨.hbm, 109, rfl⟩
abbrev main_v13 : Ref sig .tc := ⟨.hbm, 110, rfl⟩
abbrev main_v14 : Ref sig .tc := ⟨.hbm, 111, rfl⟩
abbrev main_v15 : Ref sig .tc := ⟨.hbm, 112, rfl⟩
abbrev main_v16 : Ref sig .tc := ⟨.hbm, 113, rfl⟩
abbrev main_v17 : Ref sig .tc := ⟨.hbm, 114, rfl⟩
abbrev main_v18 : Ref sig .tc := ⟨.hbm, 115, rfl⟩
abbrev main_v19 : Ref sig .tc := ⟨.hbm, 116, rfl⟩
abbrev main_v20 : Ref sig .tc := ⟨.hbm, 117, rfl⟩
abbrev main_v21_0 : Ref sig .tc := ⟨.hbm, 118, rfl⟩
abbrev main_v21_1 : Ref sig .tc := ⟨.hbm, 119, rfl⟩
abbrev main_v22 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  concatenates_S1000000x1_S1000000x1_S1000000x1_S1000000x1_S1000000x4_d1 : Shape.Concatenates [S1000000x1, S1000000x1, S1000000x1, S1000000x1] S1000000x4 1
  slices_S256x128_S128x128_0_0 : S256x128.Slices ![0, 0] S128x128
  slices_S256x128_S128x128_128_0 : S256x128.Slices ![128, 0] S128x128
  shapeCasts_S128_S1x128 : S128.ShapeCasts S1x128
  shapeCasts_S1_S1x1 : S1.ShapeCasts S1x1
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  slices_S4000x4_o0_0_S4000x1 : S4000x4.Slices ![0, 0] S4000x1
  slices_S4000x4_o0_1_S4000x1 : S4000x4.Slices ![0, 1] S4000x1
  slices_S4000x4_o0_2_S4000x1 : S4000x4.Slices ![0, 2] S4000x1
  slices_S4000x4_o0_3_S4000x1 : S4000x4.Slices ![0, 3] S4000x1
  natLt_1_32 : 1 < 32
  iota_S4000x64_d1_w32 : S4000x64.Iotas .tc 32 [1]
  broadcasts_S4000x1_S4000x64 : S4000x1.Broadcasts S4000x64
  inb_S4000x1_S4000x1_0_0 : ∀ a, (![0, 0] : Fin 2 → Nat) a + S4000x1.size a ≤ S4000x1.size a
  h_S4000x1 : 0 < S4000x1.numel
  inb_S4000x64_S4000x64_0_0 : ∀ a, (![0, 0] : Fin 2 → Nat) a + S4000x64.size a ≤ S4000x64.size a
  h_S4000x64 : 0 < S4000x64.numel
  gather_S100000x128_S1000000x1_S1000000x128_1_0_n_n_0_1_1128_wf : GatherDims.WF S100000x128 S1000000x1 S1000000x128 [1] [0] [] [0] [] 1 ![1, 128]
  gather_S100000_S1000000x1_S1000000_n_0_n_n_0_1_1_wf : GatherDims.WF S100000 S1000000x1 S1000000 [] [0] [] [0] [] 1 ![1]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S1000000x128.size a
  hwx0_1 : ∀ i : grid0.Coords, EltTy.bits .f32 = 32 ∨ (Rect.block (s := S1000000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x4.size a ≤ S1000000x4.size a
  hwx0_2 : ∀ i : grid0.Coords, EltTy.bits .i32 = 32 ∨ (Rect.block (s := S1000000x4) S4000x4.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .f32 = 32 ∨ (Rect.block (s := S128x64) S128x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x1.size a ≤ S1000000x1.size a
  hwx0_13 : ∀ i : grid0.Coords, EltTy.bits .f32 = 32 ∨ (Rect.block (s := S1000000x1) S4000x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x64.size a ≤ S1000000x64.size a
  hwx0_14 : ∀ i : grid0.Coords, EltTy.bits .f32 = 32 ∨ (Rect.block (s := S1000000x64) S4000x64.size (cc0_transform_14 i) (hinb0_14 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21_0) S4000x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v21_1) S4000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S100000x128 : Shape := ⟨2, ![100000, 128]⟩
abbrev S1000000x2 : Shape := ⟨2, ![1000000, 2]⟩
abbrev S100000 : Shape := ⟨1, ![100000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x64 : Shape := ⟨2, ![128, 64]⟩
abbrev S64 : Shape := ⟨1, ![64]⟩
abbrev S1000000x1 : Shape := ⟨2, ![1000000, 1]⟩
abbrev S1000000 : Shape := ⟨1, ![1000000]⟩
abbrev S_ : Shape := ⟨0, ![]⟩
abbrev S1000000x128 : Shape := ⟨2, ![1000000, 128]⟩
abbrev S1000000x256 : Shape := ⟨2, ![1000000, 256]⟩
abbrev S1x128 : Shape := ⟨2, ![1, 128]⟩
abbrev S1x1 : Shape := ⟨2, ![1, 1]⟩
abbrev S1000000x64 : Shape := ⟨2, ![1000000, 64]⟩
abbrev S1x64 : Shape := ⟨2, ![1, 64]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000x2, .i32⟩
  | .hbm, ⟨2, _⟩ => ⟨S100000, .i32⟩
  | .hbm, ⟨3, _⟩ => ⟨S256x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1000000x1, .i32⟩
  | .hbm, ⟨12, _⟩ => ⟨S1000000, .i32⟩
  | .hbm, ⟨13, _⟩ => ⟨S1000000x1, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x128, .f32⟩
  | .hbm, ⟨33, _⟩ => ⟨S1000000x256, .f32⟩
  | .hbm, ⟨34, _⟩ => ⟨S1000000x128, .f32⟩
  | .hbm, ⟨35, _⟩ => ⟨S1x128, .f32⟩
  | .hbm, ⟨36, _⟩ => ⟨S1000000x128, .f32⟩
  | .hbm, ⟨37, _⟩ => ⟨S1000000x128, .f32⟩
  | .hbm, ⟨38, _⟩ => ⟨S_, .f32⟩
  | .hbm, ⟨39, _⟩ => ⟨S1000000x128, .f32⟩
  | .hbm, ⟨40, _⟩ => ⟨S1000000x128, .f32⟩
  | .hbm, ⟨41, _⟩ => ⟨S1000000x1, .f32⟩
  | .hbm, ⟨42, _⟩ => ⟨S1x1, .f32⟩
  | .hbm, ⟨43, _⟩ => ⟨S1000000x1, .f32⟩
  | .hbm, ⟨44, _⟩ => ⟨S1000000x1, .f32⟩
  | .hbm, ⟨45, _⟩ => ⟨S1000000, .f32⟩
  | .hbm, ⟨46, _⟩ => ⟨S1000000x128, .f32⟩
  | .hbm, ⟨47, _⟩ => ⟨S1x128, .f32⟩
  | .hbm, ⟨48, _⟩ => ⟨S1000000x128, .f32⟩
  | .hbm, ⟨49, _⟩ => ⟨S1000000x128, .f32⟩
  | .hbm, ⟨50, _⟩ => ⟨S_, .f32⟩
  | .hbm, ⟨51, _⟩ => ⟨S1000000x128, .f32⟩
  | .hbm, ⟨52, _⟩ => ⟨S1000000x128, .f32⟩
  | .hbm, ⟨53, _⟩ => ⟨S1000000x64, .f32⟩
  | .hbm, ⟨54, _⟩ => ⟨S1x64, .f32⟩
  | .hbm, ⟨55, _⟩ => ⟨S1000000x64, .f32⟩
  | .hbm, ⟨56, _⟩ => ⟨S1000000x64, .f32⟩
  | .hbm, ⟨57, _⟩ => ⟨S_, .i32⟩
  | .hbm, ⟨58, _⟩ => ⟨S1000000, .i32⟩
  | .hbm, ⟨59, _⟩ => ⟨S1000000, .i1⟩
  | .hbm, ⟨60, _⟩ => ⟨S_, .i32⟩
  | .hbm, ⟨61, _⟩ => ⟨S1000000, .i32⟩
  | .hbm, ⟨62, _⟩ => ⟨S1000000, .i32⟩
  | .hbm, ⟨63, _⟩ => ⟨S1000000, .i32⟩
  | .hbm, ⟨64, _⟩ => ⟨S1000000x1, .i32⟩
  | .hbm, ⟨65, _⟩ => ⟨S1000000, .i32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000, .i32⟩
  | .hbm, ⟨75, _⟩ => ⟨S_, .i32⟩
  | .hbm, ⟨76, _⟩ => ⟨S1000000, .i32⟩
  | .hbm, ⟨77, _⟩ => ⟨S1000000, .i1⟩
  | .hbm, ⟨78, _⟩ => ⟨S_, .i32⟩
  | .hbm, ⟨79, _⟩ => ⟨S1000000, .i32⟩
  | .hbm, ⟨80, _⟩ => ⟨S1000000, .i32⟩
  | .hbm, ⟨81, _⟩ => ⟨S1000000, .i1⟩
  | .hbm, ⟨82, _⟩ => ⟨S1000000, .i1⟩
  | .hbm, ⟨83, _⟩ => ⟨S1000000, .f32⟩
  | .hbm, ⟨84, _⟩ => ⟨S_, .f32⟩
  | .hbm, ⟨85, _⟩ => ⟨S1000000, .f32⟩
  | .hbm, ⟨86, _⟩ => ⟨S1000000, .f32⟩
  | .hbm, ⟨87, _⟩ => ⟨S1000000, .f32⟩
  | .hbm, ⟨88, _⟩ => ⟨S1000000, .i1⟩
  | .hbm, ⟨89, _⟩ => ⟨S1000000, .f32⟩
  | .hbm, ⟨90, _⟩ => ⟨S_, .f32⟩
  | .hbm, ⟨91, _⟩ => ⟨S1000000, .f32⟩
  | .hbm, ⟨92, _⟩ => ⟨S1000000, .f32⟩
  | .hbm, ⟨93, _⟩ => ⟨S1000000, .f32⟩
  | .hbm, ⟨94, _⟩ => ⟨S_, .i32⟩
  | .hbm, ⟨95, _⟩ => ⟨S1000000, .i32⟩
  | .hbm, ⟨96, _⟩ => ⟨S1000000, .i32⟩
  | .hbm, ⟨97, _⟩ => ⟨S64, .i32⟩
  | .hbm, ⟨98, _⟩ => ⟨S1x64, .i32⟩
  | .hbm, ⟨99, _⟩ => ⟨S1000000x1, .i32⟩
  | .hbm, ⟨100, _⟩ => ⟨S1000000x64, .i32⟩
  | .hbm, ⟨101, _⟩ => ⟨S1000000x64, .i32⟩
  | .hbm, ⟨102, _⟩ => ⟨S1000000x64, .i1⟩
  | .hbm, ⟨103, _⟩ => ⟨S_, .f32⟩
  | .hbm, ⟨104, _⟩ => ⟨S1000000x64, .f32⟩
  | .hbm, ⟨105, _⟩ => ⟨S1000000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_cst : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_3 : Ref sig .tc := ⟨.hbm, 57, rfl⟩
abbrev main_v38 : Ref sig .tc := ⟨.hbm, 58, rfl⟩
abbrev main_v39 : Ref sig .tc := ⟨.hbm, 59, rfl⟩
abbrev main_c_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_5 : Ref sig .tc := ⟨.hbm, 66, rfl⟩
abbrev main_v45 : Ref sig .tc := ⟨.hbm, 67, rfl⟩
abbrev main_v46 : Ref sig .tc := ⟨.hbm, 68, rfl⟩
abbrev main_c_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_7 : Ref sig .tc := ⟨.hbm, 75, rfl⟩
abbrev main_v52 : Ref sig .tc := ⟨.hbm, 76, rfl⟩
abbrev main_v53 : Ref sig .tc := ⟨.hbm, 77, rfl⟩
abbrev main_c_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_9 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_10 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_11 : Ref sig .tc := ⟨.hbm, 103, rfl⟩
abbrev main_call2_v0 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S1000000x1_S1000000x64_0_1 : S1000000x1.BroadcastsInDim S1000000x64 (![0, 1] : Fin 2 → Fin S1000000x64.rank)
  bcast_S_S1000000x64 : S_.BroadcastsInDim S1000000x64 (![] : Fin 0 → Fin S1000000x64.rank)
  gather_S100000x128_S1000000x1_S1000000x128_1_0_n_n_0_1_1128_wf : GatherDims.WF S100000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []
  dot_S1000000x128_S128x64_S1000000x64_1_0_0_1_n_n_wf : DotDims.WF S1000000x128 S128x64 S1000000x64 [1] [0] [0] [1] [] []
  gather_S100000_S1000000x1_S1000000_n_0_n_n_0_1_1_wf : GatherDims.WF S100000 S1000000x1 S1000000 [] [0] [] [0] [] 1 ![1]

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf

class Facts : Prop extends Facts₀ where

variable [Facts]
-- ==== Proof.BodyB.lean ====
import proofs.«405955_j8813272891626_1_alg».proof.Proof.Gen.Kernel.Skeleton
import Idealize.ShloMosaic.Lib.Pipeline.FrameBody
import Idealize.ShloMosaic.Lib.Ring
import Idealize.ShloMosaic.Lib.Tactic

/-! # The kernel body on its staging buffers

The body of the one pallas_call reads its thirteen input windows whole, computes two multilayer
perceptrons over the gathered rows (a scoring head of width 1 and a logits head of width 64, each
masked by integer side data), and writes each of its two output windows with ONE whole-buffer
store. This module names what each output window's staging buffer holds after the body, as a
function of the thirteen input blocks, and proves the body's triple. -/

-- membership in a rectangle of 4000 rows: the structural check recurses once per coordinate
set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses

Every access of the body is through the whole rectangle of its buffer: offset zero, the buffer's
own extents. One rectangle per buffer shape. -/

abbrev r_S4000x128 : Rect S4000x128 := Rect.unit (s := S4000x128) ![0, 0] S4000x128.size inb_S4000x128_S4000x128_0_0
abbrev r_S4000x4 : Rect S4000x4 := Rect.unit (s := S4000x4) ![0, 0] S4000x4.size inb_S4000x4_S4000x4_0_0
abbrev r_S128x128 : Rect S128x128 := Rect.unit (s := S128x128) ![0, 0] S128x128.size inb_S128x128_S128x128_0_0
abbrev r_S1x128 : Rect S1x128 := Rect.unit (s := S1x128) ![0, 0] S1x128.size inb_S1x128_S1x128_0_0
abbrev r_S128x1 : Rect S128x1 := Rect.unit (s := S128x1) ![0, 0] S128x1.size inb_S128x1_S128x1_0_0
abbrev r_S1x1 : Rect S1x1 := Rect.unit (s := S1x1) ![0, 0] S1x1.size inb_S1x1_S1x1_0_0
abbrev r_S128x64 : Rect S128x64 := Rect.unit (s := S128x64) ![0, 0] S128x64.size inb_S128x64_S128x64_0_0
abbrev r_S1x64 : Rect S1x64 := Rect.unit (s := S1x64) ![0, 0] S1x64.size inb_S1x64_S1x64_0_0
abbrev r_S4000x1 : Rect S4000x1 := Rect.unit (s := S4000x1) ![0, 0] S4000x1.size inb_S4000x1_S4000x1_0_0
abbrev r_S4000x64 : Rect S4000x64 := Rect.unit (s := S4000x64) ![0, 0] S4000x64.size inb_S4000x64_S4000x64_0_0

/-! ## What the body leaves in each output window's buffer -/

/-- Window 13's staging buffer (4000 rows, one score each) after the body, from the blocks of the
    input windows it depends on: its single whole-buffer store as one piece. `x0`, `x1` are the
    two gathered row blocks, `x3`, `x4` the two halves of the first layer's weight, `x5` its bias,
    `x6`, `x7` the second layer's weight and bias, and `x2` the integer side data whose columns
    decide the two penalties subtracted from the score. -/
def out0_13 (x0 x1 : Vec F S4000x128 .f32) (x2 : Vec F S4000x4 .i32) (x3 x4 : Vec F S128x128 .f32) (x5 : Vec F S1x128 .f32) (x6 : Vec F S128x1 .f32) (x7 : Vec F S1x1 .f32) : Vec F S4000x1 .f32 :=
  View.canon [⟨r_S4000x1, k0_pay10 (k0_pay4 (View.ld x0 r_S4000x128) (View.ld x1 r_S4000x128) (View.ld x3 r_S128x128) (View.ld x4 r_S128x128) (View.ld x5 r_S1x128) (View.ld x6 r_S128x1) (View.ld x7 r_S1x1)) (View.ld x2 r_S4000x4)⟩]

/-- Window 14's staging buffer (4000 rows of 64 logits) after the body: its single whole-buffer
    store as one piece. `x8`, `x9` are the two halves of the first layer's weight of this head,
    `x10` its bias, `x11`, `x12` the second layer's weight and bias; the side data `x2` gives, per
    row, how many leading logits are kept (the rest are set to a large negative constant). -/
def out0_14 (x0 x1 : Vec F S4000x128 .f32) (x2 : Vec F S4000x4 .i32) (x8 x9 : Vec F S128x128 .f32) (x10 : Vec F S1x128 .f32) (x11 : Vec F S128x64 .f32) (x12 : Vec F S1x64 .f32) : Vec F S4000x64 .f32 :=
  View.canon [⟨r_S4000x64, k0_pay1 (k0_pay7 (k0_pay3 (View.ld x1 r_S4000x128)) (k0_pay5 (View.ld x9 r_S128x128)) (k0_pay6 (View.ld x0 r_S4000x128) (View.ld x8 r_S128x128)) (View.ld x10 r_S1x128) (View.ld x11 r_S128x64) (View.ld x12 r_S1x64)) (k0_pay11 (View.ld x2 r_S4000x4))⟩]

/-- The one store into window 13's buffer is of the whole buffer, so it covers it. -/
theorem cover0_13 (p0 : Vec F S4000x1 .f32) (y : S4000x1.Idx) :
    ∃ pc ∈ ([⟨r_S4000x1, p0⟩] : List (View.Piece (Elt F) S4000x1 .f32)), y ∈ pc.1.set :=
  View.cover_of_tiled [⟨r_S4000x1, p0⟩] S4000x1.size (by rfl) y

/-- The one store into window 14's buffer is of the whole buffer, so it covers it. -/
theorem cover0_14 (p0 : Vec F S4000x64 .f32) (y : S4000x64.Idx) :
    ∃ pc ∈ ([⟨r_S4000x64, p0⟩] : List (View.Piece (Elt F) S4000x64 .f32)), y ∈ pc.1.set :=
  View.cover_of_tiled [⟨r_S4000x64, p0⟩] S4000x64.size (by rfl) y

/-! ## The body's triple -/

set_option maxHeartbeats 4000000 in
/-- The kernel body on whole staging memrefs — the thirteen inputs' at read contents `xW`, the two
    outputs' at anything — runs to the continuation holding the inputs' as they were and each
    output's at `out0_W` of the inputs'. The body reads each input once, whole; it also reads each
    output buffer once before overwriting it, a read whose value nothing uses, which is why owning
    the output buffers at SOME contents suffices. -/
theorem sound_kernel (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S4000x4 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S4000x1 .f32) (harg14 : arg14.IsWhole) (arg15 : Memref sig .tc .vmem S4000x64 .f32) (harg15 : arg15.IsWhole)
    (x0 : Vec F S4000x128 .f32) (x1 : Vec F S4000x128 .f32) (x2 : Vec F S4000x4 .i32) (x3 : Vec F S128x128 .f32) (x4 : Vec F S128x128 .f32) (x5 : Vec F S1x128 .f32) (x6 : Vec F S128x1 .f32) (x7 : Vec F S1x1 .f32) (x8 : Vec F S128x128 .f32) (x9 : Vec F S128x128 .f32) (x10 : Vec F S1x128 .f32) (x11 : Vec F S128x64 .f32) (x12 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (out0_13 x0 x1 x2 x3 x4 x5 x6 x7)
            ∗ owns (c : Thread nD τ) arg15 fullShare (out0_14 x0 x1 x2 x8 x9 x10 x11 x12)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_14 _)

end Cert.Kernel.Region

end
-- ==== Proof.HostB.lean ====
/- The host side of Kernel's frame: what the one pipelined region finds in each buffer when it is entered,
   @main around that region (six stretches of host operations before it, one reshape after it), each window's block
   at a grid point, and the frame claim's post read off a frame run. -/
import proofs.«405955_j8813272891626_1_alg».proof.Proof.Gen.Kernel.Launch
import Idealize.ShloMosaic.Lib.Pipeline.FrameBody
import Idealize.ShloMosaic.Lib.Pipeline.FrameSuffix

-- the decided inequalities between references range over 141 references
set_option maxRecDepth 16384

noncomputable section

namespace Cert.Kernel.Region

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Core `c`'s TensorCore buffer contents when the region is entered, as a valuation: after the six stretches of host
    operations before the region (the edge list's two index columns split off; the source and target rows of the node embeddings and of the army
    counts gathered, each with its bounds mask; the four integer columns packed into one array; the first-layer weight
    matrices of the two scorers cut into their source and target halves and the bias vectors reshaped to rows). -/
abbrev V0 (c : Dev nD) : Valuation τ sig (Elt F) :=
  StableHlo.after (List.flatten [hostOps0, hostOps0_1, hostOps0_2, hostOps0_3, hostOps0_4, hostOps0_5]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region, at the certificate's variants `𝒱₀`: the six stretches of host operations before it, the
    region, the reshape after it: it reduces to the region CONTINUED BY the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5] [hostOps1]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- The reshape after the region touches the pipeline's arrays and the bypassing buffers only (its buffers are unscoped
    TensorCore references, and with nothing prefetched every such reference is one or the other). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes only the flattened result, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the region does not write `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- The reshape after the region does not write `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- The reshape after the region does not write `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- The reshape after the region does not write `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- The reshape after the region does not write `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- The reshape after the region does not write `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- The reshape after the region does not write `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- The reshape after the region does not write `main_arg8`, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- The reshape after the region does not write `main_arg10`, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for ANY proof
    data whose array is the region-entry contents (`hA`) and whose body leaves the block in place (`hafter`). Windows
    0 to 2 (the gathered source and target rows and the packed integer columns) move with the grid point and are
    fetched at each; windows 3 to 12 (the weights and biases) have a constant block index, are fetched at the first
    point only, and afterwards still hold that same block. Every input window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to the
    frame post read at the eleven argument arrays is the frame claim's post. The two arguments a window stages directly
    (the edge scorer's second-layer weight column, window 6, and the army scorer's second-layer weight matrix, window 11) are inputs
    of the pipeline, never written back, so they end at their entry contents; the other nine are staged by no window
    and end as the reshape after the region leaves them, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).1 6).trans (((dats 0 c).arrAt_in 6 rfl _).trans ((hA c 6).trans (V_main_arg5 m c))),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).1 11).trans (((dats 0 c).arrAt_in 11 rfl _).trans ((hA c 11).trans (V_main_arg9 m c))),
      ((h c).2 main_arg10 (Pipeline.mem_restRefs_of main_arg10 (by decide) (by decide))).trans (W_main_arg10 m dats c)⟩) h

end Cert.Kernel.Region

end
-- ==== Proof.RunB.lean ====
import proofs.«405955_j8813272891626_1_alg».proof.Proof.BodyB
import proofs.«405955_j8813272891626_1_alg».proof.Proof.HostB
import proofs.«405955_j8813272891626_1_alg».proof.Proof.Gen.Kernel.Launch
import proofs.«405955_j8813272891626_1_alg».proof.Proof.Gen.Kernel.Skeleton
import proofs.«405955_j8813272891626_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The frame of the idealised kernel program

The one pipelined region of @main, run over its 250 grid points: the proof data that say what each
window's staging buffer holds after the body at each point, the obligation that the body meets them,
the run of @main around the region, and from it the frame: every argument array ends unchanged. -/

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input window's buffer still at its block, window 13's at the scores `out0_13` and window 14's
    at the masked logits `out0_14` of the input blocks at that point; the invariant holds the scoped rest and
    the generator register, which the body never touches; nothing is owed; every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t)
    | ⟨14, _⟩ => out0_14 (iblk m c 0 t) (iblk m c 1 t) (iblk m c 2 t) (iblk m c 8 t) (iblk m c 9 t) (iblk m c 10 t) (iblk m c 11 t) (iblk m c 12 t)
  Φ _ := Pipeline.ΦA spec0 c
  q _ := fullShare
  owed _ := 0

/-- The proof data's arrays are the region-entry contents: the definition projected, so that `V` — a fold over
    the ninety-odd host operations before the region — is never unfolded to check it. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) := by dsimp only [dats]
theorem after0_14 (c : Dev nD) (t : Fin cfg0.N) : (dats m 0 c).after 14 t = out0_14 (iblk m c 0 t) (iblk m c 1 t) (iblk m c 2 t) (iblk m c 8 t) (iblk m c 9 t) (iblk m c 10 t) (iblk m c 11 t) (iblk m c 12 t) := by dsimp only [dats]

/-- Each input's current staging buffer holds its block at every point, fetched there or not: the three row
    windows are fetched at every point; the ten parameter windows are fetched once, at the first point, and
    their block index never moves. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t`: the invariant, what the core owes, and each of the fifteen
    windows' current staging buffers, whole, at its contents before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns: the same, each buffer at its contents after the body. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' memrefs hold their blocks (`before0_W`), so the body's triple applies;
    the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point: the fifteen windows opened one by one. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME of the idealised kernel program, at any `F`: @main terminates on every weakly fair execution and
    each of its eleven argument arrays ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Region

end
-- ==== Proof.BodyI.lean ====
import proofs.«405955_j8813272891626_1_alg».proof.Proof.Gen.KernelIdeal.Skeleton
import Idealize.ShloMosaic.Lib.Pipeline.FrameBody
import Idealize.ShloMosaic.Lib.Ring
import Idealize.ShloMosaic.Lib.Tactic

/-! # The kernel body on its staging buffers

The body of the one pallas_call reads its thirteen input windows whole, computes two multilayer
perceptrons over the gathered rows (a scoring head of width 1 and a logits head of width 64, each
masked by integer side data), and writes each of its two output windows with ONE whole-buffer
store. This module names what each output window's staging buffer holds after the body, as a
function of the thirteen input blocks, and proves the body's triple. -/

-- membership in a rectangle of 4000 rows: the structural check recurses once per coordinate
set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses

Every access of the body is through the whole rectangle of its buffer: offset zero, the buffer's
own extents. One rectangle per buffer shape. -/

abbrev r_S4000x128 : Rect S4000x128 := Rect.unit (s := S4000x128) ![0, 0] S4000x128.size inb_S4000x128_S4000x128_0_0
abbrev r_S4000x4 : Rect S4000x4 := Rect.unit (s := S4000x4) ![0, 0] S4000x4.size inb_S4000x4_S4000x4_0_0
abbrev r_S128x128 : Rect S128x128 := Rect.unit (s := S128x128) ![0, 0] S128x128.size inb_S128x128_S128x128_0_0
abbrev r_S1x128 : Rect S1x128 := Rect.unit (s := S1x128) ![0, 0] S1x128.size inb_S1x128_S1x128_0_0
abbrev r_S128x1 : Rect S128x1 := Rect.unit (s := S128x1) ![0, 0] S128x1.size inb_S128x1_S128x1_0_0
abbrev r_S1x1 : Rect S1x1 := Rect.unit (s := S1x1) ![0, 0] S1x1.size inb_S1x1_S1x1_0_0
abbrev r_S128x64 : Rect S128x64 := Rect.unit (s := S128x64) ![0, 0] S128x64.size inb_S128x64_S128x64_0_0
abbrev r_S1x64 : Rect S1x64 := Rect.unit (s := S1x64) ![0, 0] S1x64.size inb_S1x64_S1x64_0_0
abbrev r_S4000x1 : Rect S4000x1 := Rect.unit (s := S4000x1) ![0, 0] S4000x1.size inb_S4000x1_S4000x1_0_0
abbrev r_S4000x64 : Rect S4000x64 := Rect.unit (s := S4000x64) ![0, 0] S4000x64.size inb_S4000x64_S4000x64_0_0

/-! ## What the body leaves in each output window's buffer -/

/-- Window 13's staging buffer (4000 rows, one score each) after the body, from the blocks of the
    input windows it depends on: its single whole-buffer store as one piece. `x0`, `x1` are the
    two gathered row blocks, `x3`, `x4` the two halves of the first layer's weight, `x5` its bias,
    `x6`, `x7` the second layer's weight and bias, and `x2` the integer side data whose columns
    decide the two penalties subtracted from the score. -/
def out0_13 (x0 x1 : Vec F S4000x128 .f32) (x2 : Vec F S4000x4 .i32) (x3 x4 : Vec F S128x128 .f32) (x5 : Vec F S1x128 .f32) (x6 : Vec F S128x1 .f32) (x7 : Vec F S1x1 .f32) : Vec F S4000x1 .f32 :=
  View.canon [⟨r_S4000x1, k0_pay10 (k0_pay4 (View.ld x0 r_S4000x128) (View.ld x1 r_S4000x128) (View.ld x3 r_S128x128) (View.ld x4 r_S128x128) (View.ld x5 r_S1x128) (View.ld x6 r_S128x1) (View.ld x7 r_S1x1)) (View.ld x2 r_S4000x4)⟩]

/-- Window 14's staging buffer (4000 rows of 64 logits) after the body: its single whole-buffer
    store as one piece. `x8`, `x9` are the two halves of the first layer's weight of this head,
    `x10` its bias, `x11`, `x12` the second layer's weight and bias; the side data `x2` gives, per
    row, how many leading logits are kept (the rest are set to a large negative constant). -/
def out0_14 (x0 x1 : Vec F S4000x128 .f32) (x2 : Vec F S4000x4 .i32) (x8 x9 : Vec F S128x128 .f32) (x10 : Vec F S1x128 .f32) (x11 : Vec F S128x64 .f32) (x12 : Vec F S1x64 .f32) : Vec F S4000x64 .f32 :=
  View.canon [⟨r_S4000x64, k0_pay1 (k0_pay7 (k0_pay3 (View.ld x1 r_S4000x128)) (k0_pay5 (View.ld x9 r_S128x128)) (k0_pay6 (View.ld x0 r_S4000x128) (View.ld x8 r_S128x128)) (View.ld x10 r_S1x128) (View.ld x11 r_S128x64) (View.ld x12 r_S1x64)) (k0_pay11 (View.ld x2 r_S4000x4))⟩]

/-- The one store into window 13's buffer is of the whole buffer, so it covers it. -/
theorem cover0_13 (p0 : Vec F S4000x1 .f32) (y : S4000x1.Idx) :
    ∃ pc ∈ ([⟨r_S4000x1, p0⟩] : List (View.Piece (Elt F) S4000x1 .f32)), y ∈ pc.1.set :=
  View.cover_of_tiled [⟨r_S4000x1, p0⟩] S4000x1.size (by rfl) y

/-- The one store into window 14's buffer is of the whole buffer, so it covers it. -/
theorem cover0_14 (p0 : Vec F S4000x64 .f32) (y : S4000x64.Idx) :
    ∃ pc ∈ ([⟨r_S4000x64, p0⟩] : List (View.Piece (Elt F) S4000x64 .f32)), y ∈ pc.1.set :=
  View.cover_of_tiled [⟨r_S4000x64, p0⟩] S4000x64.size (by rfl) y

/-! ## The body's triple -/

set_option maxHeartbeats 4000000 in
/-- The kernel body on whole staging memrefs — the thirteen inputs' at read contents `xW`, the two
    outputs' at anything — runs to the continuation holding the inputs' as they were and each
    output's at `out0_W` of the inputs'. The body reads each input once, whole; it also reads each
    output buffer once before overwriting it, a read whose value nothing uses, which is why owning
    the output buffers at SOME contents suffices. -/
theorem sound_kernel (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S4000x4 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S4000x1 .f32) (harg14 : arg14.IsWhole) (arg15 : Memref sig .tc .vmem S4000x64 .f32) (harg15 : arg15.IsWhole)
    (x0 : Vec F S4000x128 .f32) (x1 : Vec F S4000x128 .f32) (x2 : Vec F S4000x4 .i32) (x3 : Vec F S128x128 .f32) (x4 : Vec F S128x128 .f32) (x5 : Vec F S1x128 .f32) (x6 : Vec F S128x1 .f32) (x7 : Vec F S1x1 .f32) (x8 : Vec F S128x128 .f32) (x9 : Vec F S128x128 .f32) (x10 : Vec F S1x128 .f32) (x11 : Vec F S128x64 .f32) (x12 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (out0_13 x0 x1 x2 x3 x4 x5 x6 x7)
            ∗ owns (c : Thread nD τ) arg15 fullShare (out0_14 x0 x1 x2 x8 x9 x10 x11 x12)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_14 _)

end Cert.KernelIdeal.Region

end
-- ==== Proof.HostI.lean ====
/- The host side of KernelIdeal's frame: what the one pipelined region finds in each buffer when it is entered,
   @main around that region (six stretches of host operations before it, one reshape after it), each window's block
   at a grid point, and the frame claim's post read off a frame run. -/
import proofs.«405955_j8813272891626_1_alg».proof.Proof.Gen.KernelIdeal.Launch
import Idealize.ShloMosaic.Lib.Pipeline.FrameBody
import Idealize.ShloMosaic.Lib.Pipeline.FrameSuffix

-- the decided inequalities between references range over 141 references
set_option maxRecDepth 16384

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Core `c`'s TensorCore buffer contents when the region is entered, as a valuation: after the six stretches of host
    operations before the region (the edge list's two index columns split off; the source and target rows of the node embeddings and of the army
    counts gathered, each with its bounds mask; the four integer columns packed into one array; the first-layer weight
    matrices of the two scorers cut into their source and target halves and the bias vectors reshaped to rows). -/
abbrev V0 (c : Dev nD) : Valuation τ sig (Elt F) :=
  StableHlo.after (List.flatten [hostOps0, hostOps0_1, hostOps0_2, hostOps0_3, hostOps0_4, hostOps0_5]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region, at the certificate's variants `𝒱₀`: the six stretches of host operations before it, the
    region, the reshape after it: it reduces to the region CONTINUED BY the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5] [hostOps1]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- The reshape after the region touches the pipeline's arrays and the bypassing buffers only (its buffers are unscoped
    TensorCore references, and with nothing prefetched every such reference is one or the other). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes only the flattened result, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the region does not write `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- The reshape after the region does not write `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- The reshape after the region does not write `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- The reshape after the region does not write `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- The reshape after the region does not write `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- The reshape after the region does not write `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- The reshape after the region does not write `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- The reshape after the region does not write `main_arg8`, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- The reshape after the region does not write `main_arg10`, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for ANY proof
    data whose array is the region-entry contents (`hA`) and whose body leaves the block in place (`hafter`). Windows
    0 to 2 (the gathered source and target rows and the packed integer columns) move with the grid point and are
    fetched at each; windows 3 to 12 (the weights and biases) have a constant block index, are fetched at the first
    point only, and afterwards still hold that same block. Every input window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to the
    frame post read at the eleven argument arrays is the frame claim's post. The two arguments a window stages directly
    (the edge scorer's second-layer weight column, window 6, and the army scorer's second-layer weight matrix, window 11) are inputs
    of the pipeline, never written back, so they end at their entry contents; the other nine are staged by no window
    and end as the reshape after the region leaves them, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).1 6).trans (((dats 0 c).arrAt_in 6 rfl _).trans ((hA c 6).trans (V_main_arg5 m c))),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).1 11).trans (((dats 0 c).arrAt_in 11 rfl _).trans ((hA c 11).trans (V_main_arg9 m c))),
      ((h c).2 main_arg10 (Pipeline.mem_restRefs_of main_arg10 (by decide) (by decide))).trans (W_main_arg10 m dats c)⟩) h

end Cert.KernelIdeal.Region

end
-- ==== Proof.RunI.lean ====
import proofs.«405955_j8813272891626_1_alg».proof.Proof.BodyI
import proofs.«405955_j8813272891626_1_alg».proof.Proof.HostI
import proofs.«405955_j8813272891626_1_alg».proof.Proof.Gen.KernelIdeal.Launch
import proofs.«405955_j8813272891626_1_alg».proof.Proof.Gen.KernelIdeal.Skeleton
import proofs.«405955_j8813272891626_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The frame of the idealised kernel program

The one pipelined region of @main, run over its 250 grid points: the proof data that say what each
window's staging buffer holds after the body at each point, the obligation that the body meets them,
the run of @main around the region, and from it the frame: every argument array ends unchanged. -/

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input window's buffer still at its block, window 13's at the scores `out0_13` and window 14's
    at the masked logits `out0_14` of the input blocks at that point; the invariant holds the scoped rest and
    the generator register, which the body never touches; nothing is owed; every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t)
    | ⟨14, _⟩ => out0_14 (iblk m c 0 t) (iblk m c 1 t) (iblk m c 2 t) (iblk m c 8 t) (iblk m c 9 t) (iblk m c 10 t) (iblk m c 11 t) (iblk m c 12 t)
  Φ _ := Pipeline.ΦA spec0 c
  q _ := fullShare
  owed _ := 0

/-- The proof data's arrays are the region-entry contents: the definition projected, so that `V` — a fold over
    the ninety-odd host operations before the region — is never unfolded to check it. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) := by dsimp only [dats]
theorem after0_14 (c : Dev nD) (t : Fin cfg0.N) : (dats m 0 c).after 14 t = out0_14 (iblk m c 0 t) (iblk m c 1 t) (iblk m c 2 t) (iblk m c 8 t) (iblk m c 9 t) (iblk m c 10 t) (iblk m c 11 t) (iblk m c 12 t) := by dsimp only [dats]

/-- Each input's current staging buffer holds its block at every point, fetched there or not: the three row
    windows are fetched at every point; the ten parameter windows are fetched once, at the first point, and
    their block index never moves. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t`: the invariant, what the core owes, and each of the fifteen
    windows' current staging buffers, whole, at its contents before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns: the same, each buffer at its contents after the body. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' memrefs hold their blocks (`before0_W`), so the body's triple applies;
    the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point: the fifteen windows opened one by one. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME of the idealised kernel program, at any `F`: @main terminates on every weakly fair execution and
    each of its eleven argument arrays ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Region

end
-- ==== Proof.Spec.lean ====
/-
  The two scores of one edge as functions of the data they depend on.

  An edge has a source row `s` and a target row `t` of the embedding table (128 entries each), four words — the two
  endpoint indices `si`, `ti` as given and the army counts `sa`, `ta` at the endpoints — and it is scored by two
  small networks on the concatenation `[s, t]`:

  * a hidden layer `relu ([s, t] · W + b)` of 128 units, whose 256 × 128 weight matrix is used as its top half (the rows
    that meet `s`) and its bottom half (the rows that meet `t`): `[s, t] · W = s · W_top + t · W_bottom`, one sum over
    256 terms split into two sums over 128;
  * the EDGE score: the hidden layer against one output column, plus a bias, minus 1 when the edge is "bad" (the
    source has at most two armies, or the target at least three times the source's) and minus 100 when source and
    target are the same endpoint;
  * the ARMY score for sending `q + 1` armies, `q < 64`: the hidden layer against output column `q`, plus a bias, kept
    only when `q ≤ sa - 1` and replaced by the fill value `-10⁹` otherwise.

  Everything is on the extended reals, every operation exact; float literals are kept as the words they are printed as.
-/
import Idealize.ShloMosaic.PureOps.Ideal

noncomputable section

namespace Cert.Score

open Idealize.ShloMosaic

/-- Hidden unit `k` before the relu: `s · W_top[:, k] + t · W_bottom[:, k] + b[k]`. -/
def preAct (s t : Fin 128 → EReal) (Wt Wb : Fin 128 → Fin 128 → EReal) (b : Fin 128 → EReal) (k : Fin 128) : EReal :=
  ((∑ j : Fin 128, s j * Wt j k) + (∑ j : Fin 128, t j * Wb j k)) + b k

/-- Hidden unit `k`: the larger of the pre-activation and zero. -/
def hid (s t : Fin 128 → EReal) (Wt Wb : Fin 128 → Fin 128 → EReal) (b : Fin 128 → EReal) (k : Fin 128) : EReal :=
  max (preAct s t Wt Wb b k) (Ideal.ofBits .f32 0x00000000#32)

/-- A truth value as the number 0 or 1. -/
def bitVal (b : BitVec 1) : EReal := ((b.toNat : ℝ) : EReal)

/-- The edge is bad: `sa ≤ 2` or `ta ≥ 3 · sa` (signed 32-bit words; the product wraps as the words do). -/
def badBit (sa ta : BitVec 32) : BitVec 1 :=
  IntOp.ori (IntOp.cmpi .sle sa 2#32) (IntOp.cmpi .sge ta (IntOp.muli 3#32 sa))

/-- Source and target are the same endpoint (the indices compared as given). -/
def sameBit (si ti : BitVec 32) : BitVec 1 := IntOp.cmpi .eq si ti

/-- Sending `q + 1` armies is allowed: `q ≤ sa - 1`. -/
def validBit (q : Fin 64) (sa : BitVec 32) : BitVec 1 :=
  IntOp.cmpi .sle (BitVec.ofNat 32 q.val) (IntOp.subi sa 1#32)

/-- The edge score. -/
def edgeScore (s t : Fin 128 → EReal) (W1t W1b : Fin 128 → Fin 128 → EReal) (b1 : Fin 128 → EReal)
    (W2 : Fin 128 → EReal) (b2 : EReal) (si ti sa ta : BitVec 32) : EReal :=
  (((∑ k : Fin 128, hid s t W1t W1b b1 k * W2 k) + b2)
      - bitVal (badBit sa ta) * Ideal.ofBits .f32 0x3F800000#32)
    - bitVal (sameBit si ti) * Ideal.ofBits .f32 0x42C80000#32

/-- The army score for `q + 1` armies. -/
def armyScore (s t : Fin 128 → EReal) (A1t A1b : Fin 128 → Fin 128 → EReal) (ab1 : Fin 128 → EReal)
    (A2 : Fin 128 → EReal) (ab2 : EReal) (sa : BitVec 32) (q : Fin 64) : EReal :=
  Scalar.select (validBit q sa) ((∑ k : Fin 128, hid s t A1t A1b ab1 k * A2 k) + ab2) (Ideal.ofBits .f32 0xCE6E6B28#32)

end Cert.Score

end
-- ==== Proof.PayloadI.lean ====
import proofs.«405955_j8813272891626_1_alg».proof.Proof.BodyI
import proofs.«405955_j8813272891626_1_alg».proof.Proof.Spec
import Idealize.ShloMosaic.Lib.ValueIdx
import Idealize.ShloMosaic.Lib.Pipeline.Value
import Idealize.ShloMosaic.Lib.ValueLayout
import Idealize.ShloMosaic.PureOps.Ideal.Laws

/-! # The two stored values of the kernel body, read at one entry

At the ideal values (every float an extended real, every operation exact, a change of float format the
identity) the body's two whole-buffer stores are, entry by entry, the two row functions of the
specification: entry `(y, 0)` of the first output block is the edge score of row `y`, and entry `(y, q)` of
the second is the army score of row `y` for `q + 1` armies. Each is a function of row `y` of the two gathered
row blocks, of the weights and biases, and of the four integer words of row `y`.

The road: a product of a `4000 × 128` block with a `128 × n` weight into a zero accumulator, read at
`(y, k)`, is the sum over the 128 contraction positions `j` of entry `(y, j)` times entry `(j, k)`; the
hidden layer is two such products added, plus a bias row, clamped below at zero; every other operation of the
body acts entry by entry, or only moves entries (a column cut out of the integer block, a row or a column
repeated). -/

set_option maxRecDepth 16384

noncomputable section

namespace Cert.KernelIdeal.Region

open Cert.KernelIdeal Cert.KernelIdeal.Gen Idealize.ShloMosaic Idealize.ShloMosaic.ValueIdx

/-! The auxiliary facts live in their own namespace; the two closing theorems are stated in the enclosing one. -/
namespace Payload

/-- The offsets of every access of the body are zero on both axes. -/
theorem off_zero2 : (![0, 0] : Fin 2 → Nat) = fun _ => 0 := funext fun a => by fin_cases a <;> rfl

/-! ## The three products read at an entry

Each product contracts axis 1 of its left operand with axis 0 of its right operand; the result keeps the left
operand's row and the right operand's column. For each of the three dimension records: where the left and
the right operand are read for result entry `i` and contraction position `q`, axis by axis; then the product
into the zero accumulator as the sum over the 128 positions. -/

theorem lhs_hidden_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_hidden_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_hidden_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_hidden_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl
/-- A row block times a first-layer weight half: entry `(y, k)` is row `y` against column `k`. -/
theorem matmul_hidden_apply (a : FVec Ideal S4000x128 .bf16) (w : FVec Ideal S128x128 .bf16) (y : Fin 4000) (k : Fin 128) :
    matmul dot_S4000x128_S128x128_S4000x128_1_0_0_1_n_n none a w (constant (F := Ideal) S4000x128 .f32 0x00000000#32) (ix2 y k)
      = ∑ j : Fin 128, a (ix2 y j) * w (ix2 j k) := by
  simp only [matmul]
  rw [Ideal.matmul_constant_zero_apply, ← Equiv.sum_comp (contrEquiv1 dot_S4000x128_S128x128_S4000x128_1_0_0_1_n_n 128 rfl rfl).symm]
  refine Finset.sum_congr rfl fun j _ => ?_
  have hj := contrEquiv1_symm_val dot_S4000x128_S128x128_S4000x128_1_0_0_1_n_n 128 rfl rfl j
  have el : dot_S4000x128_S128x128_S4000x128_1_0_0_1_n_n.lhsIdx (ix2 y k) ((contrEquiv1 dot_S4000x128_S128x128_S4000x128_1_0_0_1_n_n 128 rfl rfl).symm j) = ix2 y j := funext fun ax => Fin.ext (by
    match ax with
    | ⟨0, _⟩ => exact lhs_hidden_0 _ _
    | ⟨1, _⟩ => exact (lhs_hidden_1 _ _).trans hj)
  have er : dot_S4000x128_S128x128_S4000x128_1_0_0_1_n_n.rhsIdx (ix2 y k) ((contrEquiv1 dot_S4000x128_S128x128_S4000x128_1_0_0_1_n_n 128 rfl rfl).symm j) = ix2 j k := funext fun ax => Fin.ext (by
    match ax with
    | ⟨0, _⟩ => exact (rhs_hidden_0 _ _).trans hj
    | ⟨1, _⟩ => exact rhs_hidden_1 _ _)
  rw [el, er]

theorem lhs_edge_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs_edge_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhs_edge_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhs_edge_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl
/-- The hidden layer times the edge head's one output column. -/
theorem matmul_edge_apply (a : FVec Ideal S4000x128 .bf16) (w : FVec Ideal S128x1 .bf16) (y : Fin 4000) (k : Fin 1) :
    matmul dot_S4000x128_S128x1_S4000x1_1_0_0_1_n_n none a w (constant (F := Ideal) S4000x1 .f32 0x00000000#32) (ix2 y k)
      = ∑ j : Fin 128, a (ix2 y j) * w (ix2 j k) := by
  simp only [matmul]
  rw [Ideal.matmul_constant_zero_apply, ← Equiv.sum_comp (contrEquiv1 dot_S4000x128_S128x1_S4000x1_1_0_0_1_n_n 128 rfl rfl).symm]
  refine Finset.sum_congr rfl fun j _ => ?_
  have hj := contrEquiv1_symm_val dot_S4000x128_S128x1_S4000x1_1_0_0_1_n_n 128 rfl rfl j
  have el : dot_S4000x128_S128x1_S4000x1_1_0_0_1_n_n.lhsIdx (ix2 y k) ((contrEquiv1 dot_S4000x128_S128x1_S4000x1_1_0_0_1_n_n 128 rfl rfl).symm j) = ix2 y j := funext fun ax => Fin.ext (by
    match ax with
    | ⟨0, _⟩ => exact lhs_edge_0 _ _
    | ⟨1, _⟩ => exact (lhs_edge_1 _ _).trans hj)
  have er : dot_S4000x128_S128x1_S4000x1_1_0_0_1_n_n.rhsIdx (ix2 y k) ((contrEquiv1 dot_S4000x128_S128x1_S4000x1_1_0_0_1_n_n 128 rfl rfl).symm j) = ix2 j k := funext fun ax => Fin.ext (by
    match ax with
    | ⟨0, _⟩ => exact (rhs_edge_0 _ _).trans hj
    | ⟨1, _⟩ => exact rhs_edge_1 _ _)
  rw [el, er]

theorem lhs_army_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_army_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs_army_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs_army_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl
/-- The hidden layer times the army head's 64 output columns. -/
theorem matmul_army_apply (a : FVec Ideal S4000x128 .bf16) (w : FVec Ideal S128x64 .bf16) (y : Fin 4000) (k : Fin 64) :
    matmul dot_S4000x128_S128x64_S4000x64_1_0_0_1_n_n none a w (constant (F := Ideal) S4000x64 .f32 0x00000000#32) (ix2 y k)
      = ∑ j : Fin 128, a (ix2 y j) * w (ix2 j k) := by
  simp only [matmul]
  rw [Ideal.matmul_constant_zero_apply, ← Equiv.sum_comp (contrEquiv1 dot_S4000x128_S128x64_S4000x64_1_0_0_1_n_n 128 rfl rfl).symm]
  refine Finset.sum_congr rfl fun j _ => ?_
  have hj := contrEquiv1_symm_val dot_S4000x128_S128x64_S4000x64_1_0_0_1_n_n 128 rfl rfl j
  have el : dot_S4000x128_S128x64_S4000x64_1_0_0_1_n_n.lhsIdx (ix2 y k) ((contrEquiv1 dot_S4000x128_S128x64_S4000x64_1_0_0_1_n_n 128 rfl rfl).symm j) = ix2 y j := funext fun ax => Fin.ext (by
    match ax with
    | ⟨0, _⟩ => exact lhs_army_0 _ _
    | ⟨1, _⟩ => exact (lhs_army_1 _ _).trans hj)
  have er : dot_S4000x128_S128x64_S4000x64_1_0_0_1_n_n.rhsIdx (ix2 y k) ((contrEquiv1 dot_S4000x128_S128x64_S4000x64_1_0_0_1_n_n 128 rfl rfl).symm j) = ix2 j k := funext fun ax => Fin.ext (by
    match ax with
    | ⟨0, _⟩ => exact (rhs_army_0 _ _).trans hj
    | ⟨1, _⟩ => exact rhs_army_1 _ _)
  rw [el, er]

/-! ## Entries that are only moved -/

/-- A `[a, 1]` column repeated along the columns to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `c` of the integer block, cut out as a `4000 × 1` column, reads at `(y, 0)` the block's entry `(y, c)`. -/
theorem column_apply (x : IVec S4000x4 32) (o : Nat) (h : S4000x4.Slices ![0, o] S4000x1) (y : Fin 4000) (c : Fin 4)
    (hc : c.val = o) : extractStridedSlice S4000x1 ![0, o] x h (ix2 y (0 : Fin 1)) = x (ix2 y c) :=
  slice2_axis1_apply o x h y (0 : Fin 1) c (by rw [hc]; rfl)

/-! ## The hidden layer

Both heads compute their hidden layer the same way from operands already narrowed to the short float format (the
identity here): the source rows against the top half of the weight, plus the target rows against the bottom half,
plus the bias row repeated over the 4000 rows, clamped below at zero. -/

/-- The hidden layer of either head as the body computes it. -/
def hiddenBlock (s t : FVec Ideal S4000x128 .bf16) (wt wb : FVec Ideal S128x128 .bf16) (bias : Vec Ideal S1x128 .f32) :
    FVec Ideal S4000x128 .f32 :=
  maximumf
    (addf
      (addf (matmul dot_S4000x128_S128x128_S4000x128_1_0_0_1_n_n none s wt (constant (F := Ideal) S4000x128 .f32 0x00000000#32))
        (matmul dot_S4000x128_S128x128_S4000x128_1_0_0_1_n_n none t wb (constant (F := Ideal) S4000x128 .f32 0x00000000#32)))
      (broadcastTo S4000x128 (shapeCast S1x128 bias shapeCasts_S1x128_S1x128) broadcasts_S1x128_S4000x128))
    (broadcast S4000x128 (Scalar.ofBits (F := Ideal) .f32 0x00000000#32))

/-- Its entry `(y, k)` is hidden unit `k` of row `y`. -/
theorem hiddenBlock_apply (s t : FVec Ideal S4000x128 .bf16) (wt wb : FVec Ideal S128x128 .bf16) (bias : Vec Ideal S1x128 .f32)
    (y : Fin 4000) (k : Fin 128) :
    hiddenBlock s t wt wb bias (ix2 y k) =
      Cert.Score.hid (fun j => s (ix2 y j)) (fun j => t (ix2 y j)) (fun j k => wt (ix2 j k)) (fun j k => wb (ix2 j k))
        (fun k => bias (ix2 (0 : Fin 1) k)) k := by
  unfold hiddenBlock Cert.Score.hid Cert.Score.preAct
  rw [maximumf_apply, addf_apply, addf_apply, matmul_hidden_apply, matmul_hidden_apply, broadcastTo_1b_ab_apply,
    shapeCast_self]
  rfl

/-! ## The loaded blocks as the products see them

A load's block is cast to its own shape and narrowed to the short float format before it enters a product: at
the ideal values both are the identity. -/

theorem pay2_apply (v0 : Vec Ideal S4000x128 .f32) (i : S4000x128.Idx) : k0_pay2 v0 i = v0 i := by
  show shapeCast S4000x128 v0 shapeCasts_S4000x128_S4000x128 i = v0 i
  rw [shapeCast_self]
theorem pay3_apply (v3 : Vec Ideal S4000x128 .f32) (i : S4000x128.Idx) : k0_pay3 v3 i = v3 i := by
  show shapeCast S4000x128 v3 shapeCasts_S4000x128_S4000x128 i = v3 i
  rw [shapeCast_self]
theorem pay5_apply (v32 : Vec Ideal S128x128 .f32) (i : S128x128.Idx) : k0_pay5 v32 i = v32 i := by
  show shapeCast S128x128 v32 shapeCasts_S128x128_S128x128 i = v32 i
  rw [shapeCast_self]
/-- A weight half cast to its own shape and narrowed, read at an entry. -/
theorem narrowed_weight_apply (w : Vec Ideal S128x128 .f32) (i : S128x128.Idx) :
    (truncf .bf16 (shapeCast S128x128 w shapeCasts_S128x128_S128x128 : FVec Ideal S128x128 .f32) bitsLt_bf16_f32 : FVec Ideal S128x128 .bf16) i = w i := by
  show shapeCast S128x128 w shapeCasts_S128x128_S128x128 i = w i
  rw [shapeCast_self]

/-! ## The edge head before its penalties -/

/-- The edge head's payload: the hidden layer against the one output column, plus the bias entry on every row. -/
theorem pay4_eq (v0 v3 : Vec Ideal S4000x128 .f32) (v6 v9 : Vec Ideal S128x128 .f32) (v15 : Vec Ideal S1x128 .f32)
    (v22 : Vec Ideal S128x1 .f32) (v25 : Vec Ideal S1x1 .f32) :
    k0_pay4 v0 v3 v6 v9 v15 v22 v25 =
      addf
        (matmul dot_S4000x128_S128x1_S4000x1_1_0_0_1_n_n none
          (truncf .bf16 (hiddenBlock (k0_pay2 v0) (k0_pay3 v3)
            (truncf .bf16 (shapeCast S128x128 v6 shapeCasts_S128x128_S128x128 : FVec Ideal S128x128 .f32) bitsLt_bf16_f32)
            (truncf .bf16 (shapeCast S128x128 v9 shapeCasts_S128x128_S128x128 : FVec Ideal S128x128 .f32) bitsLt_bf16_f32) v15) bitsLt_bf16_f32)
          (truncf .bf16 (v22 : FVec Ideal S128x1 .f32) bitsLt_bf16_f32) (constant (F := Ideal) S4000x1 .f32 0x00000000#32))
        (broadcastTo S4000x1 (shapeCast S1x1 v25 shapeCasts_S1x1_S1x1 : FVec Ideal S1x1 .f32) broadcasts_S1x1_S4000x1) := rfl

/-- Its entry `(y, 0)`: the hidden units of row `y` against the output column, plus the bias. -/
theorem pay4_apply (v0 v3 : Vec Ideal S4000x128 .f32) (v6 v9 : Vec Ideal S128x128 .f32) (v15 : Vec Ideal S1x128 .f32)
    (v22 : Vec Ideal S128x1 .f32) (v25 : Vec Ideal S1x1 .f32) (y : Fin 4000) :
    k0_pay4 v0 v3 v6 v9 v15 v22 v25 (ix2 y (0 : Fin 1)) =
      (∑ k : Fin 128, Cert.Score.hid (fun j => v0 (ix2 y j)) (fun j => v3 (ix2 y j)) (fun j k => v6 (ix2 j k))
          (fun j k => v9 (ix2 j k)) (fun k => v15 (ix2 (0 : Fin 1) k)) k * v22 (ix2 k (0 : Fin 1)))
        + v25 (ix2 (0 : Fin 1) (0 : Fin 1)) := by
  rw [pay4_eq, addf_apply, matmul_edge_apply, broadcastTo_1b_ab_apply, shapeCast_self]
  simp only [truncf_apply, hiddenBlock_apply, pay2_apply, pay3_apply, shapeCast_self]

/-! ## The integer side

The four words of a row are columns 0 to 3 of the integer block: the two endpoint indices and the two army
counts. The comparisons act word by word; a truth value enters the arithmetic widened to a 32-bit word and read
as a signed number, which is 0 or 1. -/

theorem cmpi_apply {s : Shape} {w : Nat} (p : CmpIPredicate) (a b : IVec s w) (i : s.Idx) :
    cmpi p a b i = IntOp.cmpi p (a i) (b i) := rfl
theorem ori_apply {s : Shape} {w : Nat} (a b : IVec s w) (i : s.Idx) : ori a b i = IntOp.ori (a i) (b i) := rfl
theorem muli_apply {s : Shape} {w : Nat} (a b : IVec s w) (i : s.Idx) : muli a b i = IntOp.muli (a i) (b i) := rfl
theorem subi_apply {s : Shape} {w : Nat} (a b : IVec s w) (i : s.Idx) : subi a b i = IntOp.subi (a i) (b i) := rfl

/-- A truth value widened to 32 bits and converted as a signed integer is the number 0 or 1. -/
theorem sitofp_bit (b : BitVec 1) : FloatOps.sitofp (F := Ideal) .f32 (b.setWidth 32) = Cert.Score.bitVal b := by
  show (((b.setWidth 32).toInt : ℝ) : EReal) = ((b.toNat : ℝ) : EReal)
  rcases BitVec.eq_zero_or_eq_one b with rfl | rfl
  · have h1 : (BitVec.setWidth 32 (0#1)).toInt = 0 := by decide
    have h2 : (0#1 : BitVec 1).toNat = 0 := by decide
    rw [h1, h2, Int.cast_zero, Nat.cast_zero]
  · have h1 : (BitVec.setWidth 32 (1#1)).toInt = 1 := by decide
    have h2 : (1#1 : BitVec 1).toNat = 1 := by decide
    rw [h1, h2, Int.cast_one, Nat.cast_one]

/-- The integer block cast to its own shape. -/
theorem pay8_apply (v52 : Vec Ideal S4000x4 .i32) (i : S4000x4.Idx) : k0_pay8 (F := Ideal) v52 i = v52 i := by
  show shapeCast S4000x4 v52 shapeCasts_S4000x4_S4000x4 i = v52 i
  rw [shapeCast_self]

/-- The source's army count of row `y`, as the body cuts it out: column 2. -/
theorem pay9_apply (v52 : Vec Ideal S4000x4 .i32) (y : Fin 4000) :
    k0_pay9 (F := Ideal) v52 (ix2 y (0 : Fin 1)) = v52 (ix2 y (2 : Fin 4)) := by
  show extractStridedSlice S4000x1 ![0, 2] (k0_pay8 (F := Ideal) v52) slices_S4000x4_o0_2_S4000x1 (ix2 y (0 : Fin 1)) = _
  rw [column_apply _ 2 _ y (2 : Fin 4) rfl, pay8_apply]

/-- The column index along axis 1, read at `(y, q)`, is the word `q`. -/
theorem iota_columns_apply (h : S4000x64.Iotas .tc 32 [1]) (y : Fin 4000) (q : Fin 64) :
    iota .tc S4000x64 32 [1] h (ix2 y q) = BitVec.ofNat 32 q.val :=
  iota_single_apply .tc S4000x64 32 1 h (ix2 y q)

/-- The edge head's two penalties: from the score of row `y`, 1 is taken off when the edge is bad and 100 when its
    endpoints are the same. -/
theorem pay10_apply (v28 : FVec Ideal S4000x1 .f32) (v52 : Vec Ideal S4000x4 .i32) (y : Fin 4000) :
    k0_pay10 v28 v52 (ix2 y (0 : Fin 1)) =
      (v28 (ix2 y (0 : Fin 1))
          - Cert.Score.bitVal (Cert.Score.badBit (v52 (ix2 y (2 : Fin 4))) (v52 (ix2 y (3 : Fin 4)))) * Ideal.ofBits .f32 0x3F800000#32)
        - Cert.Score.bitVal (Cert.Score.sameBit (v52 (ix2 y (0 : Fin 4))) (v52 (ix2 y (1 : Fin 4)))) * Ideal.ofBits .f32 0x42C80000#32 := by
  unfold k0_pay10 Cert.Score.badBit Cert.Score.sameBit
  simp only [subf_apply, mulf_apply, sitofp_apply, extui_apply, broadcast_apply, cmpi_apply, ori_apply, muli_apply, pay9_apply,
    column_apply _ 0 _ y (0 : Fin 4) rfl, column_apply _ 1 _ y (1 : Fin 4) rfl, column_apply _ 3 _ y (3 : Fin 4) rfl,
    pay8_apply, sitofp_bit, Ideal.ofBits_def]

/-- The army head's mask at `(y, q)`: sending `q + 1` armies from row `y`'s source is allowed. -/
theorem pay11_apply (v52 : Vec Ideal S4000x4 .i32) (y : Fin 4000) (q : Fin 64) :
    k0_pay11 (F := Ideal) v52 (ix2 y q) = Cert.Score.validBit q (v52 (ix2 y (2 : Fin 4))) := by
  unfold k0_pay11 Cert.Score.validBit
  simp only [cmpi_apply, broadcastTo_a1_ab_apply, subi_apply, broadcast_apply, pay9_apply]
  rw [iota_columns_apply]

/-! ## The army head before its mask -/

/-- The army head's payload, with the source rows' product (computed once, ahead of the rest) put back in its
    place: the hidden layer against the 64 output columns, plus the bias row on every row. -/
theorem pay7_eq (v0 : Vec Ideal S4000x128 .f32) (v29 : Vec Ideal S128x128 .f32) (v5 : FVec Ideal S4000x128 .bf16)
    (v34 : FVec Ideal S128x128 .bf16) (v38 : Vec Ideal S1x128 .f32) (v45 : Vec Ideal S128x64 .f32) (v48 : Vec Ideal S1x64 .f32) :
    k0_pay7 v5 v34 (k0_pay6 v0 v29) v38 v45 v48 =
      addf
        (matmul dot_S4000x128_S128x64_S4000x64_1_0_0_1_n_n none
          (truncf .bf16 (hiddenBlock (k0_pay2 v0) v5
            (truncf .bf16 (shapeCast S128x128 v29 shapeCasts_S128x128_S128x128 : FVec Ideal S128x128 .f32) bitsLt_bf16_f32)
            v34 v38) bitsLt_bf16_f32)
          (truncf .bf16 (v45 : FVec Ideal S128x64 .f32) bitsLt_bf16_f32) (constant (F := Ideal) S4000x64 .f32 0x00000000#32))
        (broadcastTo S4000x64 (shapeCast S1x64 v48 shapeCasts_S1x64_S1x64 : FVec Ideal S1x64 .f32) broadcasts_S1x64_S4000x64) := rfl

/-- Its entry `(y, q)`: the hidden units of row `y` against output column `q`, plus the bias of that column. -/
theorem pay7_apply (v0 : Vec Ideal S4000x128 .f32) (v29 : Vec Ideal S128x128 .f32) (v5 : FVec Ideal S4000x128 .bf16)
    (v34 : FVec Ideal S128x128 .bf16) (v38 : Vec Ideal S1x128 .f32) (v45 : Vec Ideal S128x64 .f32) (v48 : Vec Ideal S1x64 .f32)
    (y : Fin 4000) (q : Fin 64) :
    k0_pay7 v5 v34 (k0_pay6 v0 v29) v38 v45 v48 (ix2 y q) =
      (∑ k : Fin 128, Cert.Score.hid (fun j => v0 (ix2 y j)) (fun j => v5 (ix2 y j)) (fun j k => v29 (ix2 j k))
          (fun j k => v34 (ix2 j k)) (fun k => v38 (ix2 (0 : Fin 1) k)) k * v45 (ix2 k q))
        + v48 (ix2 (0 : Fin 1) q) := by
  rw [pay7_eq, addf_apply, matmul_army_apply, broadcastTo_1b_ab_apply]
  simp only [truncf_apply, hiddenBlock_apply, pay2_apply, shapeCast_self]

/-- The masked store: where the mask is set the logit, elsewhere the fill value. -/
theorem pay1_apply (v51 : FVec Ideal S4000x64 .f32) (v79 : IVec S4000x64 1) (i : S4000x64.Idx) :
    k0_pay1 v51 v79 i = Scalar.select (v79 i) (v51 i) (Ideal.ofBits .f32 0xCE6E6B28#32) := rfl

end Payload

open Payload

/-! ## The two stored values at an entry -/

/-- Entry `(y, 0)` of the first output block is the edge score of row `y`. -/
theorem out13_apply (x0 x1 : Vec Ideal S4000x128 .f32) (x2 : Vec Ideal S4000x4 .i32) (x3 x4 : Vec Ideal S128x128 .f32) (x5 : Vec Ideal S1x128 .f32) (x6 : Vec Ideal S128x1 .f32) (x7 : Vec Ideal S1x1 .f32) (y : Fin 4000) :
    out0_13 (F := Ideal) x0 x1 x2 x3 x4 x5 x6 x7 (ix2 y (0 : Fin 1)) =
      Cert.Score.edgeScore (fun j => x0 (ix2 y j)) (fun j => x1 (ix2 y j)) (fun j k => x3 (ix2 j k)) (fun j k => x4 (ix2 j k)) (fun k => x5 (ix2 (0 : Fin 1) k)) (fun k => x6 (ix2 k (0 : Fin 1))) (x7 (ix2 (0 : Fin 1) (0 : Fin 1))) (x2 (ix2 y (0 : Fin 4))) (x2 (ix2 y (1 : Fin 4))) (x2 (ix2 y (2 : Fin 4))) (x2 (ix2 y (3 : Fin 4))) := by
  unfold out0_13
  rw [View.canon_unit_zero off_zero2]
  simp only [View.ld_unit_zero (S := S4000x128) off_zero2, View.ld_unit_zero (S := S4000x4) off_zero2,
    View.ld_unit_zero (S := S128x128) off_zero2, View.ld_unit_zero (S := S1x128) off_zero2,
    View.ld_unit_zero (S := S128x1) off_zero2, View.ld_unit_zero (S := S1x1) off_zero2]
  rw [pay10_apply, pay4_apply]
  rfl

/-- Entry `(y, q)` of the second output block is the army score of row `y` for `q + 1` armies. -/
theorem out14_apply (x0 x1 : Vec Ideal S4000x128 .f32) (x2 : Vec Ideal S4000x4 .i32) (x8 x9 : Vec Ideal S128x128 .f32) (x10 : Vec Ideal S1x128 .f32) (x11 : Vec Ideal S128x64 .f32) (x12 : Vec Ideal S1x64 .f32) (y : Fin 4000) (q : Fin 64) :
    out0_14 (F := Ideal) x0 x1 x2 x8 x9 x10 x11 x12 (ix2 y q) =
      Cert.Score.armyScore (fun j => x0 (ix2 y j)) (fun j => x1 (ix2 y j)) (fun j k => x8 (ix2 j k)) (fun j k => x9 (ix2 j k)) (fun k => x10 (ix2 (0 : Fin 1) k)) (fun k => x11 (ix2 k q)) (x12 (ix2 (0 : Fin 1) q)) (x2 (ix2 y (2 : Fin 4))) q := by
  unfold out0_14
  rw [View.canon_unit_zero off_zero2]
  simp only [View.ld_unit_zero (S := S4000x128) off_zero2, View.ld_unit_zero (S := S4000x4) off_zero2,
    View.ld_unit_zero (S := S128x128) off_zero2, View.ld_unit_zero (S := S1x128) off_zero2,
    View.ld_unit_zero (S := S128x64) off_zero2, View.ld_unit_zero (S := S1x64) off_zero2]
  rw [pay1_apply, pay11_apply, pay7_apply]
  simp only [pay3_apply, pay5_apply]
  rfl

end Cert.KernelIdeal.Region

end
-- ==== Proof.BlocksI.lean ====
import proofs.«405955_j8813272891626_1_alg».proof.Proof.RunI
import proofs.«405955_j8813272891626_1_alg».proof.Proof.PayloadI
import proofs.«405955_j8813272891626_1_alg».proof.Proof.HostI
import proofs.«405955_j8813272891626_1_alg».proof.Proof.Spec
import proofs.«405955_j8813272891626_1_alg».proof.Proof.Gen.KernelIdeal.Launch
import proofs.«405955_j8813272891626_1_alg».proof.Proof.Gen.KernelIdeal.Points
import Idealize.ShloMosaic.Lib.Pipeline.Value
import Idealize.ShloMosaic.Lib.ValueIdx
import Idealize.ShloMosaic.Lib.StableHlo.Run
import Idealize.ShloMosaic.Lib.Pipeline.FrameSuffix

/-! # From the blocks to the two output arrays

Each of the 250 grid points writes back one block of 4000 rows of each output array: rows
`4000 t … 4000 t + 3999` at point `t`. This module reads the two arrays after the run entry by entry: entry
`(e, 0)` of the first is the edge score of row `e` of the gathered data, entry `(e, q)` of the second the army
score of row `e` for `q + 1` armies; and the one host operation after the region, which drops the first
array's unit axis. -/

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The arrays the region reads, and their blocks, at their literal types -/

/-- The gathered source rows, target rows and the four integer words per edge, as the region finds them. -/
abbrev srcArr (c : Dev nD) : Vec Ideal S1000000x128 .f32 := V m c main_v4
abbrev tgtArr (c : Dev nD) : Vec Ideal S1000000x128 .f32 := V m c main_v5
abbrev wordArr (c : Dev nD) : Vec Ideal S1000000x4 .i32 := V m c main_v12
/-- The edge scorer's first-layer weight halves, bias row, second-layer column and bias. -/
abbrev eW1t (c : Dev nD) : Vec Ideal S128x128 .f32 := V m c main_v13
abbrev eW1b (c : Dev nD) : Vec Ideal S128x128 .f32 := V m c main_v14
abbrev eB1 (c : Dev nD) : Vec Ideal S1x128 .f32 := V m c main_v17
abbrev eW2 (c : Dev nD) : Vec Ideal S128x1 .f32 := V m c main_arg5
abbrev eB2 (c : Dev nD) : Vec Ideal S1x1 .f32 := V m c main_v18
/-- The army scorer's first-layer weight halves, bias row, second-layer matrix and bias row. -/
abbrev aW1t (c : Dev nD) : Vec Ideal S128x128 .f32 := V m c main_v15
abbrev aW1b (c : Dev nD) : Vec Ideal S128x128 .f32 := V m c main_v16
abbrev aB1 (c : Dev nD) : Vec Ideal S1x128 .f32 := V m c main_v19
abbrev aW2 (c : Dev nD) : Vec Ideal S128x64 .f32 := V m c main_arg9
abbrev aB2 (c : Dev nD) : Vec Ideal S1x64 .f32 := V m c main_v20

/-- The thirteen input blocks at grid point `t`. -/
abbrev blk0 (c : Dev nD) (t : Fin cfg0.N) : Vec Ideal S4000x128 .f32 := iblk m c 0 t
abbrev blk1 (c : Dev nD) (t : Fin cfg0.N) : Vec Ideal S4000x128 .f32 := iblk m c 1 t
abbrev blk2 (c : Dev nD) (t : Fin cfg0.N) : Vec Ideal S4000x4 .i32 := iblk m c 2 t
abbrev blk3 (c : Dev nD) (t : Fin cfg0.N) : Vec Ideal S128x128 .f32 := iblk m c 3 t
abbrev blk4 (c : Dev nD) (t : Fin cfg0.N) : Vec Ideal S128x128 .f32 := iblk m c 4 t
abbrev blk5 (c : Dev nD) (t : Fin cfg0.N) : Vec Ideal S1x128 .f32 := iblk m c 5 t
abbrev blk6 (c : Dev nD) (t : Fin cfg0.N) : Vec Ideal S128x1 .f32 := iblk m c 6 t
abbrev blk7 (c : Dev nD) (t : Fin cfg0.N) : Vec Ideal S1x1 .f32 := iblk m c 7 t
abbrev blk8 (c : Dev nD) (t : Fin cfg0.N) : Vec Ideal S128x128 .f32 := iblk m c 8 t
abbrev blk9 (c : Dev nD) (t : Fin cfg0.N) : Vec Ideal S128x128 .f32 := iblk m c 9 t
abbrev blk10 (c : Dev nD) (t : Fin cfg0.N) : Vec Ideal S1x128 .f32 := iblk m c 10 t
abbrev blk11 (c : Dev nD) (t : Fin cfg0.N) : Vec Ideal S128x64 .f32 := iblk m c 11 t
abbrev blk12 (c : Dev nD) (t : Fin cfg0.N) : Vec Ideal S1x64 .f32 := iblk m c 12 t

/-! ## The printed index maps, decided over the grid -/

/-- The three row-blocked inputs and the two outputs are at block index `(t, 0)` at point `t`. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

/-- The weights and biases are at block index `(0, 0)` at every point. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-! ## Each input block read where it lies in its array

Stated over an arbitrary array of the window's shape: a block's entry sits in the array, on each axis, at the
block index times the block's extent plus its own coordinate. -/

/-- Row `y` of the 4000-row block at point `t` of the source-row window is row `4000 t + y` of its array. -/
theorem read_win0 (t : Fin cfg0.N) (A : Vec Ideal S1000000x128 .f32) (y : Fin 4000) (j : Fin 128) (h : 4000 * t.val + y.val < 1000000) :
    (((cfg0.win 0).blk t).view.read (Elt Ideal) A : Vec Ideal S4000x128 .f32) (ix2 y j) = A (ix2 ⟨4000 * t.val + y.val, h⟩ j) := by
  have hi := (idx_rows t).1
  rw [View.read_apply]
  show A (((cfg0.win 0).blk t).view.emb (ix2 y j)) = A (ix2 ⟨4000 * t.val + y.val, h⟩ j)
  refine congrArg A (funext fun a => Fin.ext ?_)
  match a with
  | ⟨0, _⟩ => show win0_0.index t (0 : Fin 2) * 4000 + 1 * y.val = 4000 * t.val + y.val; rw [hi.1]; omega
  | ⟨1, _⟩ => show win0_0.index t (1 : Fin 2) * 128 + 1 * j.val = j.val; rw [hi.2]; omega

theorem blk0_apply (c : Dev nD) (t : Fin cfg0.N) (y : Fin 4000) (j : Fin 128) (h : 4000 * t.val + y.val < 1000000) :
    blk0 m c t (ix2 y j) = srcArr m c (ix2 ⟨4000 * t.val + y.val, h⟩ j) :=
  read_win0 t (V m c (Pipeline.arrRef spec0 0)) y j h

/-- Row `y` of the 4000-row block at point `t` of the target-row window is row `4000 t + y` of its array. -/
theorem read_win1 (t : Fin cfg0.N) (A : Vec Ideal S1000000x128 .f32) (y : Fin 4000) (j : Fin 128) (h : 4000 * t.val + y.val < 1000000) :
    (((cfg0.win 1).blk t).view.read (Elt Ideal) A : Vec Ideal S4000x128 .f32) (ix2 y j) = A (ix2 ⟨4000 * t.val + y.val, h⟩ j) := by
  have hi := (idx_rows t).2.1
  rw [View.read_apply]
  show A (((cfg0.win 1).blk t).view.emb (ix2 y j)) = A (ix2 ⟨4000 * t.val + y.val, h⟩ j)
  refine congrArg A (funext fun a => Fin.ext ?_)
  match a with
  | ⟨0, _⟩ => show win0_1.index t (0 : Fin 2) * 4000 + 1 * y.val = 4000 * t.val + y.val; rw [hi.1]; omega
  | ⟨1, _⟩ => show win0_1.index t (1 : Fin 2) * 128 + 1 * j.val = j.val; rw [hi.2]; omega

theorem blk1_apply (c : Dev nD) (t : Fin cfg0.N) (y : Fin 4000) (j : Fin 128) (h : 4000 * t.val + y.val < 1000000) :
    blk1 m c t (ix2 y j) = tgtArr m c (ix2 ⟨4000 * t.val + y.val, h⟩ j) :=
  read_win1 t (V m c (Pipeline.arrRef spec0 1)) y j h

/-- Row `y` of the 4000-row block at point `t` of the integer-word window is row `4000 t + y` of its array. -/
theorem read_win2 (t : Fin cfg0.N) (A : Vec Ideal S1000000x4 .i32) (y : Fin 4000) (j : Fin 4) (h : 4000 * t.val + y.val < 1000000) :
    (((cfg0.win 2).blk t).view.read (Elt Ideal) A : Vec Ideal S4000x4 .i32) (ix2 y j) = A (ix2 ⟨4000 * t.val + y.val, h⟩ j) := by
  have hi := (idx_rows t).2.2.1
  rw [View.read_apply]
  show A (((cfg0.win 2).blk t).view.emb (ix2 y j)) = A (ix2 ⟨4000 * t.val + y.val, h⟩ j)
  refine congrArg A (funext fun a => Fin.ext ?_)
  match a with
  | ⟨0, _⟩ => show win0_2.index t (0 : Fin 2) * 4000 + 1 * y.val = 4000 * t.val + y.val; rw [hi.1]; omega
  | ⟨1, _⟩ => show win0_2.index t (1 : Fin 2) * 4 + 1 * j.val = j.val; rw [hi.2]; omega

theorem blk2_apply (c : Dev nD) (t : Fin cfg0.N) (y : Fin 4000) (j : Fin 4) (h : 4000 * t.val + y.val < 1000000) :
    blk2 m c t (ix2 y j) = wordArr m c (ix2 ⟨4000 * t.val + y.val, h⟩ j) :=
  read_win2 t (V m c (Pipeline.arrRef spec0 2)) y j h

/-- Window 3's one block is its whole array. -/
theorem read_win3 (t : Fin cfg0.N) (A : Vec Ideal S128x128 .f32) :
    (((cfg0.win 3).blk t).view.read (Elt Ideal) A : Vec Ideal S128x128 .f32) = A := by
  have hi := (idx_whole t).1
  funext y
  rw [View.read_apply]
  show A (((cfg0.win 3).blk t).view.emb y) = A y
  refine congrArg A (funext fun a => Fin.ext ?_)
  match a with
  | ⟨0, _⟩ => show win0_3.index t (0 : Fin 2) * 128 + 1 * (y 0).val = (y 0).val; rw [hi.1]; omega
  | ⟨1, _⟩ => show win0_3.index t (1 : Fin 2) * 128 + 1 * (y 1).val = (y 1).val; rw [hi.2]; omega

theorem blk3_eq (c : Dev nD) (t : Fin cfg0.N) : blk3 m c t = eW1t m c :=
  read_win3 t (V m c (Pipeline.arrRef spec0 3))

/-- Window 4's one block is its whole array. -/
theorem read_win4 (t : Fin cfg0.N) (A : Vec Ideal S128x128 .f32) :
    (((cfg0.win 4).blk t).view.read (Elt Ideal) A : Vec Ideal S128x128 .f32) = A := by
  have hi := (idx_whole t).2.1
  funext y
  rw [View.read_apply]
  show A (((cfg0.win 4).blk t).view.emb y) = A y
  refine congrArg A (funext fun a => Fin.ext ?_)
  match a with
  | ⟨0, _⟩ => show win0_4.index t (0 : Fin 2) * 128 + 1 * (y 0).val = (y 0).val; rw [hi.1]; omega
  | ⟨1, _⟩ => show win0_4.index t (1 : Fin 2) * 128 + 1 * (y 1).val = (y 1).val; rw [hi.2]; omega

theorem blk4_eq (c : Dev nD) (t : Fin cfg0.N) : blk4 m c t = eW1b m c :=
  read_win4 t (V m c (Pipeline.arrRef spec0 4))

/-- Window 5's one block is its whole array. -/
theorem read_win5 (t : Fin cfg0.N) (A : Vec Ideal S1x128 .f32) :
    (((cfg0.win 5).blk t).view.read (Elt Ideal) A : Vec Ideal S1x128 .f32) = A := by
  have hi := (idx_whole t).2.2.1
  funext y
  rw [View.read_apply]
  show A (((cfg0.win 5).blk t).view.emb y) = A y
  refine congrArg A (funext fun a => Fin.ext ?_)
  match a with
  | ⟨0, _⟩ => show win0_5.index t (0 : Fin 2) * 1 + 1 * (y 0).val = (y 0).val; rw [hi.1]; omega
  | ⟨1, _⟩ => show win0_5.index t (1 : Fin 2) * 128 + 1 * (y 1).val = (y 1).val; rw [hi.2]; omega

theorem blk5_eq (c : Dev nD) (t : Fin cfg0.N) : blk5 m c t = eB1 m c :=
  read_win5 t (V m c (Pipeline.arrRef spec0 5))

/-- Window 6's one block is its whole array. -/
theorem read_win6 (t : Fin cfg0.N) (A : Vec Ideal S128x1 .f32) :
    (((cfg0.win 6).blk t).view.read (Elt Ideal) A : Vec Ideal S128x1 .f32) = A := by
  have hi := (idx_whole t).2.2.2.1
  funext y
  rw [View.read_apply]
  show A (((cfg0.win 6).blk t).view.emb y) = A y
  refine congrArg A (funext fun a => Fin.ext ?_)
  match a with
  | ⟨0, _⟩ => show win0_6.index t (0 : Fin 2) * 128 + 1 * (y 0).val = (y 0).val; rw [hi.1]; omega
  | ⟨1, _⟩ => show win0_6.index t (1 : Fin 2) * 1 + 1 * (y 1).val = (y 1).val; rw [hi.2]; omega

theorem blk6_eq (c : Dev nD) (t : Fin cfg0.N) : blk6 m c t = eW2 m c :=
  read_win6 t (V m c (Pipeline.arrRef spec0 6))

/-- Window 7's one block is its whole array. -/
theorem read_win7 (t : Fin cfg0.N) (A : Vec Ideal S1x1 .f32) :
    (((cfg0.win 7).blk t).view.read (Elt Ideal) A : Vec Ideal S1x1 .f32) = A := by
  have hi := (idx_whole t).2.2.2.2.1
  funext y
  rw [View.read_apply]
  show A (((cfg0.win 7).blk t).view.emb y) = A y
  refine congrArg A (funext fun a => Fin.ext ?_)
  match a with
  | ⟨0, _⟩ => show win0_7.index t (0 : Fin 2) * 1 + 1 * (y 0).val = (y 0).val; rw [hi.1]; omega
  | ⟨1, _⟩ => show win0_7.index t (1 : Fin 2) * 1 + 1 * (y 1).val = (y 1).val; rw [hi.2]; omega

theorem blk7_eq (c : Dev nD) (t : Fin cfg0.N) : blk7 m c t = eB2 m c :=
  read_win7 t (V m c (Pipeline.arrRef spec0 7))

/-- Window 8's one block is its whole array. -/
theorem read_win8 (t : Fin cfg0.N) (A : Vec Ideal S128x128 .f32) :
    (((cfg0.win 8).blk t).view.read (Elt Ideal) A : Vec Ideal S128x128 .f32) = A := by
  have hi := (idx_whole t).2.2.2.2.2.1
  funext y
  rw [View.read_apply]
  show A (((cfg0.win 8).blk t).view.emb y) = A y
  refine congrArg A (funext fun a => Fin.ext ?_)
  match a with
  | ⟨0, _⟩ => show win0_8.index t (0 : Fin 2) * 128 + 1 * (y 0).val = (y 0).val; rw [hi.1]; omega
  | ⟨1, _⟩ => show win0_8.index t (1 : Fin 2) * 128 + 1 * (y 1).val = (y 1).val; rw [hi.2]; omega

theorem blk8_eq (c : Dev nD) (t : Fin cfg0.N) : blk8 m c t = aW1t m c :=
  read_win8 t (V m c (Pipeline.arrRef spec0 8))

/-- Window 9's one block is its whole array. -/
theorem read_win9 (t : Fin cfg0.N) (A : Vec Ideal S128x128 .f32) :
    (((cfg0.win 9).blk t).view.read (Elt Ideal) A : Vec Ideal S128x128 .f32) = A := by
  have hi := (idx_whole t).2.2.2.2.2.2.1
  funext y
  rw [View.read_apply]
  show A (((cfg0.win 9).blk t).view.emb y) = A y
  refine congrArg A (funext fun a => Fin.ext ?_)
  match a with
  | ⟨0, _⟩ => show win0_9.index t (0 : Fin 2) * 128 + 1 * (y 0).val = (y 0).val; rw [hi.1]; omega
  | ⟨1, _⟩ => show win0_9.index t (1 : Fin 2) * 128 + 1 * (y 1).val = (y 1).val; rw [hi.2]; omega

theorem blk9_eq (c : Dev nD) (t : Fin cfg0.N) : blk9 m c t = aW1b m c :=
  read_win9 t (V m c (Pipeline.arrRef spec0 9))

/-- Window 10's one block is its whole array. -/
theorem read_win10 (t : Fin cfg0.N) (A : Vec Ideal S1x128 .f32) :
    (((cfg0.win 10).blk t).view.read (Elt Ideal) A : Vec Ideal S1x128 .f32) = A := by
  have hi := (idx_whole t).2.2.2.2.2.2.2.1
  funext y
  rw [View.read_apply]
  show A (((cfg0.win 10).blk t).view.emb y) = A y
  refine congrArg A (funext fun a => Fin.ext ?_)
  match a with
  | ⟨0, _⟩ => show win0_10.index t (0 : Fin 2) * 1 + 1 * (y 0).val = (y 0).val; rw [hi.1]; omega
  | ⟨1, _⟩ => show win0_10.index t (1 : Fin 2) * 128 + 1 * (y 1).val = (y 1).val; rw [hi.2]; omega

theorem blk10_eq (c : Dev nD) (t : Fin cfg0.N) : blk10 m c t = aB1 m c :=
  read_win10 t (V m c (Pipeline.arrRef spec0 10))

/-- Window 11's one block is its whole array. -/
theorem read_win11 (t : Fin cfg0.N) (A : Vec Ideal S128x64 .f32) :
    (((cfg0.win 11).blk t).view.read (Elt Ideal) A : Vec Ideal S128x64 .f32) = A := by
  have hi := (idx_whole t).2.2.2.2.2.2.2.2.1
  funext y
  rw [View.read_apply]
  show A (((cfg0.win 11).blk t).view.emb y) = A y
  refine congrArg A (funext fun a => Fin.ext ?_)
  match a with
  | ⟨0, _⟩ => show win0_11.index t (0 : Fin 2) * 128 + 1 * (y 0).val = (y 0).val; rw [hi.1]; omega
  | ⟨1, _⟩ => show win0_11.index t (1 : Fin 2) * 64 + 1 * (y 1).val = (y 1).val; rw [hi.2]; omega

theorem blk11_eq (c : Dev nD) (t : Fin cfg0.N) : blk11 m c t = aW2 m c :=
  read_win11 t (V m c (Pipeline.arrRef spec0 11))

/-- Window 12's one block is its whole array. -/
theorem read_win12 (t : Fin cfg0.N) (A : Vec Ideal S1x64 .f32) :
    (((cfg0.win 12).blk t).view.read (Elt Ideal) A : Vec Ideal S1x64 .f32) = A := by
  have hi := (idx_whole t).2.2.2.2.2.2.2.2.2
  funext y
  rw [View.read_apply]
  show A (((cfg0.win 12).blk t).view.emb y) = A y
  refine congrArg A (funext fun a => Fin.ext ?_)
  match a with
  | ⟨0, _⟩ => show win0_12.index t (0 : Fin 2) * 1 + 1 * (y 0).val = (y 0).val; rw [hi.1]; omega
  | ⟨1, _⟩ => show win0_12.index t (1 : Fin 2) * 64 + 1 * (y 1).val = (y 1).val; rw [hi.2]; omega

theorem blk12_eq (c : Dev nD) (t : Fin cfg0.N) : blk12 m c t = aB2 m c :=
  read_win12 t (V m c (Pipeline.arrRef spec0 12))

/-! ## The first output array: one edge score per row -/

/-- The edge score of row `e` of the gathered data, from the arrays as the region finds them. -/
def edgeAt (c : Dev nD) (e : Fin 1000000) : EReal :=
  Cert.Score.edgeScore (fun j => srcArr m c (ix2 e j)) (fun j => tgtArr m c (ix2 e j)) (fun j k => eW1t m c (ix2 j k)) (fun j k => eW1b m c (ix2 j k)) (fun k => eB1 m c (ix2 (0 : Fin 1) k)) (fun k => eW2 m c (ix2 k (0 : Fin 1))) (eB2 m c (ix2 (0 : Fin 1) (0 : Fin 1))) (wordArr m c (ix2 e (0 : Fin 4))) (wordArr m c (ix2 e (1 : Fin 4))) (wordArr m c (ix2 e (2 : Fin 4))) (wordArr m c (ix2 e (3 : Fin 4)))

/-- The whole first output array as one function of the arrays the region reads. -/
def edgeArr (c : Dev nD) : Vec Ideal S1000000x1 .f32 := fun i => edgeAt m c (i 0)

theorem edgeArr_apply (c : Dev nD) (e : Fin 1000000) (j : Fin 1) : edgeArr m c (ix2 e j) = edgeAt m c e := rfl

/-- Row `y` of the 4000-row block at point `t` of output window 13 is row `4000 t + y` of its array. -/
theorem read_win13 (t : Fin cfg0.N) (A : Vec Ideal S1000000x1 .f32) (y : Fin 4000) (j : Fin 1) (h : 4000 * t.val + y.val < 1000000) :
    (((cfg0.win 13).blk t).view.read (Elt Ideal) A : Vec Ideal S4000x1 .f32) (ix2 y j) = A (ix2 ⟨4000 * t.val + y.val, h⟩ j) := by
  have hi := (idx_rows t).2.2.2.1
  rw [View.read_apply]
  show A (((cfg0.win 13).blk t).view.emb (ix2 y j)) = A (ix2 ⟨4000 * t.val + y.val, h⟩ j)
  refine congrArg A (funext fun a => Fin.ext ?_)
  match a with
  | ⟨0, _⟩ => show win0_13.index t (0 : Fin 2) * 4000 + 1 * y.val = 4000 * t.val + y.val; rw [hi.1]; omega
  | ⟨1, _⟩ => show win0_13.index t (1 : Fin 2) * 1 + 1 * j.val = j.val; rw [hi.2]; omega

/-- Entry `y` of what the body leaves in window 13's buffer at point `t` is the edge score of row `4000 t + y`. -/
theorem out13_entry (c : Dev nD) (t : Fin cfg0.N) (y : Fin 4000) (h : 4000 * t.val + y.val < 1000000) :
    out0_13 (F := Ideal) (blk0 m c t) (blk1 m c t) (blk2 m c t) (blk3 m c t) (blk4 m c t) (blk5 m c t) (blk6 m c t) (blk7 m c t) (ix2 y (0 : Fin 1))
      = edgeAt m c ⟨4000 * t.val + y.val, h⟩ := by
  refine (out13_apply (blk0 m c t) (blk1 m c t) (blk2 m c t) (blk3 m c t) (blk4 m c t) (blk5 m c t) (blk6 m c t) (blk7 m c t) y).trans ?_
  rw [blk3_eq, blk4_eq, blk5_eq, blk6_eq, blk7_eq]
  simp only [blk0_apply m c t y _ h, blk1_apply m c t y _ h, blk2_apply m c t y _ h]
  rfl

/-- What the body leaves in window 13's buffer at point `t` is block `t` of the array of edge scores. -/
theorem block13_eq (c : Dev nD) (t : Fin cfg0.N) :
    (out0_13 (F := Ideal) (blk0 m c t) (blk1 m c t) (blk2 m c t) (blk3 m c t) (blk4 m c t) (blk5 m c t) (blk6 m c t) (blk7 m c t) : Vec Ideal S4000x1 .f32)
      = (((cfg0.win 13).blk t).view.read (Elt Ideal) (edgeArr m c) : Vec Ideal S4000x1 .f32) := by
  have ht : t.val < 250 := lt_of_lt_of_eq t.isLt N_0
  funext y
  obtain ⟨y0, y1, rfl⟩ : ∃ (y0 : Fin 4000) (y1 : Fin 1), y = ix2 y0 y1 := ⟨y 0, y 1, eq_ix2 y⟩
  obtain rfl : y1 = 0 := Subsingleton.elim _ _
  have h : 4000 * t.val + y0.val < 1000000 := by have := y0.isLt; omega
  rw [read_win13 t (edgeArr m c) y0 0 h, edgeArr_apply]
  exact out13_entry m c t y0 h

/-- WHAT POINT `t` WRITES BACK to the first output array is block `t` of the array of edge scores. -/
theorem flushed13_eq (c : Dev nD) (t : Fin cfg0.N) :
    (dats m 0 c).flushed 13 t = ((cfg0.win 13).blk t).view.read (Elt Ideal) (edgeArr m c) := by
  show (cfg0.win 13).cut (grid0.coords t) ((dats m 0 c).after 13 t) = _
  rw [after0_13]
  exact block13_eq m c t

/-- An index of the array is in point `t`'s block iff each coordinate is in the block's range on its axis. -/
theorem mem_blk13 (t : Fin cfg0.N) (i : S1000000x1.Idx) :
    i ∈ ((cfg0.win 13).blk t).view.set ↔ ∀ a : Fin 2, win0_13.index t a * S4000x1.size a ≤ (i a).val ∧ (i a).val < win0_13.index t a * S4000x1.size a + S4000x1.size a := by
  show i ∈ ((View.whole main_v21_0).slice (win0_13.rect t)).set ↔ _
  rw [View.set_slice_whole, Rect.mem_set_unit]
  exact Iff.rfl

/-- Every row is in some point's block: row `r` in that of point `r / 4000`. -/
theorem cover13 (i : S1000000x1.Idx) : ∃ t : Fin cfg0.N, (cfg0.win 13).flush t = true ∧ i ∈ ((cfg0.win 13).blk t).view.set := by
  have hi0 : (i 0).val < 1000000 := (i 0).isLt
  have hi1 : (i 1).val < 1 := (i 1).isLt
  have hq : (i 0).val / 4000 < cfg0.N := lt_of_lt_of_eq (by omega : (i 0).val / 4000 < 250) N_0.symm
  obtain ⟨t, ht⟩ : ∃ t : Fin cfg0.N, t.val = (i 0).val / 4000 := ⟨⟨_, hq⟩, rfl⟩
  have hx := (idx_rows t).2.2.2.1
  refine ⟨t, flush0_13 t, ?_⟩
  rw [mem_blk13]
  intro a
  match a with
  | ⟨0, _⟩ =>
    show win0_13.index t (0 : Fin 2) * 4000 ≤ (i 0).val ∧ (i 0).val < win0_13.index t (0 : Fin 2) * 4000 + 4000
    rw [hx.1, ht]; omega
  | ⟨1, _⟩ =>
    show win0_13.index t (1 : Fin 2) * 1 ≤ (i 1).val ∧ (i 1).val < win0_13.index t (1 : Fin 2) * 1 + 1
    rw [hx.2]; omega

/-- THE ARRAY after the run, as one function of the arrays the region reads. -/
theorem final13 (c : Dev nD) : (dats m 0 c).arrAt 13 cfg0.N = edgeArr m c :=
  (dats m 0 c).arrAt_eq_of_cover 13 (edgeArr m c) (fun t _ => flushed13_eq m c t) cover13

theorem arr13_apply (c : Dev nD) (e : Fin 1000000) : (dats m 0 c).arrAt 13 cfg0.N (ix2 e (0 : Fin 1)) =
      Cert.Score.edgeScore (fun j => V m c main_v4 (ix2 e j)) (fun j => V m c main_v5 (ix2 e j)) (fun j k => V m c main_v13 (ix2 j k)) (fun j k => V m c main_v14 (ix2 j k)) (fun k => V m c main_v17 (ix2 (0 : Fin 1) k)) (fun k => V m c main_arg5 (ix2 k (0 : Fin 1))) (V m c main_v18 (ix2 (0 : Fin 1) (0 : Fin 1))) (V m c main_v12 (ix2 e (0 : Fin 4))) (V m c main_v12 (ix2 e (1 : Fin 4))) (V m c main_v12 (ix2 e (2 : Fin 4))) (V m c main_v12 (ix2 e (3 : Fin 4))) := by
  rw [final13 m c, edgeArr_apply]
  rfl

/-! ## The second output array: sixty-four army scores per row -/

/-- The army score of row `e` of the gathered data for `q + 1` armies, from the arrays as the region finds them. -/
def armyAt (c : Dev nD) (e : Fin 1000000) (q : Fin 64) : EReal :=
  Cert.Score.armyScore (fun j => srcArr m c (ix2 e j)) (fun j => tgtArr m c (ix2 e j)) (fun j k => aW1t m c (ix2 j k)) (fun j k => aW1b m c (ix2 j k)) (fun k => aB1 m c (ix2 (0 : Fin 1) k)) (fun k => aW2 m c (ix2 k q)) (aB2 m c (ix2 (0 : Fin 1) q)) (wordArr m c (ix2 e (2 : Fin 4))) q

/-- The whole second output array as one function of the arrays the region reads. -/
def armyArr (c : Dev nD) : Vec Ideal S1000000x64 .f32 := fun i => armyAt m c (i 0) (i 1)

theorem armyArr_apply (c : Dev nD) (e : Fin 1000000) (q : Fin 64) : armyArr m c (ix2 e q) = armyAt m c e q := rfl

/-- Row `y` of the 4000-row block at point `t` of output window 14 is row `4000 t + y` of its array. -/
theorem read_win14 (t : Fin cfg0.N) (A : Vec Ideal S1000000x64 .f32) (y : Fin 4000) (j : Fin 64) (h : 4000 * t.val + y.val < 1000000) :
    (((cfg0.win 14).blk t).view.read (Elt Ideal) A : Vec Ideal S4000x64 .f32) (ix2 y j) = A (ix2 ⟨4000 * t.val + y.val, h⟩ j) := by
  have hi := (idx_rows t).2.2.2.2
  rw [View.read_apply]
  show A (((cfg0.win 14).blk t).view.emb (ix2 y j)) = A (ix2 ⟨4000 * t.val + y.val, h⟩ j)
  refine congrArg A (funext fun a => Fin.ext ?_)
  match a with
  | ⟨0, _⟩ => show win0_14.index t (0 : Fin 2) * 4000 + 1 * y.val = 4000 * t.val + y.val; rw [hi.1]; omega
  | ⟨1, _⟩ => show win0_14.index t (1 : Fin 2) * 64 + 1 * j.val = j.val; rw [hi.2]; omega

/-- Entry `(y, q)` of what the body leaves in window 14's buffer at point `t` is the army score of row `4000 t + y`
    for `q + 1` armies. -/
theorem out14_entry (c : Dev nD) (t : Fin cfg0.N) (y : Fin 4000) (q : Fin 64) (h : 4000 * t.val + y.val < 1000000) :
    out0_14 (F := Ideal) (blk0 m c t) (blk1 m c t) (blk2 m c t) (blk8 m c t) (blk9 m c t) (blk10 m c t) (blk11 m c t) (blk12 m c t) (ix2 y q)
      = armyAt m c ⟨4000 * t.val + y.val, h⟩ q := by
  refine (out14_apply (blk0 m c t) (blk1 m c t) (blk2 m c t) (blk8 m c t) (blk9 m c t) (blk10 m c t) (blk11 m c t) (blk12 m c t) y q).trans ?_
  rw [blk8_eq, blk9_eq, blk10_eq, blk11_eq, blk12_eq]
  simp only [blk0_apply m c t y _ h, blk1_apply m c t y _ h, blk2_apply m c t y _ h]
  rfl

/-- What the body leaves in window 14's buffer at point `t` is block `t` of the array of army scores. -/
theorem block14_eq (c : Dev nD) (t : Fin cfg0.N) :
    (out0_14 (F := Ideal) (blk0 m c t) (blk1 m c t) (blk2 m c t) (blk8 m c t) (blk9 m c t) (blk10 m c t) (blk11 m c t) (blk12 m c t) : Vec Ideal S4000x64 .f32)
      = (((cfg0.win 14).blk t).view.read (Elt Ideal) (armyArr m c) : Vec Ideal S4000x64 .f32) := by
  have ht : t.val < 250 := lt_of_lt_of_eq t.isLt N_0
  funext y
  obtain ⟨y0, y1, rfl⟩ : ∃ (y0 : Fin 4000) (y1 : Fin 64), y = ix2 y0 y1 := ⟨y 0, y 1, eq_ix2 y⟩
  have h : 4000 * t.val + y0.val < 1000000 := by have := y0.isLt; omega
  rw [read_win14 t (armyArr m c) y0 y1 h, armyArr_apply]
  exact out14_entry m c t y0 y1 h

/-- WHAT POINT `t` WRITES BACK to the second output array is block `t` of the array of army scores. -/
theorem flushed14_eq (c : Dev nD) (t : Fin cfg0.N) :
    (dats m 0 c).flushed 14 t = ((cfg0.win 14).blk t).view.read (Elt Ideal) (armyArr m c) := by
  show (cfg0.win 14).cut (grid0.coords t) ((dats m 0 c).after 14 t) = _
  rw [after0_14]
  exact block14_eq m c t

/-- An index of the array is in point `t`'s block iff each coordinate is in the block's range on its axis. -/
theorem mem_blk14 (t : Fin cfg0.N) (i : S1000000x64.Idx) :
    i ∈ ((cfg0.win 14).blk t).view.set ↔ ∀ a : Fin 2, win0_14.index t a * S4000x64.size a ≤ (i a).val ∧ (i a).val < win0_14.index t a * S4000x64.size a + S4000x64.size a := by
  show i ∈ ((View.whole main_v21_1).slice (win0_14.rect t)).set ↔ _
  rw [View.set_slice_whole, Rect.mem_set_unit]
  exact Iff.rfl

/-- Every row is in some point's block: row `r` in that of point `r / 4000`. -/
theorem cover14 (i : S1000000x64.Idx) : ∃ t : Fin cfg0.N, (cfg0.win 14).flush t = true ∧ i ∈ ((cfg0.win 14).blk t).view.set := by
  have hi0 : (i 0).val < 1000000 := (i 0).isLt
  have hi1 : (i 1).val < 64 := (i 1).isLt
  have hq : (i 0).val / 4000 < cfg0.N := lt_of_lt_of_eq (by omega : (i 0).val / 4000 < 250) N_0.symm
  obtain ⟨t, ht⟩ : ∃ t : Fin cfg0.N, t.val = (i 0).val / 4000 := ⟨⟨_, hq⟩, rfl⟩
  have hx := (idx_rows t).2.2.2.2
  refine ⟨t, flush0_14 t, ?_⟩
  rw [mem_blk14]
  intro a
  match a with
  | ⟨0, _⟩ =>
    show win0_14.index t (0 : Fin 2) * 4000 ≤ (i 0).val ∧ (i 0).val < win0_14.index t (0 : Fin 2) * 4000 + 4000
    rw [hx.1, ht]; omega
  | ⟨1, _⟩ =>
    show win0_14.index t (1 : Fin 2) * 64 ≤ (i 1).val ∧ (i 1).val < win0_14.index t (1 : Fin 2) * 64 + 64
    rw [hx.2]; omega

/-- THE ARRAY after the run, as one function of the arrays the region reads. -/
theorem final14 (c : Dev nD) : (dats m 0 c).arrAt 14 cfg0.N = armyArr m c :=
  (dats m 0 c).arrAt_eq_of_cover 14 (armyArr m c) (fun t _ => flushed14_eq m c t) cover14

theorem arr14_apply (c : Dev nD) (e : Fin 1000000) (q : Fin 64) : (dats m 0 c).arrAt 14 cfg0.N (ix2 e q) =
      Cert.Score.armyScore (fun j => V m c main_v4 (ix2 e j)) (fun j => V m c main_v5 (ix2 e j)) (fun j k => V m c main_v15 (ix2 j k)) (fun j k => V m c main_v16 (ix2 j k)) (fun k => V m c main_v19 (ix2 (0 : Fin 1) k)) (fun k => V m c main_arg9 (ix2 k q)) (V m c main_v20 (ix2 (0 : Fin 1) q)) (V m c main_v12 (ix2 e (2 : Fin 4))) q := by
  rw [final14 m c, armyArr_apply]
  rfl

/-! ## The host operation after the region -/

/-- The first output array with its unit axis dropped: entry `e` of the flattened result is entry `(e, 0)` of the
    array the region leaves. -/
theorem tail_v22 (c : Dev nD) (e : Fin 1000000) : Pipeline.afterTail₀ cfgs (dats m) 0 (V0 m) [hostOps1] c main_v22 (ix1 e) = (dats m 0 c).arrAt 13 cfg0.N (ix2 e (0 : Fin 1)) := by
  have hW : Pipeline.withArrays (cfgs 0).spec c (V0 m c) (fun w => (dats m 0 c).arrAt w (cfgs 0).N) (Proc.devRef .tc main_v21_0)
      = (dats m 0 c).arrAt 13 cfg0.N :=
    Pipeline.withArrays_arr spec0 launch0.win.arr_inj c _ _ 13
  unfold Pipeline.afterTail₀
  show StableHlo.after hostOps1 _ (Proc.devRef .tc main_v22) (ix1 e) = _
  after_results
  rw [hW]
  generalize (dats m 0 c).arrAt 13 cfg0.N = X
  show shapeCast S1000000 (X : S1000000x1.Idx → EReal) shapeCasts_S1000000x1_S1000000 (ix1 e) = (X : S1000000x1.Idx → EReal) (ix2 e (0 : Fin 1))
  exact shapeCast_apply (X : S1000000x1.Idx → EReal) shapeCasts_S1000000x1_S1000000 (ix1 e) (ix2 e (0 : Fin 1))
    (by
      show (S1000000x1.rowMajor (ix2 e (0 : Fin 1))).val = (S1000000.rowMajor (ix1 e)).val
      rewrite [Shape.rowMajor_val_two, Shape.rowMajor_val_one]
      show e.val * 1 + 0 = e.val
      omega)

end Cert.KernelIdeal.Region

end
-- ==== Proof.RefRead.lean ====
/-
  The reference's run and its read-at-an-index lemmas, brought into scope for the modules that compare the
  reference's two results with the kernel's, entry by entry.
-/
import proofs.«405955_j8813272891626_1_alg».proof.Proof.Gen.ReferenceIdeal.Run
import proofs.«405955_j8813272891626_1_alg».proof.Proof.Gen.ReferenceIdeal.Read
-- ==== Proof.PreIdx.lean ====
import proofs.«405955_j8813272891626_1_alg».proof.Defs
import proofs.«405955_j8813272891626_1_alg».proof.Proof.Gen.Pre_finite_inputs
import proofs.«405955_j8813272891626_1_alg».proof.Proof.Gen.KernelIdeal
import Idealize.ShloMosaic.Lib.ValueIdx
import Idealize.ShloMosaic.Lib.ReduceAll
import Idealize.ShloMosaic.Lib.StableHlo.Predicate

/-! # The index range the precondition gives, and the wrapped index

The precondition's last conjunct says of every word `w` of the edge-endpoint array (a million rows of two
words) that `-100000 ≤ w < 100000`, read signed. A negative index counts from the end of the table of 100000
rows: the program adds 100000 to it. Under the range, the index so wrapped lies in `[0, 99999]`. -/

noncomputable section

namespace Cert.KernelIdeal.Region

open Cert.KernelIdeal Idealize.ShloMosaic Idealize.ShloMosaic.ValueIdx Idealize.SL.Sem
open Idealize.ShloMosaic.TcCoe

/-- The rank-0 shape has one index. -/
instance subsingleton_scalar_idx : Subsingleton Cert.Pre_finite_inputs.S_.Idx := ⟨fun a b => funext fun d => d.elim0⟩

/-- Every word of the edge-endpoint array is, read signed, at least `-100000` and below `100000`: the last
    conjunct of the precondition, read at row `e` and column `a`. -/
theorem pre_idx (m : (ℓ : Loc nD τ sig) → Buf (Elt Ideal) ℓ) (hpre : Cert.Pre_KernelIdeal m) (c : Dev nD) (e : Fin 1000000) (a : Fin 2) :
    IntOp.cmpi .sge (m ((c : Thread nD τ).loc main_arg1) (ix2 e a)) 4294867296#32 = 1#1 ∧ IntOp.cmpi .slt (m ((c : Thread nD τ).loc main_arg1) (ix2 e a)) 100000#32 = 1#1 := by
  have h := congrFun (hpre c) ix0
  have h49 := (IntOp.andi_eq_one.mp h).2
  have hall := Host.reduce_andi_all _ _ _ _ _ h49 (ix2 e a)
  obtain ⟨ha, hb⟩ := IntOp.andi_eq_one.mp hall
  exact ⟨ha, hb⟩

/-- Under that range the wrapped index — `w + 100000` where `w` is negative, `w` itself otherwise — lies in
    `[0, 99999]`. -/
theorem wrap_inb (w : BitVec 32) (h1 : IntOp.cmpi .sge w 4294867296#32 = 1#1) (h2 : IntOp.cmpi .slt w 100000#32 = 1#1) :
    IntOp.cmpi .sge (Scalar.select (IntOp.cmpi .slt w 0#32) (IntOp.addi w 100000#32) w) 0#32 = 1#1
    ∧ IntOp.cmpi .sle (Scalar.select (IntOp.cmpi .slt w 0#32) (IntOp.addi w 100000#32) w) 99999#32 = 1#1 := by
  have elo : (4294867296#32 : BitVec 32).toInt = -100000 := by decide
  have ehi : (100000#32 : BitVec 32).toInt = 100000 := by decide
  have e0 : (0#32 : BitVec 32).toInt = 0 := by decide
  have e9 : (99999#32 : BitVec 32).toInt = 99999 := by decide
  have hlo : (-100000 : Int) ≤ w.toInt := by
    have := IntOp.cmpi_sge.mp h1
    rwa [elo] at this
  have hhi : w.toInt < 100000 := by
    have := IntOp.cmpi_slt.mp h2
    rwa [ehi] at this
  by_cases hneg : w.toInt < 0
  · have hc : IntOp.cmpi .slt w 0#32 = 1#1 := IntOp.cmpi_slt.mpr (by rw [e0]; exact hneg)
    rw [hc, select_one]
    have hs : (IntOp.addi w 100000#32).toInt = w.toInt + 100000 := by
      unfold IntOp.addi
      rw [BitVec.toInt_add, ehi]
      exact Int.bmod_eq_of_le (by omega) (by omega)
    exact ⟨IntOp.cmpi_sge.mpr (by rw [e0, hs]; omega), IntOp.cmpi_sle.mpr (by rw [e9, hs]; omega)⟩
  · have hc : IntOp.cmpi .slt w 0#32 = 0#1 :=
      eq_zero_of_ne_one (fun h => hneg (by have := IntOp.cmpi_slt.mp h; rwa [e0] at this))
    rw [hc, select_zero]
    exact ⟨IntOp.cmpi_sge.mpr (by rw [e0]; omega), IntOp.cmpi_sle.mpr (by rw [e9]; omega)⟩

end Cert.KernelIdeal.Region

end
-- ==== Proof.TakeI.lean ====
/- A gather with wrapped indices and a bounds mask, read at one entry.

   An index column is first wrapped (a negative index `i` becomes `i + 100000`) and made a one-column matrix; the
   bounds mask says, per row, whether the wrapped index lies in `0 … 99999`; the masked gather keeps the gathered entry
   where the mask is one and a fill value elsewhere. Where both bounds hold the mask is one and the masked gather is
   the gather; and the gather over the wrapped column is the reference program's own gather stage. -/
import proofs.«405955_j8813272891626_1_alg».proof.Proof.Gen.KernelIdeal
import proofs.«405955_j8813272891626_1_alg».proof.Proof.RefRead
import Idealize.ShloMosaic.Lib.ValueIdx
import Idealize.ShloMosaic.Lib.Pipeline.Value
import Idealize.ShloMosaic.Lib.ValueLayout

noncomputable section

namespace Cert.KernelIdeal.Region

open Cert.KernelIdeal Cert.KernelIdeal.Gen
open Idealize.ShloMosaic Idealize.ShloMosaic.TcCoe Idealize.SL.Sem
open Idealize.ShloMosaic.ValueIdx

variable {F : FTy → Type} [FloatOps F]

/-- An index column with its negative entries wrapped by the table's length, as a one-column matrix. -/
def wrapIdx (col : IVec S1000000 32) : IVec S1000000x1 32 :=
  broadcastInDim S1000000x1 ![0] bcast_S1000000_S1000000x1_0
    (select (cmpi .slt col (broadcastInDim S1000000 ![] bcast_S_S1000000 (constantI S_ 32 0#32)))
      (addi col (broadcastInDim S1000000 ![] bcast_S_S1000000 (constantI S_ 32 100000#32))) col)

/-- The bounds mask of a wrapped index column: per row, whether the index lies in 0 … 99999. -/
def inbMask (ix : IVec S1000000x1 32) : IVec S1000000 1 :=
  Host.reduce IntOp.andi
    (andi (cmpi .sge ix (broadcastInDim S1000000x1 ![] bcast_S_S1000000x1 (constantI S_ 32 0#32)))
      (cmpi .sle ix (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_

/-! ## The wrapped column read at a row -/

/-- Row `e` of the wrapped column: the index itself, or the index plus the table's length where it is negative. -/
theorem wrapIdx_apply (col : IVec S1000000 32) (e : Fin 1000000) : wrapIdx col (ix2 e (0 : Fin 1)) = Scalar.select (IntOp.cmpi .slt (col (ix1 e)) 0#32) (IntOp.addi (col (ix1 e)) 100000#32) (col (ix1 e)) := by
  unfold wrapIdx
  refine (broadcastInDim_apply _ bcast_S1000000_S1000000x1_0 _ (ix2 e (0 : Fin 1)) (ix1 e) (fun a => match a with
    | ⟨0, _⟩ => by show e.val = if (1000000 : Nat) = 1 then 0 else e.val; rw [if_neg (by decide)])).trans ?_
  rfl

/-! ## The bounds mask where both bounds hold -/

/-- The and-reduction over the unit axis drops a matrix index to its row. -/
theorem drop_col (i : S1000000x1.Idx) : (reducesTo_S1000000x1_S1000000_d1.drop i (0 : Fin 1)).val = (i 0).val :=
  Shape.ReducesTo.drop_apply_val_of_eq reducesTo_S1000000x1_S1000000_d1 i (0 : Fin 1) (0 : Fin 2)

/-- The only matrix index that drops to row `e` is `(e, 0)`. -/
theorem fibre_row (e : Fin 1000000) :
    (Finset.univ.filter fun i : S1000000x1.Idx => reducesTo_S1000000x1_S1000000_d1.drop i = ix1 e) = {ix2 e (0 : Fin 1)} := by
  ext i
  rw [Finset.mem_filter, Finset.mem_singleton]
  simp only [Finset.mem_univ, true_and]
  constructor
  · intro hd
    have h0 : (i 0).val = e.val := by rw [← drop_col i, hd]
    have h1 : (i 1).val < 1 := (i 1).isLt
    funext a
    match a with
    | ⟨0, _⟩ => exact Fin.ext h0
    | ⟨1, _⟩ => exact Fin.ext (by show (i 1).val = 0; omega)
  · rintro rfl
    funext b
    apply Fin.ext
    match b with
    | ⟨0, _⟩ => exact drop_col _

/-- Where the wrapped index of row `e` lies in `0 … 99999` the bounds mask is one at `e`. -/
theorem inbMask_eq_one (ix : IVec S1000000x1 32) (e : Fin 1000000) (h0 : IntOp.cmpi .sge (ix (ix2 e (0 : Fin 1))) 0#32 = 1#1) (h1 : IntOp.cmpi .sle (ix (ix2 e (0 : Fin 1))) 99999#32 = 1#1) : inbMask ix (ix1 e) = 1#1 := by
  unfold inbMask
  rw [Host.reduce_eq_fold, fibre_row e, Finset.fold_singleton]
  show IntOp.andi (IntOp.andi (IntOp.cmpi .sge (ix (ix2 e (0 : Fin 1))) 0#32) (IntOp.cmpi .sle (ix (ix2 e (0 : Fin 1))) 99999#32)) 1#1 = 1#1
  rw [h0, h1]
  decide

/-! ## The masked gathers where both bounds hold -/

/-- The masked gather of rows keeps the gathered entry at a row whose wrapped index is in bounds. -/
theorem masked_rows_apply (ix : IVec S1000000x1 32) (x : FVec F S100000x128 .f32) (fill : FVec F S1000000x128 .f32) (e : Fin 1000000) (j : Fin 128) (h0 : IntOp.cmpi .sge (ix (ix2 e (0 : Fin 1))) 0#32 = 1#1) (h1 : IntOp.cmpi .sle (ix (ix2 e (0 : Fin 1))) 99999#32 = 1#1) : select (broadcastInDim S1000000x128 ![0] bcast_S1000000_S1000000x128_0 (inbMask ix)) (Host.gather gather_S100000x128_S1000000x1_S1000000x128_1_0_n_n_0_1_1128 x ix) fill (ix2 e j) = Host.gather gather_S100000x128_S1000000x1_S1000000x128_1_0_n_n_0_1_1128 x ix (ix2 e j) := by
  have hm := inbMask_eq_one ix e h0 h1
  generalize inbMask ix = msk at hm ⊢
  generalize Host.gather gather_S100000x128_S1000000x1_S1000000x128_1_0_n_n_0_1_1128 x ix = G
  show Scalar.select (broadcastInDim S1000000x128 ![0] bcast_S1000000_S1000000x128_0 msk (ix2 e j)) (G (ix2 e j)) (fill (ix2 e j)) = G (ix2 e j)
  rw [broadcastInDim_apply _ bcast_S1000000_S1000000x128_0 msk (ix2 e j) (ix1 e) (fun a => match a with
    | ⟨0, _⟩ => by show e.val = if (1000000 : Nat) = 1 then 0 else e.val; rw [if_neg (by decide)]), hm]
  exact select_one _ _

/-- The masked gather of words keeps the gathered word at a row whose wrapped index is in bounds. -/
theorem masked_words_apply (ix : IVec S1000000x1 32) (x : IVec S100000 32) (fill : IVec S1000000 32) (e : Fin 1000000) (h0 : IntOp.cmpi .sge (ix (ix2 e (0 : Fin 1))) 0#32 = 1#1) (h1 : IntOp.cmpi .sle (ix (ix2 e (0 : Fin 1))) 99999#32 = 1#1) : select (inbMask ix) (Host.gather gather_S100000_S1000000x1_S1000000_n_0_n_n_0_1_1 x ix) fill (ix1 e) = Host.gather gather_S100000_S1000000x1_S1000000_n_0_n_n_0_1_1 x ix (ix1 e) := by
  have hm := inbMask_eq_one ix e h0 h1
  generalize inbMask ix = msk at hm ⊢
  generalize Host.gather gather_S100000_S1000000x1_S1000000_n_0_n_n_0_1_1 x ix = G
  show Scalar.select (msk (ix1 e)) (G (ix1 e)) (fill (ix1 e)) = G (ix1 e)
  rw [hm]
  exact select_one _ _

/-! ## The gathers over the wrapped columns are the reference program's gather stages -/

theorem rows_src_ref (x0 : (⟨S100000x128, .f32⟩ : BufTy).Contents (Elt F)) (x1 : (⟨S1000000x2, .i32⟩ : BufTy).Contents (Elt F)) : Host.gather gather_S100000x128_S1000000x1_S1000000x128_1_0_n_n_0_1_1128 x0 (wrapIdx (Cert.ReferenceIdeal.Read.val_main_v1 (F := F) x1)) = Cert.ReferenceIdeal.Read.val_main_v10 (F := F) x0 x1 := by
  unfold Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_c_0 Cert.ReferenceIdeal.Read.val_main_v5 Cert.ReferenceIdeal.Read.val_main_v4 Cert.ReferenceIdeal.Read.val_main_c wrapIdx
  rfl

theorem rows_tgt_ref (x0 : (⟨S100000x128, .f32⟩ : BufTy).Contents (Elt F)) (x1 : (⟨S1000000x2, .i32⟩ : BufTy).Contents (Elt F)) : Host.gather gather_S100000x128_S1000000x1_S1000000x128_1_0_n_n_0_1_1128 x0 (wrapIdx (Cert.ReferenceIdeal.Read.val_main_v3 (F := F) x1)) = Cert.ReferenceIdeal.Read.val_main_v17 (F := F) x0 x1 := by
  unfold Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_c_2 Cert.ReferenceIdeal.Read.val_main_v12 Cert.ReferenceIdeal.Read.val_main_v11 Cert.ReferenceIdeal.Read.val_main_c_1 wrapIdx
  rfl

theorem words_src_ref (x1 : (⟨S1000000x2, .i32⟩ : BufTy).Contents (Elt F)) (x2 : (⟨S100000, .i32⟩ : BufTy).Contents (Elt F)) : Host.gather gather_S100000_S1000000x1_S1000000_n_0_n_n_0_1_1 x2 (wrapIdx (Cert.ReferenceIdeal.Read.val_main_v1 (F := F) x1)) = Cert.ReferenceIdeal.Read.val_main_v44 (F := F) x1 x2 := by
  unfold Cert.ReferenceIdeal.Read.val_main_v44 Cert.ReferenceIdeal.Read.val_main_v43 Cert.ReferenceIdeal.Read.val_main_v42 Cert.ReferenceIdeal.Read.val_main_v41 Cert.ReferenceIdeal.Read.val_main_v40 Cert.ReferenceIdeal.Read.val_main_c_4 Cert.ReferenceIdeal.Read.val_main_v39 Cert.ReferenceIdeal.Read.val_main_v38 Cert.ReferenceIdeal.Read.val_main_c_3 wrapIdx
  rfl

theorem words_tgt_ref (x1 : (⟨S1000000x2, .i32⟩ : BufTy).Contents (Elt F)) (x2 : (⟨S100000, .i32⟩ : BufTy).Contents (Elt F)) : Host.gather gather_S100000_S1000000x1_S1000000_n_0_n_n_0_1_1 x2 (wrapIdx (Cert.ReferenceIdeal.Read.val_main_v3 (F := F) x1)) = Cert.ReferenceIdeal.Read.val_main_v51 (F := F) x1 x2 := by
  unfold Cert.ReferenceIdeal.Read.val_main_v51 Cert.ReferenceIdeal.Read.val_main_v50 Cert.ReferenceIdeal.Read.val_main_v49 Cert.ReferenceIdeal.Read.val_main_v48 Cert.ReferenceIdeal.Read.val_main_v47 Cert.ReferenceIdeal.Read.val_main_c_6 Cert.ReferenceIdeal.Read.val_main_v46 Cert.ReferenceIdeal.Read.val_main_v45 Cert.ReferenceIdeal.Read.val_main_c_5 wrapIdx
  rfl

/-! ## The two index columns of the edge list -/

theorem col_src_apply (x1 : (⟨S1000000x2, .i32⟩ : BufTy).Contents (Elt F)) (e : Fin 1000000) : Cert.ReferenceIdeal.Read.val_main_v1 (F := F) x1 (ix1 e) = x1 (ix2 e (0 : Fin 2)) := by
  rw [Cert.ReferenceIdeal.Read.val_main_v1_apply, Cert.ReferenceIdeal.Read.val_main_v0_apply]
  refine congrArg x1 (funext fun a => Fin.ext ?_)
  match a with
  | ⟨0, _⟩ => show e.val / 1 = e.val; omega
  | ⟨1, _⟩ => rfl

theorem col_tgt_apply (x1 : (⟨S1000000x2, .i32⟩ : BufTy).Contents (Elt F)) (e : Fin 1000000) : Cert.ReferenceIdeal.Read.val_main_v3 (F := F) x1 (ix1 e) = x1 (ix2 e (1 : Fin 2)) := by
  rw [Cert.ReferenceIdeal.Read.val_main_v3_apply, Cert.ReferenceIdeal.Read.val_main_v2_apply]
  refine congrArg x1 (funext fun a => Fin.ext ?_)
  match a with
  | ⟨0, _⟩ => show e.val / 1 = e.val; omega
  | ⟨1, _⟩ => rfl

end Cert.KernelIdeal.Region

end
-- ==== Proof.MetaI.lean ====
/- The packed index/army table the region reads. The last host stretch before the region makes each of four vectors of
   a million words (the edge list's source and target index columns, and the army counts gathered at them) a one-column
   matrix and joins the four columns side by side; so, whatever the buffers held before the stretch, column `a` of the
   table after it is vector `a`. -/
import proofs.«405955_j8813272891626_1_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.Lib.Pipeline.FrameBody

noncomputable section

namespace Cert.KernelIdeal.Region

open Cert.KernelIdeal Cert.KernelIdeal.Gen Idealize.ShloMosaic Idealize.ShloMosaic.TcCoe Idealize.SL.Sem Idealize.ShloMosaic.ValueIdx

variable {F : FTy → Type} [FloatOps F]

/-! ## The packed index/army table

The last host stretch makes each of four vectors of a million words a one-column matrix and joins the four
columns side by side: column `a` of the table is vector `a`. -/

/-- A vector made a one-column matrix reads, at `(e, 0)`, the vector at `e`. -/
theorem column_of_vector_apply {α : Type} (x : S1000000.Idx → α) (e : Fin 1000000) :
    broadcastInDim S1000000x1 ![0] bcast_S1000000_S1000000x1_0 x (ix2 e (0 : Fin 1)) = x (ix1 e) :=
  broadcastInDim_apply _ bcast_S1000000_S1000000x1_0 x (ix2 e (0 : Fin 1)) (ix1 e) (fun a => match a with
    | ⟨0, _⟩ => by show e.val = if (1000000 : Nat) = 1 then 0 else e.val; rw [if_neg (by decide)])

/-! Four one-column pieces joined along axis 1, read at `(e, a)`: the coordinate `a` falls in piece `a` (the `a`
    pieces before it have extent 1 each), at position 0 of it. -/

theorem cat4_col0 {α : Type} (x0 x1 x2 x3 : S1000000x1.Idx → α)
    (h : Shape.Concatenates [S1000000x1, S1000000x1, S1000000x1, S1000000x1] S1000000x4 1) (e : Fin 1000000) :
    concatenate S1000000x4 1 [⟨S1000000x1, x0⟩, ⟨S1000000x1, x1⟩, ⟨S1000000x1, x2⟩, ⟨S1000000x1, x3⟩] h (ix2 e (0 : Fin 4))
      = x0 (ix2 e (0 : Fin 1)) :=
  concatenate_apply_piece (t := S1000000x4) 1 [⟨S1000000x1, x0⟩, ⟨S1000000x1, x1⟩, ⟨S1000000x1, x2⟩, ⟨S1000000x1, x3⟩] h
    (ix2 e (0 : Fin 4)) 0 (by show (0 : ℕ) < 4; omega) S1000000x1 x0 rfl rfl 0 rfl (ix2 e (0 : Fin 1))
    (fun b hb => by
      match b with
      | ⟨0, _⟩ => rfl
      | ⟨1, _⟩ => exact absurd rfl hb)
    rfl

theorem cat4_col1 {α : Type} (x0 x1 x2 x3 : S1000000x1.Idx → α)
    (h : Shape.Concatenates [S1000000x1, S1000000x1, S1000000x1, S1000000x1] S1000000x4 1) (e : Fin 1000000) :
    concatenate S1000000x4 1 [⟨S1000000x1, x0⟩, ⟨S1000000x1, x1⟩, ⟨S1000000x1, x2⟩, ⟨S1000000x1, x3⟩] h (ix2 e (1 : Fin 4))
      = x1 (ix2 e (0 : Fin 1)) :=
  concatenate_apply_piece (t := S1000000x4) 1 [⟨S1000000x1, x0⟩, ⟨S1000000x1, x1⟩, ⟨S1000000x1, x2⟩, ⟨S1000000x1, x3⟩] h
    (ix2 e (1 : Fin 4)) 1 (by show (1 : ℕ) < 4; omega) S1000000x1 x1 rfl rfl 1 rfl (ix2 e (0 : Fin 1))
    (fun b hb => by
      match b with
      | ⟨0, _⟩ => rfl
      | ⟨1, _⟩ => exact absurd rfl hb)
    rfl

theorem cat4_col2 {α : Type} (x0 x1 x2 x3 : S1000000x1.Idx → α)
    (h : Shape.Concatenates [S1000000x1, S1000000x1, S1000000x1, S1000000x1] S1000000x4 1) (e : Fin 1000000) :
    concatenate S1000000x4 1 [⟨S1000000x1, x0⟩, ⟨S1000000x1, x1⟩, ⟨S1000000x1, x2⟩, ⟨S1000000x1, x3⟩] h (ix2 e (2 : Fin 4))
      = x2 (ix2 e (0 : Fin 1)) :=
  concatenate_apply_piece (t := S1000000x4) 1 [⟨S1000000x1, x0⟩, ⟨S1000000x1, x1⟩, ⟨S1000000x1, x2⟩, ⟨S1000000x1, x3⟩] h
    (ix2 e (2 : Fin 4)) 2 (by show (2 : ℕ) < 4; omega) S1000000x1 x2 rfl rfl 2 rfl (ix2 e (0 : Fin 1))
    (fun b hb => by
      match b with
      | ⟨0, _⟩ => rfl
      | ⟨1, _⟩ => exact absurd rfl hb)
    rfl

theorem cat4_col3 {α : Type} (x0 x1 x2 x3 : S1000000x1.Idx → α)
    (h : Shape.Concatenates [S1000000x1, S1000000x1, S1000000x1, S1000000x1] S1000000x4 1) (e : Fin 1000000) :
    concatenate S1000000x4 1 [⟨S1000000x1, x0⟩, ⟨S1000000x1, x1⟩, ⟨S1000000x1, x2⟩, ⟨S1000000x1, x3⟩] h (ix2 e (3 : Fin 4))
      = x3 (ix2 e (0 : Fin 1)) :=
  concatenate_apply_piece (t := S1000000x4) 1 [⟨S1000000x1, x0⟩, ⟨S1000000x1, x1⟩, ⟨S1000000x1, x2⟩, ⟨S1000000x1, x3⟩] h
    (ix2 e (3 : Fin 4)) 3 (by show (3 : ℕ) < 4; omega) S1000000x1 x3 rfl rfl 3 rfl (ix2 e (0 : Fin 1))
    (fun b hb => by
      match b with
      | ⟨0, _⟩ => rfl
      | ⟨1, _⟩ => exact absurd rfl hb)
    rfl

/-- The table after the stretch, as a term: the four vectors, each made a column, joined along axis 1. -/
theorem meta_eq (v : Valuation τ sig (Elt F)) :
    (StableHlo.after hostOps0_5 v (Proc.devRef .tc main_v12) : (⟨S1000000x4, .i32⟩ : BufTy).Contents (Elt F)) =
      concatenate S1000000x4 1
        [⟨S1000000x1, broadcastInDim S1000000x1 ![0] bcast_S1000000_S1000000x1_0 (v (Proc.devRef .tc main_v1) : (⟨S1000000, .i32⟩ : BufTy).Contents (Elt F))⟩,
         ⟨S1000000x1, broadcastInDim S1000000x1 ![0] bcast_S1000000_S1000000x1_0 (v (Proc.devRef .tc main_v3) : (⟨S1000000, .i32⟩ : BufTy).Contents (Elt F))⟩,
         ⟨S1000000x1, broadcastInDim S1000000x1 ![0] bcast_S1000000_S1000000x1_0 (v (Proc.devRef .tc main_v6) : (⟨S1000000, .i32⟩ : BufTy).Contents (Elt F))⟩,
         ⟨S1000000x1, broadcastInDim S1000000x1 ![0] bcast_S1000000_S1000000x1_0 (v (Proc.devRef .tc main_v7) : (⟨S1000000, .i32⟩ : BufTy).Contents (Elt F))⟩]
        concatenates_S1000000x1_S1000000x1_S1000000x1_S1000000x1_S1000000x4_d1 := by
  simp only [hostOps0_5]; after_results; rfl

/-- Column 0 of the packed table is the source index vector. -/
theorem meta_col0 (v : Valuation τ sig (Elt F)) (e : Fin 1000000) :
    (StableHlo.after hostOps0_5 v (Proc.devRef .tc main_v12) : (⟨S1000000x4, .i32⟩ : BufTy).Contents (Elt F)) (ix2 e (0 : Fin 4))
      = (v (Proc.devRef .tc main_v1) : (⟨S1000000, .i32⟩ : BufTy).Contents (Elt F)) (ix1 e) := by
  rw [meta_eq, cat4_col0, column_of_vector_apply]

/-- Column 1 of the packed table is the target index vector. -/
theorem meta_col1 (v : Valuation τ sig (Elt F)) (e : Fin 1000000) :
    (StableHlo.after hostOps0_5 v (Proc.devRef .tc main_v12) : (⟨S1000000x4, .i32⟩ : BufTy).Contents (Elt F)) (ix2 e (1 : Fin 4))
      = (v (Proc.devRef .tc main_v3) : (⟨S1000000, .i32⟩ : BufTy).Contents (Elt F)) (ix1 e) := by
  rw [meta_eq, cat4_col1, column_of_vector_apply]

/-- Column 2 of the packed table is the source army count vector. -/
theorem meta_col2 (v : Valuation τ sig (Elt F)) (e : Fin 1000000) :
    (StableHlo.after hostOps0_5 v (Proc.devRef .tc main_v12) : (⟨S1000000x4, .i32⟩ : BufTy).Contents (Elt F)) (ix2 e (2 : Fin 4))
      = (v (Proc.devRef .tc main_v6) : (⟨S1000000, .i32⟩ : BufTy).Contents (Elt F)) (ix1 e) := by
  rw [meta_eq, cat4_col2, column_of_vector_apply]

/-- Column 3 of the packed table is the target army count vector. -/
theorem meta_col3 (v : Valuation τ sig (Elt F)) (e : Fin 1000000) :
    (StableHlo.after hostOps0_5 v (Proc.devRef .tc main_v12) : (⟨S1000000x4, .i32⟩ : BufTy).Contents (Elt F)) (ix2 e (3 : Fin 4))
      = (v (Proc.devRef .tc main_v7) : (⟨S1000000, .i32⟩ : BufTy).Contents (Elt F)) (ix1 e) := by
  rw [meta_eq, cat4_col3, column_of_vector_apply]

end Cert.KernelIdeal.Region

end
-- ==== Proof.StretchI.lean ====
/-
  The four masked-take stretches of the host program read back, for an arbitrary starting valuation.

  Each of the four stretches takes an index column (the edge list's source column or its target column) and an array
  (the embedding table, or the vector of army counts) and computes: the wrapped index (a negative index has the
  array's length, 100000, added), as a one-column matrix; its bounds mask (per row, whether the wrapped index lies in
  0 … 99999); the gather of the array at the wrapped index; and leaves the MASKED gather in its result array: the
  gathered entry where the mask is one, a fill value elsewhere (for the table's rows the word 0x7FC00000, for the army
  counts the word 2147483648). The theorems say exactly that, the wrapped index and the mask by their names.

  The operations of these stretches are written over references that carry the type of the value they hold; an
  operation moves contents from the buffer's own type to the value's type and back. Moving contents to a buffer's own
  type and back is the identity, and at a literal reference either move alone is the identity: with these, what a
  stretch leaves is the composition of its operations' functions, nothing else.
-/
import proofs.«405955_j8813272891626_1_alg».proof.Proof.TakeI
import proofs.«405955_j8813272891626_1_alg».proof.Proof.Gen.KernelIdeal.Launch
import Idealize.ShloMosaic.Lib.StableHlo.Run
import Idealize.ShloMosaic.Lib.Pipeline.FrameBody

noncomputable section

namespace Cert.KernelIdeal.Region

open Cert.KernelIdeal Cert.KernelIdeal.Gen Idealize.ShloMosaic Idealize.ShloMosaic.TcCoe Idealize.SL.Sem

variable {F : FTy → Type} [FloatOps F]

namespace Stretch

/-- Contents moved to a buffer's own type and back are the contents. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

/-- At the source index column's literal reference the move to the value's type is the identity. -/
theorem ofBuf_main_v1 (w : (⟨S1000000, .i32⟩ : BufTy).Contents (Elt F)) :
    (StableHlo.TRef.of (sig := sig) (T := ⟨S1000000, .i32⟩) main_v1).ofBuf w = w := rfl

/-- At the target index column's literal reference the move to the value's type is the identity. -/
theorem ofBuf_main_v3 (w : (⟨S1000000, .i32⟩ : BufTy).Contents (Elt F)) :
    (StableHlo.TRef.of (sig := sig) (T := ⟨S1000000, .i32⟩) main_v3).ofBuf w = w := rfl

/-- At the embedding table's literal reference the move to the value's type is the identity. -/
theorem ofBuf_main_arg0 (w : (⟨S100000x128, .f32⟩ : BufTy).Contents (Elt F)) :
    (StableHlo.TRef.of (sig := sig) (T := ⟨S100000x128, .f32⟩) main_arg0).ofBuf w = w := rfl

/-- At the army counts' literal reference the move to the value's type is the identity. -/
theorem ofBuf_main_arg2 (w : (⟨S100000, .i32⟩ : BufTy).Contents (Elt F)) :
    (StableHlo.TRef.of (sig := sig) (T := ⟨S100000, .i32⟩) main_arg2).ofBuf w = w := rfl

/-- At the source rows' literal reference the move to the buffer's type is the identity. -/
theorem toBuf_main_v4 (w : (⟨S1000000x128, .f32⟩ : BufTy).Contents (Elt F)) :
    ((StableHlo.TRef.of (sig := sig) (T := ⟨S1000000x128, .f32⟩) main_v4).toBuf w : (⟨S1000000x128, .f32⟩ : BufTy).Contents (Elt F)) = w := rfl

/-- At the target rows' literal reference the move to the buffer's type is the identity. -/
theorem toBuf_main_v5 (w : (⟨S1000000x128, .f32⟩ : BufTy).Contents (Elt F)) :
    ((StableHlo.TRef.of (sig := sig) (T := ⟨S1000000x128, .f32⟩) main_v5).toBuf w : (⟨S1000000x128, .f32⟩ : BufTy).Contents (Elt F)) = w := rfl

/-- At the source army counts' literal reference the move to the buffer's type is the identity. -/
theorem toBuf_main_v6 (w : (⟨S1000000, .i32⟩ : BufTy).Contents (Elt F)) :
    ((StableHlo.TRef.of (sig := sig) (T := ⟨S1000000, .i32⟩) main_v6).toBuf w : (⟨S1000000, .i32⟩ : BufTy).Contents (Elt F)) = w := rfl

/-- At the target army counts' literal reference the move to the buffer's type is the identity. -/
theorem toBuf_main_v7 (w : (⟨S1000000, .i32⟩ : BufTy).Contents (Elt F)) :
    ((StableHlo.TRef.of (sig := sig) (T := ⟨S1000000, .i32⟩) main_v7).toBuf w : (⟨S1000000, .i32⟩ : BufTy).Contents (Elt F)) = w := rfl

end Stretch

/-- The first stretch leaves the masked gather of the embedding table's rows at the wrapped source index. -/
theorem take_src (v : Valuation τ sig (Elt F)) :
    (StableHlo.after hostOps0_1 v (Proc.devRef .tc main_v4) : (⟨S1000000x128, .f32⟩ : BufTy).Contents (Elt F)) =
      select (broadcastInDim S1000000x128 ![0] bcast_S1000000_S1000000x128_0 (inbMask (wrapIdx (v (Proc.devRef .tc main_v1)))))
        (Host.gather gather_S100000x128_S1000000x1_S1000000x128_1_0_n_n_0_1_1128 (v (Proc.devRef .tc main_arg0)) (wrapIdx (v (Proc.devRef .tc main_v1))))
        (broadcastInDim S1000000x128 ![] bcast_S_S1000000x128 (constant (F := F) S_ .f32 0x7FC00000#32)) := by
  after_results_simp
  simp only [Stretch.ofBuf_toBuf, Stretch.ofBuf_main_v1, Stretch.ofBuf_main_arg0]
  unfold inbMask wrapIdx
  exact Stretch.toBuf_main_v4 _

/-- The second stretch leaves the masked gather of the embedding table's rows at the wrapped target index. -/
theorem take_tgt (v : Valuation τ sig (Elt F)) :
    (StableHlo.after hostOps0_2 v (Proc.devRef .tc main_v5) : (⟨S1000000x128, .f32⟩ : BufTy).Contents (Elt F)) =
      select (broadcastInDim S1000000x128 ![0] bcast_S1000000_S1000000x128_0 (inbMask (wrapIdx (v (Proc.devRef .tc main_v3)))))
        (Host.gather gather_S100000x128_S1000000x1_S1000000x128_1_0_n_n_0_1_1128 (v (Proc.devRef .tc main_arg0)) (wrapIdx (v (Proc.devRef .tc main_v3))))
        (broadcastInDim S1000000x128 ![] bcast_S_S1000000x128 (constant (F := F) S_ .f32 0x7FC00000#32)) := by
  after_results_simp
  simp only [Stretch.ofBuf_toBuf, Stretch.ofBuf_main_v3, Stretch.ofBuf_main_arg0]
  unfold inbMask wrapIdx
  exact Stretch.toBuf_main_v5 _

/-- The third stretch leaves the masked gather of the army counts at the wrapped source index. -/
theorem take_sa (v : Valuation τ sig (Elt F)) :
    (StableHlo.after hostOps0_3 v (Proc.devRef .tc main_v6) : (⟨S1000000, .i32⟩ : BufTy).Contents (Elt F)) =
      select (inbMask (wrapIdx (v (Proc.devRef .tc main_v1))))
        (Host.gather gather_S100000_S1000000x1_S1000000_n_0_n_n_0_1_1 (v (Proc.devRef .tc main_arg2)) (wrapIdx (v (Proc.devRef .tc main_v1))))
        (broadcastInDim S1000000 ![] bcast_S_S1000000 (constantI S_ 32 2147483648#32)) := by
  after_results_simp
  simp only [Stretch.ofBuf_toBuf, Stretch.ofBuf_main_v1, Stretch.ofBuf_main_arg2]
  unfold inbMask wrapIdx
  exact Stretch.toBuf_main_v6 _

/-- The fourth stretch leaves the masked gather of the army counts at the wrapped target index. -/
theorem take_ta (v : Valuation τ sig (Elt F)) :
    (StableHlo.after hostOps0_4 v (Proc.devRef .tc main_v7) : (⟨S1000000, .i32⟩ : BufTy).Contents (Elt F)) =
      select (inbMask (wrapIdx (v (Proc.devRef .tc main_v3))))
        (Host.gather gather_S100000_S1000000x1_S1000000_n_0_n_n_0_1_1 (v (Proc.devRef .tc main_arg2)) (wrapIdx (v (Proc.devRef .tc main_v3))))
        (broadcastInDim S1000000 ![] bcast_S_S1000000 (constantI S_ 32 2147483648#32)) := by
  after_results_simp
  simp only [Stretch.ofBuf_toBuf, Stretch.ofBuf_main_v3, Stretch.ofBuf_main_arg2]
  unfold inbMask wrapIdx
  exact Stretch.toBuf_main_v7 _

end Cert.KernelIdeal.Region

end
-- ==== Proof.EntryI.lean ====
/- What the region finds in each window's array, at the ideal instance: each array the host operations before the
   region wrote, read at an index, as the reference program's own stage of the argument arrays. The three gathered
   arrays use the precondition's range fact on the edge list: under it every wrapped index is in range, the bounds
   mask is all ones, and a masked gather is the plain gather. -/
import proofs.«405955_j8813272891626_1_alg».proof.Defs
import proofs.«405955_j8813272891626_1_alg».proof.Proof.HostI
import proofs.«405955_j8813272891626_1_alg».proof.Proof.RefRead
import proofs.«405955_j8813272891626_1_alg».proof.Proof.PreIdx
import proofs.«405955_j8813272891626_1_alg».proof.Proof.TakeI
import proofs.«405955_j8813272891626_1_alg».proof.Proof.MetaI
import proofs.«405955_j8813272891626_1_alg».proof.Proof.StretchI
import proofs.«405955_j8813272891626_1_alg».proof.Proof.Gen.Pre_finite_inputs
import Idealize.ShloMosaic.Lib.ValueIdx
import Idealize.ShloMosaic.Lib.StableHlo.Run
import Idealize.ShloMosaic.Lib.StableHlo.Predicate
import Idealize.ShloMosaic.Lib.ReduceAll
import Idealize.ShloMosaic.Lib.Pipeline.Value
import Idealize.ShloMosaic.Lib.ValueLayout

set_option maxRecDepth 16384

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx

section AnyFloat

variable {F : FTy → Type} [FloatOps F]
variable (m : (ℓ : Loc nD τ sig) → Buf (Elt F) ℓ)

/-! ## The host stretches, one at a time -/

/-- Core `c`'s TensorCore buffers as launched, -/
def U0 (c : Dev nD) : Valuation τ sig (Elt F) := fun b => m (c, b)
/-- after the edge list's two columns are split off, -/
def U1 (c : Dev nD) : Valuation τ sig (Elt F) := StableHlo.after hostOps0 (U0 m c)
/-- after the source rows of the node embeddings are gathered, -/
def U2 (c : Dev nD) : Valuation τ sig (Elt F) := StableHlo.after hostOps0_1 (U1 m c)
/-- after the target rows are gathered, -/
def U3 (c : Dev nD) : Valuation τ sig (Elt F) := StableHlo.after hostOps0_2 (U2 m c)
/-- after the source army counts are gathered, -/
def U4 (c : Dev nD) : Valuation τ sig (Elt F) := StableHlo.after hostOps0_3 (U3 m c)
/-- and after the target army counts are gathered. -/
def U5 (c : Dev nD) : Valuation τ sig (Elt F) := StableHlo.after hostOps0_4 (U4 m c)

/-- The region-entry contents are the last stretch run from there. -/
theorem V0_eq (c : Dev nD) : V0 m c = StableHlo.after hostOps0_5 (U5 m c) := by
  unfold U5 U4 U3 U2 U1 U0
  simp only [V0, List.flatten_cons, List.flatten_nil, List.append_nil, StableHlo.after_append]

/-- One stretch of host operations leaves a buffer none of its operations writes as it was. -/
local macro "step_nw" : tactic => `(tactic| (
  refine (StableHlo.after_of_forall_not_mem _ _ (List.forall_iff_forall_mem.mp ?_)).trans ?_
  · simp only [hostOps0, hostOps0_1, hostOps0_2, hostOps0_3, hostOps0_4, hostOps0_5, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No operation of the first five stretches writes an argument array. -/
theorem U5_arg3 (c : Dev nD) : U5 m c (Proc.devRef .tc main_arg3) = m ((c : Thread nD τ).loc main_arg3) := by
  unfold U5; step_nw; unfold U4; step_nw; unfold U3; step_nw; unfold U2; step_nw; unfold U1; step_nw; rfl

theorem U5_arg4 (c : Dev nD) : U5 m c (Proc.devRef .tc main_arg4) = m ((c : Thread nD τ).loc main_arg4) := by
  unfold U5; step_nw; unfold U4; step_nw; unfold U3; step_nw; unfold U2; step_nw; unfold U1; step_nw; rfl

theorem U5_arg6 (c : Dev nD) : U5 m c (Proc.devRef .tc main_arg6) = m ((c : Thread nD τ).loc main_arg6) := by
  unfold U5; step_nw; unfold U4; step_nw; unfold U3; step_nw; unfold U2; step_nw; unfold U1; step_nw; rfl

theorem U5_arg7 (c : Dev nD) : U5 m c (Proc.devRef .tc main_arg7) = m ((c : Thread nD τ).loc main_arg7) := by
  unfold U5; step_nw; unfold U4; step_nw; unfold U3; step_nw; unfold U2; step_nw; unfold U1; step_nw; rfl

theorem U5_arg8 (c : Dev nD) : U5 m c (Proc.devRef .tc main_arg8) = m ((c : Thread nD τ).loc main_arg8) := by
  unfold U5; step_nw; unfold U4; step_nw; unfold U3; step_nw; unfold U2; step_nw; unfold U1; step_nw; rfl

theorem U5_arg10 (c : Dev nD) : U5 m c (Proc.devRef .tc main_arg10) = m ((c : Thread nD τ).loc main_arg10) := by
  unfold U5; step_nw; unfold U4; step_nw; unfold U3; step_nw; unfold U2; step_nw; unfold U1; step_nw; rfl

/-! ## The weights and biases: slices and reshapes of the argument arrays -/

/-- The first-layer weight matrices of the two scorers are cut into their top (source) and bottom (target) halves,
    and each bias vector is reshaped to a one-row matrix. -/
theorem V_v13 (c : Dev nD) : (V m c main_v13 : (⟨S128x128, .f32⟩ : BufTy).Contents (Elt F))
    = extractStridedSlice S128x128 ![0, 0] (m ((c : Thread nD τ).loc main_arg3)) slices_S256x128_S128x128_0_0 := by
  dsimp only [V]; rw [V0_eq]; simp only [hostOps0_5]
  after_results
  rw [U5_arg3]

theorem V_v14 (c : Dev nD) : (V m c main_v14 : (⟨S128x128, .f32⟩ : BufTy).Contents (Elt F))
    = extractStridedSlice S128x128 ![128, 0] (m ((c : Thread nD τ).loc main_arg3)) slices_S256x128_S128x128_128_0 := by
  dsimp only [V]; rw [V0_eq]; simp only [hostOps0_5]
  after_results
  rw [U5_arg3]

theorem V_v15 (c : Dev nD) : (V m c main_v15 : (⟨S128x128, .f32⟩ : BufTy).Contents (Elt F))
    = extractStridedSlice S128x128 ![0, 0] (m ((c : Thread nD τ).loc main_arg7)) slices_S256x128_S128x128_0_0 := by
  dsimp only [V]; rw [V0_eq]; simp only [hostOps0_5]
  after_results
  rw [U5_arg7]

theorem V_v16 (c : Dev nD) : (V m c main_v16 : (⟨S128x128, .f32⟩ : BufTy).Contents (Elt F))
    = extractStridedSlice S128x128 ![128, 0] (m ((c : Thread nD τ).loc main_arg7)) slices_S256x128_S128x128_128_0 := by
  dsimp only [V]; rw [V0_eq]; simp only [hostOps0_5]
  after_results
  rw [U5_arg7]

theorem V_v17 (c : Dev nD) : (V m c main_v17 : (⟨S1x128, .f32⟩ : BufTy).Contents (Elt F))
    = shapeCast S1x128 (m ((c : Thread nD τ).loc main_arg4)) shapeCasts_S128_S1x128 := by
  dsimp only [V]; rw [V0_eq]; simp only [hostOps0_5]
  after_results
  rw [U5_arg4]; rfl

theorem V_v18 (c : Dev nD) : (V m c main_v18 : (⟨S1x1, .f32⟩ : BufTy).Contents (Elt F))
    = shapeCast S1x1 (m ((c : Thread nD τ).loc main_arg6)) shapeCasts_S1_S1x1 := by
  dsimp only [V]; rw [V0_eq]; simp only [hostOps0_5]
  after_results
  rw [U5_arg6]; rfl

theorem V_v19 (c : Dev nD) : (V m c main_v19 : (⟨S1x128, .f32⟩ : BufTy).Contents (Elt F))
    = shapeCast S1x128 (m ((c : Thread nD τ).loc main_arg8)) shapeCasts_S128_S1x128 := by
  dsimp only [V]; rw [V0_eq]; simp only [hostOps0_5]
  after_results
  rw [U5_arg8]; rfl

theorem V_v20 (c : Dev nD) : (V m c main_v20 : (⟨S1x64, .f32⟩ : BufTy).Contents (Elt F))
    = shapeCast S1x64 (m ((c : Thread nD τ).loc main_arg10)) shapeCasts_S64_S1x64 := by
  dsimp only [V]; rw [V0_eq]; simp only [hostOps0_5]
  after_results
  rw [U5_arg10]; rfl

/-- Read at an index: a slice reads the argument at the shifted row, a reshape at the same column. -/
theorem any_w1t (c : Dev nD) (j k : Fin 128) :
    V m c main_v13 (ix2 j k) = (m ((c : Thread nD τ).loc main_arg3)) (ix2 (Fin.castAdd 128 j) k) := by
  exact (congrFun (V_v13 m c) (ix2 j k)).trans (extractStridedSlice_apply ![0, 0] _ slices_S256x128_S128x128_0_0 (ix2 j k) (ix2 (Fin.castAdd 128 j) k) (fun a => match a with
    | ⟨0, _⟩ => by show (Fin.castAdd 128 j).val = 0 + j.val; simp
    | ⟨1, _⟩ => by show k.val = 0 + k.val; omega))

theorem any_w1b (c : Dev nD) (j k : Fin 128) :
    V m c main_v14 (ix2 j k) = (m ((c : Thread nD τ).loc main_arg3)) (ix2 (Fin.natAdd 128 j) k) := by
  exact (congrFun (V_v14 m c) (ix2 j k)).trans (extractStridedSlice_apply ![128, 0] _ slices_S256x128_S128x128_128_0 (ix2 j k) (ix2 (Fin.natAdd 128 j) k) (fun a => match a with
    | ⟨0, _⟩ => by show (Fin.natAdd 128 j).val = 128 + j.val; exact Fin.coe_natAdd 128 j
    | ⟨1, _⟩ => by show k.val = 0 + k.val; omega))

theorem any_a1t (c : Dev nD) (j k : Fin 128) :
    V m c main_v15 (ix2 j k) = (m ((c : Thread nD τ).loc main_arg7)) (ix2 (Fin.castAdd 128 j) k) := by
  exact (congrFun (V_v15 m c) (ix2 j k)).trans (extractStridedSlice_apply ![0, 0] _ slices_S256x128_S128x128_0_0 (ix2 j k) (ix2 (Fin.castAdd 128 j) k) (fun a => match a with
    | ⟨0, _⟩ => by show (Fin.castAdd 128 j).val = 0 + j.val; simp
    | ⟨1, _⟩ => by show k.val = 0 + k.val; omega))

theorem any_a1b (c : Dev nD) (j k : Fin 128) :
    V m c main_v16 (ix2 j k) = (m ((c : Thread nD τ).loc main_arg7)) (ix2 (Fin.natAdd 128 j) k) := by
  exact (congrFun (V_v16 m c) (ix2 j k)).trans (extractStridedSlice_apply ![128, 0] _ slices_S256x128_S128x128_128_0 (ix2 j k) (ix2 (Fin.natAdd 128 j) k) (fun a => match a with
    | ⟨0, _⟩ => by show (Fin.natAdd 128 j).val = 128 + j.val; exact Fin.coe_natAdd 128 j
    | ⟨1, _⟩ => by show k.val = 0 + k.val; omega))

theorem any_b1 (c : Dev nD) (k : Fin 128) :
    V m c main_v17 (ix2 (0 : Fin 1) k) = (m ((c : Thread nD τ).loc main_arg4)) (ix1 k) := by
  exact (congrFun (V_v17 m c) (ix2 (0 : Fin 1) k)).trans (shapeCast_apply _ shapeCasts_S128_S1x128 (ix2 (0 : Fin 1) k) (ix1 k)
    (by rewrite [Shape.rowMajor_val_two, Shape.rowMajor_val_one]; show k.val = 0 * 128 + k.val; omega))

theorem any_b2 (c : Dev nD) :
    V m c main_v18 (ix2 (0 : Fin 1) (0 : Fin 1)) = (m ((c : Thread nD τ).loc main_arg6)) (ix1 (0 : Fin 1)) := by
  exact (congrFun (V_v18 m c) (ix2 (0 : Fin 1) (0 : Fin 1))).trans (shapeCast_apply _ shapeCasts_S1_S1x1 (ix2 (0 : Fin 1) (0 : Fin 1)) (ix1 (0 : Fin 1))
    (by rewrite [Shape.rowMajor_val_two, Shape.rowMajor_val_one]; show 0 = 0 * 1 + 0; omega))

theorem any_ab1 (c : Dev nD) (k : Fin 128) :
    V m c main_v19 (ix2 (0 : Fin 1) k) = (m ((c : Thread nD τ).loc main_arg8)) (ix1 k) := by
  exact (congrFun (V_v19 m c) (ix2 (0 : Fin 1) k)).trans (shapeCast_apply _ shapeCasts_S128_S1x128 (ix2 (0 : Fin 1) k) (ix1 k)
    (by rewrite [Shape.rowMajor_val_two, Shape.rowMajor_val_one]; show k.val = 0 * 128 + k.val; omega))

theorem any_ab2 (c : Dev nD) (q : Fin 64) :
    V m c main_v20 (ix2 (0 : Fin 1) q) = (m ((c : Thread nD τ).loc main_arg10)) (ix1 q) := by
  exact (congrFun (V_v20 m c) (ix2 (0 : Fin 1) q)).trans (shapeCast_apply _ shapeCasts_S64_S1x64 (ix2 (0 : Fin 1) q) (ix1 q)
    (by rewrite [Shape.rowMajor_val_two, Shape.rowMajor_val_one]; show q.val = 0 * 64 + q.val; omega))

/-! ## The two index columns -/

/-- The first stretch leaves in `main_v1` the edge list's source column and in `main_v3` its target column, as the
    reference's own first stages compute them. -/
theorem U1_v1 (c : Dev nD) : (U1 m c (Proc.devRef .tc main_v1) : (⟨S1000000, .i32⟩ : BufTy).Contents (Elt F))
    = Cert.ReferenceIdeal.Read.val_main_v1 (F := F) (m ((c : Thread nD τ).loc main_arg1)) := by
  unfold U1; simp only [hostOps0]
  after_results
  rfl
theorem U1_v3 (c : Dev nD) : (U1 m c (Proc.devRef .tc main_v3) : (⟨S1000000, .i32⟩ : BufTy).Contents (Elt F))
    = Cert.ReferenceIdeal.Read.val_main_v3 (F := F) (m ((c : Thread nD τ).loc main_arg1)) := by
  unfold U1; simp only [hostOps0]
  after_results
  rfl

/-! ## Which buffer each later stretch leaves alone -/

/-- The argument arrays the gathers read are as launched when they are read. -/
theorem U1_arg0 (c : Dev nD) : (U1 m c (Proc.devRef .tc main_arg0) : (⟨S100000x128, .f32⟩ : BufTy).Contents (Elt F)) = m ((c : Thread nD τ).loc main_arg0) := by
  unfold U1; step_nw; rfl

theorem U2_arg0 (c : Dev nD) : (U2 m c (Proc.devRef .tc main_arg0) : (⟨S100000x128, .f32⟩ : BufTy).Contents (Elt F)) = m ((c : Thread nD τ).loc main_arg0) := by
  unfold U2; step_nw; unfold U1; step_nw; rfl

theorem U3_arg2 (c : Dev nD) : (U3 m c (Proc.devRef .tc main_arg2) : (⟨S100000, .i32⟩ : BufTy).Contents (Elt F)) = m ((c : Thread nD τ).loc main_arg2) := by
  unfold U3; step_nw; unfold U2; step_nw; unfold U1; step_nw; rfl

theorem U4_arg2 (c : Dev nD) : (U4 m c (Proc.devRef .tc main_arg2) : (⟨S100000, .i32⟩ : BufTy).Contents (Elt F)) = m ((c : Thread nD τ).loc main_arg2) := by
  unfold U4; step_nw; unfold U3; step_nw; unfold U2; step_nw; unfold U1; step_nw; rfl

/-- The two index columns stay as the first stretch left them. -/
theorem U2_v3 (c : Dev nD) : (U2 m c (Proc.devRef .tc main_v3) : (⟨S1000000, .i32⟩ : BufTy).Contents (Elt F)) = U1 m c (Proc.devRef .tc main_v3) := by
  unfold U2; step_nw; rfl

theorem U3_v1 (c : Dev nD) : (U3 m c (Proc.devRef .tc main_v1) : (⟨S1000000, .i32⟩ : BufTy).Contents (Elt F)) = U1 m c (Proc.devRef .tc main_v1) := by
  unfold U3; step_nw; unfold U2; step_nw; rfl

theorem U4_v3 (c : Dev nD) : (U4 m c (Proc.devRef .tc main_v3) : (⟨S1000000, .i32⟩ : BufTy).Contents (Elt F)) = U1 m c (Proc.devRef .tc main_v3) := by
  unfold U4; step_nw; unfold U3; step_nw; unfold U2; step_nw; rfl

theorem U5_v1 (c : Dev nD) : (U5 m c (Proc.devRef .tc main_v1) : (⟨S1000000, .i32⟩ : BufTy).Contents (Elt F)) = U1 m c (Proc.devRef .tc main_v1) := by
  unfold U5; step_nw; unfold U4; step_nw; unfold U3; step_nw; unfold U2; step_nw; rfl

theorem U5_v3 (c : Dev nD) : (U5 m c (Proc.devRef .tc main_v3) : (⟨S1000000, .i32⟩ : BufTy).Contents (Elt F)) = U1 m c (Proc.devRef .tc main_v3) := by
  unfold U5; step_nw; unfold U4; step_nw; unfold U3; step_nw; unfold U2; step_nw; rfl

/-- Each gathered array stays as its own stretch left it. -/
theorem U5_v6 (c : Dev nD) : (U5 m c (Proc.devRef .tc main_v6) : (⟨S1000000, .i32⟩ : BufTy).Contents (Elt F)) = U4 m c (Proc.devRef .tc main_v6) := by
  unfold U5; step_nw; rfl

theorem V_v4_keep (c : Dev nD) : (V m c main_v4 : (⟨S1000000x128, .f32⟩ : BufTy).Contents (Elt F)) = U2 m c (Proc.devRef .tc main_v4) := by
  dsimp only [V]; rw [V0_eq]; step_nw; unfold U5; step_nw; unfold U4; step_nw; unfold U3; step_nw; rfl

theorem V_v5_keep (c : Dev nD) : (V m c main_v5 : (⟨S1000000x128, .f32⟩ : BufTy).Contents (Elt F)) = U3 m c (Proc.devRef .tc main_v5) := by
  dsimp only [V]; rw [V0_eq]; step_nw; unfold U5; step_nw; unfold U4; step_nw; rfl

/-! ## The gathered arrays, at any float instance, where the wrapped index is in range -/

/-- The gathered source rows, where the wrapped source index lies in 0 … 99999, are the reference's gather stage. -/
theorem src_rows (c : Dev nD) (e : Fin 1000000) (j : Fin 128)
    (h0 : IntOp.cmpi .sge (wrapIdx (Cert.ReferenceIdeal.Read.val_main_v1 (F := F) (m ((c : Thread nD τ).loc main_arg1))) (ix2 e (0 : Fin 1))) 0#32 = 1#1)
    (h1 : IntOp.cmpi .sle (wrapIdx (Cert.ReferenceIdeal.Read.val_main_v1 (F := F) (m ((c : Thread nD τ).loc main_arg1))) (ix2 e (0 : Fin 1))) 99999#32 = 1#1) :
    V m c main_v4 (ix2 e j) = Cert.ReferenceIdeal.Read.val_main_v10 (F := F) (m ((c : Thread nD τ).loc main_arg0)) (m ((c : Thread nD τ).loc main_arg1)) (ix2 e j) := by
  have g1 := congrFun (take_src (U1 m c)) (ix2 e j)
  rw [U1_v1 m c, U1_arg0 m c] at g1
  refine (congrFun (V_v4_keep m c) (ix2 e j)).trans (g1.trans ?_)
  exact (masked_rows_apply _ _ _ e j h0 h1).trans (congrFun (rows_src_ref _ _) (ix2 e j))

/-- The same for the target rows. -/
theorem tgt_rows (c : Dev nD) (e : Fin 1000000) (j : Fin 128)
    (h0 : IntOp.cmpi .sge (wrapIdx (Cert.ReferenceIdeal.Read.val_main_v3 (F := F) (m ((c : Thread nD τ).loc main_arg1))) (ix2 e (0 : Fin 1))) 0#32 = 1#1)
    (h1 : IntOp.cmpi .sle (wrapIdx (Cert.ReferenceIdeal.Read.val_main_v3 (F := F) (m ((c : Thread nD τ).loc main_arg1))) (ix2 e (0 : Fin 1))) 99999#32 = 1#1) :
    V m c main_v5 (ix2 e j) = Cert.ReferenceIdeal.Read.val_main_v17 (F := F) (m ((c : Thread nD τ).loc main_arg0)) (m ((c : Thread nD τ).loc main_arg1)) (ix2 e j) := by
  have g1 := congrFun (take_tgt (U2 m c)) (ix2 e j)
  rw [U2_v3 m c, U1_v3 m c, U2_arg0 m c] at g1
  refine (congrFun (V_v5_keep m c) (ix2 e j)).trans (g1.trans ?_)
  exact (masked_rows_apply _ _ _ e j h0 h1).trans (congrFun (rows_tgt_ref _ _) (ix2 e j))

/-- The packed integer columns: the two index columns, -/
theorem meta_si (c : Dev nD) (e : Fin 1000000) :
    V m c main_v12 (ix2 e (0 : Fin 4)) = Cert.ReferenceIdeal.Read.val_main_v1 (F := F) (m ((c : Thread nD τ).loc main_arg1)) (ix1 e) := by
  dsimp only [V]; rw [V0_eq]
  exact (meta_col0 (U5 m c) e).trans (congrFun ((U5_v1 m c).trans (U1_v1 m c)) (ix1 e))
theorem meta_ti (c : Dev nD) (e : Fin 1000000) :
    V m c main_v12 (ix2 e (1 : Fin 4)) = Cert.ReferenceIdeal.Read.val_main_v3 (F := F) (m ((c : Thread nD τ).loc main_arg1)) (ix1 e) := by
  dsimp only [V]; rw [V0_eq]
  exact (meta_col1 (U5 m c) e).trans (congrFun ((U5_v3 m c).trans (U1_v3 m c)) (ix1 e))

/-- and the gathered army counts, where the wrapped index is in range. -/
theorem meta_sa (c : Dev nD) (e : Fin 1000000)
    (h0 : IntOp.cmpi .sge (wrapIdx (Cert.ReferenceIdeal.Read.val_main_v1 (F := F) (m ((c : Thread nD τ).loc main_arg1))) (ix2 e (0 : Fin 1))) 0#32 = 1#1)
    (h1 : IntOp.cmpi .sle (wrapIdx (Cert.ReferenceIdeal.Read.val_main_v1 (F := F) (m ((c : Thread nD τ).loc main_arg1))) (ix2 e (0 : Fin 1))) 99999#32 = 1#1) :
    V m c main_v12 (ix2 e (2 : Fin 4)) = Cert.ReferenceIdeal.Read.val_main_v44 (F := F) (m ((c : Thread nD τ).loc main_arg1)) (m ((c : Thread nD τ).loc main_arg2)) (ix1 e) := by
  have g1 := congrFun (take_sa (U3 m c)) (ix1 e)
  rw [U3_v1 m c, U1_v1 m c, U3_arg2 m c] at g1
  dsimp only [V]; rw [V0_eq]
  refine (meta_col2 (U5 m c) e).trans ((congrFun (U5_v6 m c) (ix1 e)).trans (g1.trans ?_))
  exact (masked_words_apply _ _ _ e h0 h1).trans (congrFun (words_src_ref _ _) (ix1 e))
theorem meta_ta (c : Dev nD) (e : Fin 1000000)
    (h0 : IntOp.cmpi .sge (wrapIdx (Cert.ReferenceIdeal.Read.val_main_v3 (F := F) (m ((c : Thread nD τ).loc main_arg1))) (ix2 e (0 : Fin 1))) 0#32 = 1#1)
    (h1 : IntOp.cmpi .sle (wrapIdx (Cert.ReferenceIdeal.Read.val_main_v3 (F := F) (m ((c : Thread nD τ).loc main_arg1))) (ix2 e (0 : Fin 1))) 99999#32 = 1#1) :
    V m c main_v12 (ix2 e (3 : Fin 4)) = Cert.ReferenceIdeal.Read.val_main_v51 (F := F) (m ((c : Thread nD τ).loc main_arg1)) (m ((c : Thread nD τ).loc main_arg2)) (ix1 e) := by
  have g1 := congrFun (take_ta (U4 m c)) (ix1 e)
  rw [U4_v3 m c, U1_v3 m c, U4_arg2 m c] at g1
  dsimp only [V]; rw [V0_eq]
  refine (meta_col3 (U5 m c) e).trans (g1.trans ?_)
  exact (masked_words_apply _ _ _ e h0 h1).trans (congrFun (words_tgt_ref _ _) (ix1 e))

end AnyFloat

section AtIdeal

variable (m : (ℓ : Loc nD τ sig) → Buf (Elt Ideal) ℓ)

/-- The precondition bounds every word of the edge list by the table's length on both sides, so each wrapped index
    lies in 0 … 99999. -/
theorem wrapped_src_inb (hpre : Cert.Pre_KernelIdeal m) (c : Dev nD) (e : Fin 1000000) :
    IntOp.cmpi .sge (wrapIdx (Cert.ReferenceIdeal.Read.val_main_v1 (F := Ideal) (m ((c : Thread nD τ).loc main_arg1))) (ix2 e (0 : Fin 1))) 0#32 = 1#1
    ∧ IntOp.cmpi .sle (wrapIdx (Cert.ReferenceIdeal.Read.val_main_v1 (F := Ideal) (m ((c : Thread nD τ).loc main_arg1))) (ix2 e (0 : Fin 1))) 99999#32 = 1#1 := by
  have hp := pre_idx m hpre c e (0 : Fin 2)
  have hw := wrap_inb (Cert.ReferenceIdeal.Read.val_main_v1 (F := Ideal) (m ((c : Thread nD τ).loc main_arg1)) (ix1 e))
    (by rw [col_src_apply]; exact hp.1) (by rw [col_src_apply]; exact hp.2)
  rw [← wrapIdx_apply (Cert.ReferenceIdeal.Read.val_main_v1 (F := Ideal) (m ((c : Thread nD τ).loc main_arg1))) e] at hw
  exact hw
theorem wrapped_tgt_inb (hpre : Cert.Pre_KernelIdeal m) (c : Dev nD) (e : Fin 1000000) :
    IntOp.cmpi .sge (wrapIdx (Cert.ReferenceIdeal.Read.val_main_v3 (F := Ideal) (m ((c : Thread nD τ).loc main_arg1))) (ix2 e (0 : Fin 1))) 0#32 = 1#1
    ∧ IntOp.cmpi .sle (wrapIdx (Cert.ReferenceIdeal.Read.val_main_v3 (F := Ideal) (m ((c : Thread nD τ).loc main_arg1))) (ix2 e (0 : Fin 1))) 99999#32 = 1#1 := by
  have hp := pre_idx m hpre c e (1 : Fin 2)
  have hw := wrap_inb (Cert.ReferenceIdeal.Read.val_main_v3 (F := Ideal) (m ((c : Thread nD τ).loc main_arg1)) (ix1 e))
    (by rw [col_tgt_apply]; exact hp.1) (by rw [col_tgt_apply]; exact hp.2)
  rw [← wrapIdx_apply (Cert.ReferenceIdeal.Read.val_main_v3 (F := Ideal) (m ((c : Thread nD τ).loc main_arg1))) e] at hw
  exact hw

/-! ## The fourteen entry values at the ideal instance -/

theorem entry_src (hpre : Cert.Pre_KernelIdeal m) (c : Dev nD) (e : Fin 1000000) (j : Fin 128) :
    V m c main_v4 (ix2 e j) = Cert.ReferenceIdeal.Read.val_main_v10 (F := Ideal) (m ((c : Thread nD τ).loc main_arg0)) (m ((c : Thread nD τ).loc main_arg1)) (ix2 e j) := by
  exact src_rows m c e j (wrapped_src_inb m hpre c e).1 (wrapped_src_inb m hpre c e).2

theorem entry_tgt (hpre : Cert.Pre_KernelIdeal m) (c : Dev nD) (e : Fin 1000000) (j : Fin 128) :
    V m c main_v5 (ix2 e j) = Cert.ReferenceIdeal.Read.val_main_v17 (F := Ideal) (m ((c : Thread nD τ).loc main_arg0)) (m ((c : Thread nD τ).loc main_arg1)) (ix2 e j) := by
  exact tgt_rows m c e j (wrapped_tgt_inb m hpre c e).1 (wrapped_tgt_inb m hpre c e).2

theorem entry_si (c : Dev nD) (e : Fin 1000000) :
    V m c main_v12 (ix2 e (0 : Fin 4)) = Cert.ReferenceIdeal.Read.val_main_v1 (F := Ideal) (m ((c : Thread nD τ).loc main_arg1)) (ix1 e) := by
  exact meta_si m c e

theorem entry_ti (c : Dev nD) (e : Fin 1000000) :
    V m c main_v12 (ix2 e (1 : Fin 4)) = Cert.ReferenceIdeal.Read.val_main_v3 (F := Ideal) (m ((c : Thread nD τ).loc main_arg1)) (ix1 e) := by
  exact meta_ti m c e

theorem entry_sa (hpre : Cert.Pre_KernelIdeal m) (c : Dev nD) (e : Fin 1000000) :
    V m c main_v12 (ix2 e (2 : Fin 4)) = Cert.ReferenceIdeal.Read.val_main_v44 (F := Ideal) (m ((c : Thread nD τ).loc main_arg1)) (m ((c : Thread nD τ).loc main_arg2)) (ix1 e) := by
  exact meta_sa m c e (wrapped_src_inb m hpre c e).1 (wrapped_src_inb m hpre c e).2

theorem entry_ta (hpre : Cert.Pre_KernelIdeal m) (c : Dev nD) (e : Fin 1000000) :
    V m c main_v12 (ix2 e (3 : Fin 4)) = Cert.ReferenceIdeal.Read.val_main_v51 (F := Ideal) (m ((c : Thread nD τ).loc main_arg1)) (m ((c : Thread nD τ).loc main_arg2)) (ix1 e) := by
  exact meta_ta m c e (wrapped_tgt_inb m hpre c e).1 (wrapped_tgt_inb m hpre c e).2

theorem entry_w1t (c : Dev nD) (j k : Fin 128) :
    V m c main_v13 (ix2 j k) = (m ((c : Thread nD τ).loc main_arg3)) (ix2 (Fin.castAdd 128 j) k) :=
  any_w1t m c j k

theorem entry_w1b (c : Dev nD) (j k : Fin 128) :
    V m c main_v14 (ix2 j k) = (m ((c : Thread nD τ).loc main_arg3)) (ix2 (Fin.natAdd 128 j) k) :=
  any_w1b m c j k

theorem entry_a1t (c : Dev nD) (j k : Fin 128) :
    V m c main_v15 (ix2 j k) = (m ((c : Thread nD τ).loc main_arg7)) (ix2 (Fin.castAdd 128 j) k) :=
  any_a1t m c j k

theorem entry_a1b (c : Dev nD) (j k : Fin 128) :
    V m c main_v16 (ix2 j k) = (m ((c : Thread nD τ).loc main_arg7)) (ix2 (Fin.natAdd 128 j) k) :=
  any_a1b m c j k

theorem entry_b1 (c : Dev nD) (k : Fin 128) :
    V m c main_v17 (ix2 (0 : Fin 1) k) = (m ((c : Thread nD τ).loc main_arg4)) (ix1 k) :=
  any_b1 m c k

theorem entry_b2 (c : Dev nD) :
    V m c main_v18 (ix2 (0 : Fin 1) (0 : Fin 1)) = (m ((c : Thread nD τ).loc main_arg6)) (ix1 (0 : Fin 1)) :=
  any_b2 m c

theorem entry_ab1 (c : Dev nD) (k : Fin 128) :
    V m c main_v19 (ix2 (0 : Fin 1) k) = (m ((c : Thread nD τ).loc main_arg8)) (ix1 k) :=
  any_ab1 m c k

theorem entry_ab2 (c : Dev nD) (q : Fin 64) :
    V m c main_v20 (ix2 (0 : Fin 1) q) = (m ((c : Thread nD τ).loc main_arg10)) (ix1 q) :=
  any_ab2 m c q

end AtIdeal

end Cert.KernelIdeal.Region

end
-- ==== Proof.RefI.lean ====
/-
  The reference's two results read at one entry, at the ideal instance, as the two score functions of one edge.
-/
import proofs.«405955_j8813272891626_1_alg».proof.Proof.RefRead
import proofs.«405955_j8813272891626_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Read Idealize.ShloMosaic Idealize.ShloMosaic.ValueIdx

/-- The joined row [s, t] at a column of its first half is the source row at that column. -/
theorem cat_left (x0 : (⟨S100000x128, .f32⟩ : BufTy).Contents (Elt Ideal)) (x1 : (⟨S1000000x2, .i32⟩ : BufTy).Contents (Elt Ideal))
    (e : Fin 1000000) (j : Fin 128) :
    val_main_v18 (F := Ideal) x0 x1 (ix2 e (Fin.castAdd 128 j)) = val_main_v10 (F := Ideal) x0 x1 (ix2 e j) := by
  unfold val_main_v18
  exact concatenate_pair_apply_left (t := S1000000x256) (s₁ := S1000000x128) (s₂ := S1000000x128) 1
    (val_main_v10 (F := Ideal) x0 x1) (val_main_v17 (F := Ideal) x0 x1) _ (ix2 e (Fin.castAdd 128 j)) rfl (ix2 e j) (fun b => by
    match b with
    | ⟨0, _⟩ => rfl
    | ⟨1, _⟩ => rfl)

/-- The joined row [s, t] at a column of its second half is the target row at that column, 128 less. -/
theorem cat_right (x0 : (⟨S100000x128, .f32⟩ : BufTy).Contents (Elt Ideal)) (x1 : (⟨S1000000x2, .i32⟩ : BufTy).Contents (Elt Ideal))
    (e : Fin 1000000) (j : Fin 128) :
    val_main_v18 (F := Ideal) x0 x1 (ix2 e (Fin.natAdd 128 j)) = val_main_v17 (F := Ideal) x0 x1 (ix2 e j) := by
  unfold val_main_v18
  exact concatenate_pair_apply_right (t := S1000000x256) (s₁ := S1000000x128) (s₂ := S1000000x128) 1
    (val_main_v10 (F := Ideal) x0 x1) (val_main_v17 (F := Ideal) x0 x1) _ (ix2 e (Fin.natAdd 128 j)) rfl rfl (ix2 e j)
    (fun b hb => by
      match b with
      | ⟨0, _⟩ => rfl
      | ⟨1, _⟩ => exact absurd rfl hb)
    (by show j.val + 128 = 128 + j.val; omega)

/-- The hidden layer before the relu, at one edge and one unit. -/
theorem pre_apply (x0 : (⟨S100000x128, .f32⟩ : BufTy).Contents (Elt Ideal)) (x1 : (⟨S1000000x2, .i32⟩ : BufTy).Contents (Elt Ideal))
    (x3 : (⟨S256x128, .f32⟩ : BufTy).Contents (Elt Ideal)) (x4 : (⟨S128, .f32⟩ : BufTy).Contents (Elt Ideal))
    (e : Fin 1000000) (k : Fin 128) :
    val_main_v22 (F := Ideal) x0 x1 x3 x4 (ix2 e k) =
      Cert.Score.preAct (fun j => val_main_v10 (F := Ideal) x0 x1 (ix2 e j)) (fun j => val_main_v17 (F := Ideal) x0 x1 (ix2 e j))
        (fun j k => x3 (ix2 (Fin.castAdd 128 j) k)) (fun j k => x3 (ix2 (Fin.natAdd 128 j) k)) (fun k => x4 (ix1 k)) k := by
  rw [val_main_v22_apply, val_main_v19_apply, val_main_v21_apply, val_main_v20_apply]
  have hl : ∀ c : Fin 256, lidx_main_v19 (ix2 e k) c = ix2 e c := fun c =>
    funext fun a => Fin.ext (by match a with | ⟨0, _⟩ => rfl | ⟨1, _⟩ => rfl)
  have hr : ∀ c : Fin 256, ridx_main_v19 (ix2 e k) c = ix2 c k := fun c =>
    funext fun a => Fin.ext (by match a with | ⟨0, _⟩ => rfl | ⟨1, _⟩ => rfl)
  have hb : idx_main_v20 (idx_main_v21 (ix2 e k)) = ix1 k :=
    funext fun a => Fin.ext (by match a with | ⟨0, _⟩ => rfl)
  simp only [hl, hr, hb, Ideal.addf_def]
  unfold Cert.Score.preAct
  congr 1
  refine (Fin.sum_univ_add (M := EReal) (a := 128) (b := 128)
    (fun c : Fin (128 + 128) => val_main_v18 (F := Ideal) x0 x1 (ix2 e c) * x3 (ix2 c k))).trans ?_
  simp only [cat_left, cat_right]

/-- The hidden layer at one edge and one unit. -/
theorem hid_apply (x0 : (⟨S100000x128, .f32⟩ : BufTy).Contents (Elt Ideal)) (x1 : (⟨S1000000x2, .i32⟩ : BufTy).Contents (Elt Ideal))
    (x3 : (⟨S256x128, .f32⟩ : BufTy).Contents (Elt Ideal)) (x4 : (⟨S128, .f32⟩ : BufTy).Contents (Elt Ideal))
    (e : Fin 1000000) (k : Fin 128) :
    val_main_v23 (F := Ideal) x0 x1 x3 x4 (ix2 e k) =
      Cert.Score.hid (fun j => val_main_v10 (F := Ideal) x0 x1 (ix2 e j)) (fun j => val_main_v17 (F := Ideal) x0 x1 (ix2 e j))
        (fun j k => x3 (ix2 (Fin.castAdd 128 j) k)) (fun j k => x3 (ix2 (Fin.natAdd 128 j) k)) (fun k => x4 (ix1 k)) k := by
  rw [val_main_v23_apply, pre_apply, val_main_call0_v0_apply, val_main_call0_cst_apply]
  rfl

/-- The edge network's output before the masks: the hidden layer against the output column, plus the bias. -/
theorem edge_net_apply (x0 : (⟨S100000x128, .f32⟩ : BufTy).Contents (Elt Ideal)) (x1 : (⟨S1000000x2, .i32⟩ : BufTy).Contents (Elt Ideal))
    (x3 : (⟨S256x128, .f32⟩ : BufTy).Contents (Elt Ideal)) (x4 : (⟨S128, .f32⟩ : BufTy).Contents (Elt Ideal))
    (x5 : (⟨S128x1, .f32⟩ : BufTy).Contents (Elt Ideal)) (x6 : (⟨S1, .f32⟩ : BufTy).Contents (Elt Ideal)) (e : Fin 1000000) :
    val_main_v28 (F := Ideal) x0 x1 x3 x4 x5 x6 (ix1 e) =
      (∑ k : Fin 128, Cert.Score.hid (fun j => val_main_v10 (F := Ideal) x0 x1 (ix2 e j)) (fun j => val_main_v17 (F := Ideal) x0 x1 (ix2 e j))
        (fun j k => x3 (ix2 (Fin.castAdd 128 j) k)) (fun j k => x3 (ix2 (Fin.natAdd 128 j) k)) (fun k => x4 (ix1 k)) k * x5 (ix2 k (0 : Fin 1)))
        + x6 (ix1 (0 : Fin 1)) := by
  rw [val_main_v28_apply, val_main_v27_apply, val_main_v24_apply, val_main_v26_apply, val_main_v25_apply]
  have h28 : idx_main_v28 (ix1 e) = ix2 e (0 : Fin 1) :=
    funext fun a => Fin.ext (by match a with | ⟨0, _⟩ => exact Nat.div_one _ | ⟨1, _⟩ => rfl)
  have hl : ∀ c : Fin 128, lidx_main_v24 (ix2 e (0 : Fin 1)) c = ix2 e c := fun c =>
    funext fun a => Fin.ext (by match a with | ⟨0, _⟩ => rfl | ⟨1, _⟩ => rfl)
  have hr : ∀ c : Fin 128, ridx_main_v24 (ix2 e (0 : Fin 1)) c = ix2 c (0 : Fin 1) := fun c =>
    funext fun a => Fin.ext (by match a with | ⟨0, _⟩ => rfl | ⟨1, _⟩ => rfl)
  have hb : idx_main_v25 (idx_main_v26 (ix2 e (0 : Fin 1))) = ix1 (0 : Fin 1) :=
    funext fun a => Fin.ext (by match a with | ⟨0, _⟩ => rfl)
  simp only [h28, hl, hr, hb, Ideal.addf_def, hid_apply]

/-- The penalty of a bad edge: the truth value of "the source has at most two armies, or the target at least three times
    the source's" times the word of 1.0. -/
theorem bad_apply (x1 : (⟨S1000000x2, .i32⟩ : BufTy).Contents (Elt Ideal)) (x2 : (⟨S100000, .i32⟩ : BufTy).Contents (Elt Ideal))
    (e : Fin 1000000) :
    val_main_v60 (F := Ideal) x1 x2 (ix1 e) =
      Cert.Score.bitVal (Cert.Score.badBit (val_main_v44 (F := Ideal) x1 x2 (ix1 e)) (val_main_v51 (F := Ideal) x1 x2 (ix1 e)))
        * Ideal.ofBits .f32 0x3F800000#32 := by
  rw [val_main_v60_apply, val_main_v58_apply, val_main_v57_apply, val_main_v53_apply, val_main_v56_apply, val_main_v55_apply,
    val_main_v52_apply, val_main_v54_apply, val_main_c_7_apply, val_main_c_8_apply, val_main_v59_apply, val_main_cst_apply]
  rfl

/-- The penalty of an edge from an endpoint to itself: the truth value of "the two indices as given are equal" times the
    word of 100.0. -/
theorem same_apply (x1 : (⟨S1000000x2, .i32⟩ : BufTy).Contents (Elt Ideal)) (e : Fin 1000000) :
    val_main_v65 (F := Ideal) x1 (ix1 e) =
      Cert.Score.bitVal (Cert.Score.sameBit (val_main_v1 (F := Ideal) x1 (ix1 e)) (val_main_v3 (F := Ideal) x1 (ix1 e)))
        * Ideal.ofBits .f32 0x42C80000#32 := by
  rw [val_main_v65_apply, val_main_v63_apply, val_main_v62_apply, val_main_v64_apply, val_main_cst_9_apply]
  rfl

/-- The reference's first result at one edge is the edge score of that edge's rows, words and the edge network's weights. -/
theorem ref_edge (x0 : (⟨S100000x128, .f32⟩ : BufTy).Contents (Elt Ideal)) (x1 : (⟨S1000000x2, .i32⟩ : BufTy).Contents (Elt Ideal))
    (x2 : (⟨S100000, .i32⟩ : BufTy).Contents (Elt Ideal)) (x3 : (⟨S256x128, .f32⟩ : BufTy).Contents (Elt Ideal))
    (x4 : (⟨S128, .f32⟩ : BufTy).Contents (Elt Ideal)) (x5 : (⟨S128x1, .f32⟩ : BufTy).Contents (Elt Ideal))
    (x6 : (⟨S1, .f32⟩ : BufTy).Contents (Elt Ideal)) (e : Fin 1000000) :
    val_main_v66 (F := Ideal) x0 x1 x2 x3 x4 x5 x6 (ix1 e) =
      Cert.Score.edgeScore (fun j => val_main_v10 (F := Ideal) x0 x1 (ix2 e j)) (fun j => val_main_v17 (F := Ideal) x0 x1 (ix2 e j))
        (fun j k => x3 (ix2 (Fin.castAdd 128 j) k)) (fun j k => x3 (ix2 (Fin.natAdd 128 j) k)) (fun k => x4 (ix1 k)) (fun k => x5 (ix2 k (0 : Fin 1))) (x6 (ix1 (0 : Fin 1)))
        (val_main_v1 (F := Ideal) x1 (ix1 e)) (val_main_v3 (F := Ideal) x1 (ix1 e)) (val_main_v44 (F := Ideal) x1 x2 (ix1 e)) (val_main_v51 (F := Ideal) x1 x2 (ix1 e)) := by
  rw [val_main_v66_apply, val_main_v61_apply, edge_net_apply, bad_apply, same_apply]
  rfl

/-- The army network's hidden layer before the relu, at one edge and one unit. -/
theorem army_pre_apply (x0 : (⟨S100000x128, .f32⟩ : BufTy).Contents (Elt Ideal)) (x1 : (⟨S1000000x2, .i32⟩ : BufTy).Contents (Elt Ideal))
    (x7 : (⟨S256x128, .f32⟩ : BufTy).Contents (Elt Ideal)) (x8 : (⟨S128, .f32⟩ : BufTy).Contents (Elt Ideal))
    (e : Fin 1000000) (k : Fin 128) :
    val_main_v32 (F := Ideal) x0 x1 x7 x8 (ix2 e k) =
      Cert.Score.preAct (fun j => val_main_v10 (F := Ideal) x0 x1 (ix2 e j)) (fun j => val_main_v17 (F := Ideal) x0 x1 (ix2 e j))
        (fun j k => x7 (ix2 (Fin.castAdd 128 j) k)) (fun j k => x7 (ix2 (Fin.natAdd 128 j) k)) (fun k => x8 (ix1 k)) k := by
  rw [val_main_v32_apply, val_main_v29_apply, val_main_v31_apply, val_main_v30_apply]
  have hl : ∀ c : Fin 256, lidx_main_v29 (ix2 e k) c = ix2 e c := fun c =>
    funext fun a => Fin.ext (by match a with | ⟨0, _⟩ => rfl | ⟨1, _⟩ => rfl)
  have hr : ∀ c : Fin 256, ridx_main_v29 (ix2 e k) c = ix2 c k := fun c =>
    funext fun a => Fin.ext (by match a with | ⟨0, _⟩ => rfl | ⟨1, _⟩ => rfl)
  have hb : idx_main_v30 (idx_main_v31 (ix2 e k)) = ix1 k :=
    funext fun a => Fin.ext (by match a with | ⟨0, _⟩ => rfl)
  simp only [hl, hr, hb, Ideal.addf_def]
  unfold Cert.Score.preAct
  congr 1
  refine (Fin.sum_univ_add (M := EReal) (a := 128) (b := 128)
    (fun c : Fin (128 + 128) => val_main_v18 (F := Ideal) x0 x1 (ix2 e c) * x7 (ix2 c k))).trans ?_
  simp only [cat_left, cat_right]

/-- The army network's hidden layer at one edge and one unit. -/
theorem army_hid_apply (x0 : (⟨S100000x128, .f32⟩ : BufTy).Contents (Elt Ideal)) (x1 : (⟨S1000000x2, .i32⟩ : BufTy).Contents (Elt Ideal))
    (x7 : (⟨S256x128, .f32⟩ : BufTy).Contents (Elt Ideal)) (x8 : (⟨S128, .f32⟩ : BufTy).Contents (Elt Ideal))
    (e : Fin 1000000) (k : Fin 128) :
    val_main_v33 (F := Ideal) x0 x1 x7 x8 (ix2 e k) =
      Cert.Score.hid (fun j => val_main_v10 (F := Ideal) x0 x1 (ix2 e j)) (fun j => val_main_v17 (F := Ideal) x0 x1 (ix2 e j))
        (fun j k => x7 (ix2 (Fin.castAdd 128 j) k)) (fun j k => x7 (ix2 (Fin.natAdd 128 j) k)) (fun k => x8 (ix1 k)) k := by
  rw [val_main_v33_apply, army_pre_apply, val_main_call1_v0_apply, val_main_call1_cst_apply]
  rfl

/-- The army network's output before the mask, at one edge and one army count: the hidden layer against that count's
    output column, plus that count's bias. -/
theorem army_net_apply (x0 : (⟨S100000x128, .f32⟩ : BufTy).Contents (Elt Ideal)) (x1 : (⟨S1000000x2, .i32⟩ : BufTy).Contents (Elt Ideal))
    (x7 : (⟨S256x128, .f32⟩ : BufTy).Contents (Elt Ideal)) (x8 : (⟨S128, .f32⟩ : BufTy).Contents (Elt Ideal))
    (x9 : (⟨S128x64, .f32⟩ : BufTy).Contents (Elt Ideal)) (x10 : (⟨S64, .f32⟩ : BufTy).Contents (Elt Ideal))
    (e : Fin 1000000) (q : Fin 64) :
    val_main_v37 (F := Ideal) x0 x1 x7 x8 x9 x10 (ix2 e q) =
      (∑ k : Fin 128, Cert.Score.hid (fun j => val_main_v10 (F := Ideal) x0 x1 (ix2 e j)) (fun j => val_main_v17 (F := Ideal) x0 x1 (ix2 e j))
        (fun j k => x7 (ix2 (Fin.castAdd 128 j) k)) (fun j k => x7 (ix2 (Fin.natAdd 128 j) k)) (fun k => x8 (ix1 k)) k * x9 (ix2 k q))
        + x10 (ix1 q) := by
  rw [val_main_v37_apply, val_main_v34_apply, val_main_v36_apply, val_main_v35_apply]
  have hl : ∀ c : Fin 128, lidx_main_v34 (ix2 e q) c = ix2 e c := fun c =>
    funext fun a => Fin.ext (by match a with | ⟨0, _⟩ => rfl | ⟨1, _⟩ => rfl)
  have hr : ∀ c : Fin 128, ridx_main_v34 (ix2 e q) c = ix2 c q := fun c =>
    funext fun a => Fin.ext (by match a with | ⟨0, _⟩ => rfl | ⟨1, _⟩ => rfl)
  have hb : idx_main_v35 (idx_main_v36 (ix2 e q)) = ix1 q :=
    funext fun a => Fin.ext (by match a with | ⟨0, _⟩ => rfl)
  simp only [hl, hr, hb, Ideal.addf_def, army_hid_apply]

/-- The mask of the army score at one edge and one army count: sending that many armies is allowed. -/
theorem valid_apply (x1 : (⟨S1000000x2, .i32⟩ : BufTy).Contents (Elt Ideal)) (x2 : (⟨S100000, .i32⟩ : BufTy).Contents (Elt Ideal))
    (e : Fin 1000000) (q : Fin 64) :
    val_main_v74 (F := Ideal) x1 x2 (ix2 e q) = Cert.Score.validBit q (val_main_v44 (F := Ideal) x1 x2 (ix1 e)) := by
  rw [val_main_v74_apply, val_main_v72_apply, val_main_v70_apply, val_main_v69_apply, val_main_v73_apply, val_main_v71_apply,
    val_main_v68_apply, val_main_v67_apply, val_main_c_10_apply]
  have h : idx_main_v71 (idx_main_v73 (ix2 e q)) = ix1 e :=
    funext fun a => Fin.ext (by match a with | ⟨0, _⟩ => rfl)
  rw [h]
  rfl

/-- The reference's second result at one edge and one army count is the army score of that edge's rows, the source's
    army count and the army network's weights. -/
theorem ref_army (x0 : (⟨S100000x128, .f32⟩ : BufTy).Contents (Elt Ideal)) (x1 : (⟨S1000000x2, .i32⟩ : BufTy).Contents (Elt Ideal))
    (x2 : (⟨S100000, .i32⟩ : BufTy).Contents (Elt Ideal)) (x7 : (⟨S256x128, .f32⟩ : BufTy).Contents (Elt Ideal))
    (x8 : (⟨S128, .f32⟩ : BufTy).Contents (Elt Ideal)) (x9 : (⟨S128x64, .f32⟩ : BufTy).Contents (Elt Ideal))
    (x10 : (⟨S64, .f32⟩ : BufTy).Contents (Elt Ideal)) (e : Fin 1000000) (q : Fin 64) :
    val_main_v75 (F := Ideal) x0 x1 x2 x7 x8 x9 x10 (ix2 e q) =
      Cert.Score.armyScore (fun j => val_main_v10 (F := Ideal) x0 x1 (ix2 e j)) (fun j => val_main_v17 (F := Ideal) x0 x1 (ix2 e j))
        (fun j k => x7 (ix2 (Fin.castAdd 128 j) k)) (fun j k => x7 (ix2 (Fin.natAdd 128 j) k)) (fun k => x8 (ix1 k)) (fun k => x9 (ix2 k q)) (x10 (ix1 q))
        (val_main_v44 (F := Ideal) x1 x2 (ix1 e)) q := by
  rw [val_main_v75_apply, valid_apply, army_net_apply, val_main_call2_v0_apply, val_main_cst_11_apply]
  rfl

end Cert.ReferenceIdeal.RefValue

end
-- ==== Proof.AssembleI.lean ====
import proofs.«405955_j8813272891626_1_alg».proof.Defs
import proofs.«405955_j8813272891626_1_alg».proof.Proof.Gen.Kernel
import proofs.«405955_j8813272891626_1_alg».proof.Proof.Gen.KernelIdeal
import proofs.«405955_j8813272891626_1_alg».proof.Proof.Gen.ReferenceIdeal
import proofs.«405955_j8813272891626_1_alg».proof.Proof.Gen.Pre_finite_inputs
import proofs.«405955_j8813272891626_1_alg».proof.Proof.Gen.ReferenceIdeal.Run
import proofs.«405955_j8813272891626_1_alg».proof.Proof.Gen.ReferenceIdeal.Read
import proofs.«405955_j8813272891626_1_alg».proof.Proof.RunI
import proofs.«405955_j8813272891626_1_alg».proof.Proof.BlocksI
import proofs.«405955_j8813272891626_1_alg».proof.Proof.EntryI
import proofs.«405955_j8813272891626_1_alg».proof.Proof.RefI
import Idealize.ShloMosaic.Lib.ValueIdx

/-! # The idealised kernel's value run, and the claims about the idealised programs

The frame run of the idealised kernel program leaves, in the two result arrays, what the pipeline's proof data say:
entry by entry the edge score and the army score of the data the region found. Read back through the host operations
before the region, those data are the reference program's own stages of the argument arrays, and the reference's two
results are the same two scores of them. So both programs end with equal results, and unchanged arguments. -/

set_option maxRecDepth 16384

noncomputable section

namespace Cert.KernelIdeal.Region

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (m : (ℓ : Loc nD τ sig) → Buf (Elt Ideal) ℓ) (ρ : Dev nD → PrngReg)

/-- The first result, as the reshape after the region leaves it, is the reference's edge-score stage of the argument
    arrays: entry `e` is window 13's array at `(e, 0)`, which is the edge score of what the region found, which the
    host operations before the region made the reference's own stages; and the reference's stage is that score. -/
theorem tail_v22_eq (hpre : Cert.Pre_KernelIdeal m) (c : Dev nD) :
    Pipeline.afterTail₀ cfgs (dats m) 0 (V0 m) [hostOps1] c main_v22
      = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨e, rfl⟩ : ∃ e, i = ix1 e := ⟨i 0, eq_ix1 i⟩
  rw [tail_v22 m c e, arr13_apply m c e]
  simp only [entry_src m hpre c, entry_tgt m hpre c, entry_si m c, entry_ti m c, entry_sa m hpre c, entry_ta m hpre c,
    entry_w1t m c, entry_w1b m c, entry_b1 m c, entry_b2 m c, V_main_arg5 m c]
  exact (Cert.ReferenceIdeal.RefValue.ref_edge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) e).symm

/-- The second result is window 14's array after the last grid point, and that is the reference's army-score stage of
    the argument arrays, entry by entry. -/
theorem arr14_eq (hpre : Cert.Pre_KernelIdeal m) (c : Dev nD) :
    (dats m 0 c).arrAt 14 (cfgs 0).N
      = Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) := by
  funext i
  obtain ⟨e, q, rfl⟩ : ∃ e q, i = ix2 e q := ⟨i 0, i 1, eq_ix2 i⟩
  rw [arr14_apply m c e q]
  simp only [entry_src m hpre c, entry_tgt m hpre c, entry_sa m hpre c,
    entry_a1t m c, entry_a1b m c, entry_ab1 m c, entry_ab2 m c, V_main_arg9 m c]
  exact (Cert.ReferenceIdeal.RefValue.ref_army (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) e q).symm

/-- THE VALUE RUN of the idealised kernel program: under the precondition, @main terminates on every weakly fair
    execution with its first result at the reference's edge-score stage of the argument arrays, its second at the
    reference's army-score stage of them, and every argument array as launched. -/
theorem value_run (hpre : Cert.Pre_KernelIdeal m) :
    θ_run defs (onTc (τ := τ) (main (F := Ideal))) ⟨m, fun _ => 0, ρ⟩ (fun r => ∀ c : Dev nD,
      r.2.mem ((c.tc : Thread nD τ).loc main_v22) = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v21_1) = Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  exact (θ_run defs _ _).mono (fun r h c => ⟨((h c).2 main_v22 (Pipeline.mem_restRefs_of main_v22 (by decide) (by decide))).trans (tail_v22_eq m hpre c),
      ((h c).1 14).trans (arr14_eq m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 6).trans ((((dats m) 0 c).arrAt_in 6 rfl _).trans ((A_eq m c 6).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).1 11).trans ((((dats m) 0 c).arrAt_in 11 rfl _).trans ((A_eq m c 11).trans (V_main_arg9 m c))),
      ((h c).2 main_arg10 (Pipeline.mem_restRefs_of main_arg10 (by decide) (by decide))).trans (W_main_arg10 m (dats m) c)⟩) (run_main m ρ)

end Cert.KernelIdeal.Region

/-! ## The claims -/

namespace Cert.Proof.Claims

open Idealize.ShloMosaic Idealize.SL.Sem

/-- The idealised kernel program runs and leaves its arguments unchanged. -/
theorem frame_pi : Cert.frame_KernelIdeal := fun m ρ _ => Cert.KernelIdeal.Region.frame m ρ

/-- The idealised reference program runs and leaves its arguments unchanged: its run states the two results first and
    the eleven arguments after them. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel: nothing to preserve. -/
theorem preserves : Cert.preserves_Kernel_KernelIdeal := trivial

/-- At the ideal instance, from memories that agree on the arguments, both programs run, end with equal results and
    leave their arguments unchanged. -/
theorem algebraic : Cert.algebraic_KernelIdeal_ReferenceIdeal := by
  intro m ρ m' ρ' hpre hagree
  refine ⟨fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Region.value_run m ρ hpre, ?_⟩
  refine (θ_run Cert.ReferenceIdeal.defs _ _).mono (fun _ h c => ⟨?_, ?_, (h c).2.2⟩)
    (Cert.ReferenceIdeal.Value.run (F := Ideal) m' ρ')
  · obtain ⟨h0, h1, h2, h3, h4, h5, h6, -⟩ := hagree c
    refine ((h c).1.trans (Cert.ReferenceIdeal.Read.val_main_v66_eq m' c)).trans ?_
    rw [h0, h1, h2, h3, h4, h5, h6]
  · obtain ⟨h0, h1, h2, -, -, -, -, h7, h8, h9, h10⟩ := hagree c
    refine ((h c).2.1.trans (Cert.ReferenceIdeal.Read.val_main_v75_eq _ _ _ _ _ _ _)).trans ?_
    rw [h0, h1, h2, h7, h8, h9, h10]

end Cert.Proof.Claims

end
-- ==== Proof.lean ====
/- The proof of `Cert.Claim` (proofs.«405955_j8813272891626_1_alg».proof.Defs).

   The kernel scores every edge (src, tgt) of a graph twice. It gathers the two endpoint rows of the node-embedding
   table and the two endpoint army counts on the host, then one pipelined region over blocks of 4000 edges runs two
   small networks on the pair of rows — a hidden layer `relu (src · W_top + tgt · W_bottom + b)` of 128 units
   followed by an output layer — and masks the results: the edge score loses 1 on a "bad" edge and 100 when source and
   target coincide; army score `q` is kept only for `q ≤ army(src) - 1` and is the fill value `-10⁹` otherwise. The
   reference does the same on the concatenated row `[src, tgt]` with the whole 256 × 128 matrix.

   Over the extended reals the two agree entry by entry: `[src, tgt] · W` is one sum of 256 products, the kernel's
   `src · W_top + tgt · W_bottom` the same sum split in two (addition of extended reals is commutative and associative;
   no finiteness is used), and every other step is the same operation on the same words. The one place the two programs
   differ is the gather: the kernel's fills an out-of-range row with a constant where the reference's clamps the
   index, so the statement assumes every endpoint index `i` of the edge list is a valid index of the 100000 rows in
   NumPy's sense, `-100000 ≤ i < 100000`; then the kernel's bounds mask is all ones and both gathers read the same row.

   Modules. Proof/Spec.lean: the two scores of one edge as functions of its rows and words. Proof/HostI, BodyI, RunI:
   the frame of the idealized kernel (what the region finds in each buffer; what the body leaves in the two output
   blocks; the run), and Proof/HostB, BodyB, RunB the same for the word-level kernel. Proof/PayloadI: the body's two
   stored values at an entry are the two scores of that edge's rows. Proof/BlocksI: the blocks written back tile the two
   output arrays, so each array entry is the score of its edge over the arrays the region found. Proof/EntryI: under the
   index precondition those arrays are the reference's own gathered rows, words and weight halves. Proof/RefI: the
   reference's two results at an entry are the same two scores. Proof/AssembleI: the kernel's value run and the claims. -/
import proofs.«405955_j8813272891626_1_alg».proof.Defs
import proofs.«405955_j8813272891626_1_alg».proof.Proof.Gen.Kernel
import proofs.«405955_j8813272891626_1_alg».proof.Proof.Gen.KernelIdeal
import proofs.«405955_j8813272891626_1_alg».proof.Proof.Gen.ReferenceIdeal
import proofs.«405955_j8813272891626_1_alg».proof.Proof.Gen.Pre_finite_inputs
import proofs.«405955_j8813272891626_1_alg».proof.Proof.RunB
import proofs.«405955_j8813272891626_1_alg».proof.Proof.AssembleI
import Idealize.ShloMosaic.Adequacy
import Idealize.ShloMosaic.Init

noncomputable section

namespace Cert.Proof

open Idealize.ShloMosaic Idealize.SL.Sem

/-- The word-level kernel runs to the end without a fault and leaves its eleven argument arrays as they were. -/
theorem frame_p : Cert.frame_Kernel := fun m ρ _ => Cert.Kernel.Region.frame m ρ

theorem claim : Cert.Claim :=
  ⟨Cert.Kernel.Gen.facts, Cert.KernelIdeal.Gen.facts, Cert.ReferenceIdeal.Gen.facts, Cert.Pre_finite_inputs.Gen.facts,
    frame_p, Claims.frame_pi, Claims.frame_ri, Claims.preserves, Claims.algebraic⟩

end Cert.Proof

end
